-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x16 : Shape := ⟨2, ![2097152, 16]⟩
abbrev S16x32768 : Shape := ⟨2, ![16, 32768]⟩
abbrev S_ : Shape := ⟨0, ![]⟩

class Facts : Prop where
  bcast_S_S16x32768 : S_.BroadcastsInDim S16x32768 (![] : Fin 0 → Fin S16x32768.rank)
  reducesTo_S16x32768_S_d0_1 : S16x32768.ReducesTo [0, 1] S_
  h_S_ : 0 < S_.numel
  bcast_S_S2097152x16 : S_.BroadcastsInDim S2097152x16 (![] : Fin 0 → Fin S2097152x16.rank)
  reducesTo_S2097152x16_S_d0_1 : S2097152x16.ReducesTo [0, 1] S_

variable [Facts]

def fn {F : FTy → Type} [FloatOps F] (main_arg0 : IVec S2097152x16 32) (main_arg1 : FVec F S16x32768 .f32) : IVec S_ 1 :=
  let main_v0 : FVec F S16x32768 .f32 := Host.absf main_arg1
  let main_cst : FVec F S_ .f32 := constant S_ .f32 0x7F800000#32
  let main_v1 : FVec F S16x32768 .f32 := broadcastInDim S16x32768 ![] bcast_S_S16x32768 main_cst
  let main_v2 : IVec S16x32768 1 := cmpf .olt main_v0 main_v1
  let main_c : IVec S_ 1 := constantI S_ 1 1#1
  let main_v3 : IVec S_ 1 := (fun x v => Host.reduce IntOp.andi x v reducesTo_S16x32768_S_d0_1 h_S_) main_v2 main_c
  let main_c_0 : IVec S_ 32 := constantI S_ 32 0#32
  let main_v4 : IVec S2097152x16 32 := broadcastInDim S2097152x16 ![] bcast_S_S2097152x16 main_c_0
  let main_v5 : IVec S2097152x16 1 := cmpi .eq main_arg0 main_v4
  let main_c_1 : IVec S_ 32 := constantI S_ 32 1#32
  let main_v6 : IVec S2097152x16 32 := broadcastInDim S2097152x16 ![] bcast_S_S2097152x16 main_c_1
  let main_v7 : IVec S2097152x16 1 := cmpi .eq main_arg0 main_v6
  let main_v8 : IVec S2097152x16 1 := ori main_v5 main_v7
  let main_c_2 : IVec S_ 1 := constantI S_ 1 1#1
  let main_v9 : IVec S_ 1 := (fun x v => Host.reduce IntOp.andi x v reducesTo_S2097152x16_S_d0_1 h_S_) main_v8 main_c_2
  let main_v10 : IVec S_ 1 := andi main_v3 main_v9
  main_v10
-- ==== Kernel.lean ====
abbrev S2097152x16 : Shape := ⟨2, ![2097152, 16]⟩
abbrev S16x32768 : Shape := ⟨2, ![16, 32768]⟩
abbrev S16 : Shape := ⟨1, ![16]⟩
abbrev S_ : Shape := ⟨0, ![]⟩
abbrev S1x16 : Shape := ⟨2, ![1, 16]⟩
abbrev S2097152 : Shape := ⟨1, ![2097152]⟩
abbrev S2097152x1 : Shape := ⟨2, ![2097152, 1]⟩
abbrev S8x128 : Shape := ⟨2, ![8, 128]⟩
abbrev S1x256 : Shape := ⟨2, ![1, 256]⟩
abbrev S256 : Shape := ⟨1, ![256]⟩
abbrev S2x128 : Shape := ⟨2, ![2, 128]⟩
abbrev S256x128 : Shape := ⟨2, ![256, 128]⟩
abbrev S1x512 : Shape := ⟨2, ![1, 512]⟩
abbrev S512 : Shape := ⟨1, ![512]⟩
abbrev S4x128 : Shape := ⟨2, ![4, 128]⟩
abbrev S1x1024 : Shape := ⟨2, ![1, 1024]⟩
abbrev S1024 : Shape := ⟨1, ![1024]⟩
abbrev S1x2048 : Shape := ⟨2, ![1, 2048]⟩
abbrev S2048 : Shape := ⟨1, ![2048]⟩
abbrev S16x128 : Shape := ⟨2, ![16, 128]⟩
abbrev S1x4096 : Shape := ⟨2, ![1, 4096]⟩
abbrev S4096 : Shape := ⟨1, ![4096]⟩
abbrev S32x128 : Shape := ⟨2, ![32, 128]⟩
abbrev S1x8192 : Shape := ⟨2, ![1, 8192]⟩
abbrev S8192 : Shape := ⟨1, ![8192]⟩
abbrev S64x128 : Shape := ⟨2, ![64, 128]⟩
abbrev S1x16384 : Shape := ⟨2, ![1, 16384]⟩
abbrev S16384 : Shape := ⟨1, ![16384]⟩
abbrev S128x128 : Shape := ⟨2, ![128, 128]⟩
abbrev S1x32768 : Shape := ⟨2, ![1, 32768]⟩
abbrev S32768 : Shape := ⟨1, ![32768]⟩
abbrev S1x256x128 : Shape := ⟨3, ![1, 256, 128]⟩
abbrev S8x256x128 : Shape := ⟨3, ![8, 256, 128]⟩
abbrev S4096x1 : Shape := ⟨2, ![4096, 1]⟩
abbrev S4096x16 : Shape := ⟨2, ![4096, 16]⟩
abbrev S1x128 : Shape := ⟨2, ![1, 128]⟩
abbrev S4096x128 : Shape := ⟨2, ![4096, 128]⟩
abbrev S4096x256 : Shape := ⟨2, ![4096, 256]⟩

abbrev nBuf : Space → Nat
  | .hbm => 75
  | .vmem => 7
  | .smem => 0
  | _ => 0

abbrev bufTy : (tb : Table) → Fin (tcTables nBuf tb) → BufTy
  | .hbm, ⟨0, _⟩ => ⟨S2097152x16, .i32⟩
  | .hbm, ⟨1, _⟩ => ⟨S16x32768, .f32⟩
  | .hbm, ⟨2, _⟩ => ⟨S16, .i32⟩
  | .hbm, ⟨3, _⟩ => ⟨S_, .i32⟩
  | .hbm, ⟨4, _⟩ => ⟨S16, .i32⟩
  | .hbm, ⟨5, _⟩ => ⟨S16, .i32⟩
  | .hbm, ⟨6, _⟩ => ⟨S_, .i32⟩
  | .hbm, ⟨7, _⟩ => ⟨S16, .i32⟩
  | .hbm, ⟨8, _⟩ => ⟨S16, .i32⟩
  | .hbm, ⟨9, _⟩ => ⟨S1x16, .i32⟩
  | .hbm, ⟨10, _⟩ => ⟨S2097152x16, .i32⟩
  | .hbm, ⟨11, _⟩ => ⟨S2097152x16, .i32⟩
  | .hbm, ⟨12, _⟩ => ⟨S_, .i32⟩
  | .hbm, ⟨13, _⟩ => ⟨S2097152, .i32⟩
  | .hbm, ⟨14, _⟩ => ⟨S2097152x1, .i32⟩
  | .hbm, ⟨15, _⟩ => ⟨S8x128, .f32⟩
  | .hbm, ⟨16, _⟩ => ⟨S1x256, .f32⟩
  | .hbm, ⟨17, _⟩ => ⟨S256, .f32⟩
  | .hbm, ⟨18, _⟩ => ⟨S2x128, .f32⟩
  | .hbm, ⟨19, _⟩ => ⟨S_, .i32⟩
  | .hbm, ⟨20, _⟩ => ⟨S_, .f32⟩
  | .hbm, ⟨21, _⟩ => ⟨S256x128, .f32⟩
  | .hbm, ⟨22, _⟩ => ⟨S1x512, .f32⟩
  | .hbm, ⟨23, _⟩ => ⟨S512, .f32⟩
  | .hbm, ⟨24, _⟩ => ⟨S4x128, .f32⟩
  | .hbm, ⟨25, _⟩ => ⟨S_, .i32⟩
  | .hbm, ⟨26, _⟩ => ⟨S_, .f32⟩
  | .hbm, ⟨27, _⟩ => ⟨S256x128, .f32⟩
  | .hbm, ⟨28, _⟩ => ⟨S1x1024, .f32⟩
  | .hbm, ⟨29, _⟩ => ⟨S1024, .f32⟩
  | .hbm, ⟨30, _⟩ => ⟨S8x128, .f32⟩
  | .hbm, ⟨31, _⟩ => ⟨S_, .i32⟩
  | .hbm, ⟨32, _⟩ => ⟨S_, .f32⟩
  | .hbm, ⟨33, _⟩ => ⟨S256x128, .f32⟩
  | .hbm, ⟨34, _⟩ => ⟨S1x2048, .f32⟩
  | .hbm, ⟨35, _⟩ => ⟨S2048, .f32⟩
  | .hbm, ⟨36, _⟩ => ⟨S16x128, .f32⟩
  | .hbm, ⟨37, _⟩ => ⟨S_, .i32⟩
  | .hbm, ⟨38, _⟩ => ⟨S_, .f32⟩
  | .hbm, ⟨39, _⟩ => ⟨S256x128, .f32⟩
  | .hbm, ⟨40, _⟩ => ⟨S1x4096, .f32⟩
  | .hbm, ⟨41, _⟩ => ⟨S4096, .f32⟩
  | .hbm, ⟨42, _⟩ => ⟨S32x128, .f32⟩
  | .hbm, ⟨43, _⟩ => ⟨S_, .i32⟩
  | .hbm, ⟨44, _⟩ => ⟨S_, .f32⟩
  | .hbm, ⟨45, _⟩ => ⟨S256x128, .f32⟩
  | .hbm, ⟨46, _⟩ => ⟨S1x8192, .f32⟩
  | .hbm, ⟨47, _⟩ => ⟨S8192, .f32⟩
  | .hbm, ⟨48, _⟩ => ⟨S64x128, .f32⟩
  | .hbm, ⟨49, _⟩ => ⟨S_, .i32⟩
  | .hbm, ⟨50, _⟩ => ⟨S_, .f32⟩
  | .hbm, ⟨51, _⟩ => ⟨S256x128, .f32⟩
  | .hbm, ⟨52, _⟩ => ⟨S1x16384, .f32⟩
  | .hbm, ⟨53, _⟩ => ⟨S16384, .f32⟩
  | .hbm, ⟨54, _⟩ => ⟨S128x128, .f32⟩
  | .hbm, ⟨55, _⟩ => ⟨S_, .i32⟩
  | .hbm, ⟨56, _⟩ => ⟨S_, .f32⟩
  | .hbm, ⟨57, _⟩ => ⟨S256x128, .f32⟩
  | .hbm, ⟨58, _⟩ => ⟨S1x32768, .f32⟩
  | .hbm, ⟨59, _⟩ => ⟨S32768, .f32⟩
  | .hbm, ⟨60, _⟩ => ⟨S256x128, .f32⟩
  | .hbm, ⟨61, _⟩ => ⟨S1x256x128, .f32⟩
  | .hbm, ⟨62, _⟩ => ⟨S1x256x128, .f32⟩
  | .hbm, ⟨63, _⟩ => ⟨S1x256x128, .f32⟩
  | .hbm, ⟨64, _⟩ => ⟨S1x256x128, .f32⟩
  | .hbm, ⟨65, _⟩ => ⟨S1x256x128, .f32⟩
  | .hbm, ⟨66, _⟩ => ⟨S1x256x128, .f32⟩
  | .hbm, ⟨67, _⟩ => ⟨S1x256x128, .f32⟩
  | .hbm, ⟨68, _⟩ => ⟨S1x256x128, .f32⟩
  | .hbm, ⟨69, _⟩ => ⟨S8x256x128, .f32⟩
  | .hbm, ⟨70, _⟩ => ⟨S8x256x128, .bf16⟩
  | .hbm, ⟨71, _⟩ => ⟨S8x256x128, .f32⟩
  | .hbm, ⟨72, _⟩ => ⟨S8x256x128, .f32⟩
  | .hbm, ⟨73, _⟩ => ⟨S8x256x128, .bf16⟩
  | .hbm, ⟨74, _⟩ => ⟨S2097152x16, .f32⟩
  | .local _ .vmem, ⟨0, _⟩ => ⟨S4096x1, .i32⟩
  | .local _ .vmem, ⟨1, _⟩ => ⟨S4096x1, .i32⟩
  | .local _ .vmem, ⟨2, _⟩ => ⟨S8x128, .f32⟩
  | .local _ .vmem, ⟨3, _⟩ => ⟨S8x256x128, .bf16⟩
  | .local _ .vmem, ⟨4, _⟩ => ⟨S8x256x128, .bf16⟩
  | .local _ .vmem, ⟨5, _⟩ => ⟨S4096x16, .f32⟩
  | .local _ .vmem, ⟨6, _⟩ => ⟨S4096x16, .f32⟩
  | _, _ => ⟨S2097152x16, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_2 : Ref sig .tc := ⟨.hbm, 19, rfl⟩
abbrev main_call0_v0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_3 : Ref sig .tc := ⟨.hbm, 25, rfl⟩
abbrev main_call1_v0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_4 : Ref sig .tc := ⟨.hbm, 31, rfl⟩
abbrev main_call2_v0 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_5 : Ref sig .tc := ⟨.hbm, 37, rfl⟩
abbrev main_call3_v0 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_6 : Ref sig .tc := ⟨.hbm, 43, rfl⟩
abbrev main_call4_v0 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_call5_v0 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_8 : Ref sig .tc := ⟨.hbm, 55, rfl⟩
abbrev main_call6_v0 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S16 : S_.BroadcastsInDim S16 (![] : Fin 0 → Fin S16.rank)
  bcast_S16_S1x16_1 : S16.BroadcastsInDim S1x16 (![1] : Fin 1 → Fin S1x16.rank)
  bcast_S1x16_S2097152x16_0_1 : S1x16.BroadcastsInDim S2097152x16 (![0, 1] : Fin 2 → Fin S2097152x16.rank)
  reducesTo_S2097152x16_S2097152_d1 : S2097152x16.ReducesTo [1] S2097152
  h_S_ : 0 < S_.numel
  shapeCasts_S2097152_S2097152x1 : S2097152.ShapeCasts S2097152x1
  slices_S16x32768_S8x128_0_0 : S16x32768.Slices ![0, 0] S8x128
  slices_S16x32768_S1x256_8_0 : S16x32768.Slices ![8, 0] S1x256
  shapeCasts_S1x256_S256 : S1x256.ShapeCasts S256
  shapeCasts_S256_S2x128 : S256.ShapeCasts S2x128
  pads_S2x128_S256x128_02540_000 : S2x128.Pads (![0, 0] : Fin 2 → Nat) ![254, 0] ![0, 0] S256x128
  slices_S16x32768_S1x512_9_0 : S16x32768.Slices ![9, 0] S1x512
  shapeCasts_S1x512_S512 : S1x512.ShapeCasts S512
  shapeCasts_S512_S4x128 : S512.ShapeCasts S4x128
  pads_S4x128_S256x128_02520_000 : S4x128.Pads (![0, 0] : Fin 2 → Nat) ![252, 0] ![0, 0] S256x128
  slices_S16x32768_S1x1024_10_0 : S16x32768.Slices ![10, 0] S1x1024
  shapeCasts_S1x1024_S1024 : S1x1024.ShapeCasts S1024
  shapeCasts_S1024_S8x128 : S1024.ShapeCasts S8x128
  pads_S8x128_S256x128_02480_000 : S8x128.Pads (![0, 0] : Fin 2 → Nat) ![248, 0] ![0, 0] S256x128
  slices_S16x32768_S1x2048_11_0 : S16x32768.Slices ![11, 0] S1x2048
  shapeCasts_S1x2048_S2048 : S1x2048.ShapeCasts S2048
  shapeCasts_S2048_S16x128 : S2048.ShapeCasts S16x128
  pads_S16x128_S256x128_02400_000 : S16x128.Pads (![0, 0] : Fin 2 → Nat) ![240, 0] ![0, 0] S256x128
  slices_S16x32768_S1x4096_12_0 : S16x32768.Slices ![12, 0] S1x4096
  shapeCasts_S1x4096_S4096 : S1x4096.ShapeCasts S4096
  shapeCasts_S4096_S32x128 : S4096.ShapeCasts S32x128
  pads_S32x128_S256x128_02240_000 : S32x128.Pads (![0, 0] : Fin 2 → Nat) ![224, 0] ![0, 0] S256x128
  slices_S16x32768_S1x8192_13_0 : S16x32768.Slices ![13, 0] S1x8192
  shapeCasts_S1x8192_S8192 : S1x8192.ShapeCasts S8192
  shapeCasts_S8192_S64x128 : S8192.ShapeCasts S64x128
  pads_S64x128_S256x128_01920_000 : S64x128.Pads (![0, 0] : Fin 2 → Nat) ![192, 0] ![0, 0] S256x128
  slices_S16x32768_S1x16384_14_0 : S16x32768.Slices ![14, 0] S1x16384
  shapeCasts_S1x16384_S16384 : S1x16384.ShapeCasts S16384
  shapeCasts_S16384_S128x128 : S16384.ShapeCasts S128x128
  pads_S128x128_S256x128_01280_000 : S128x128.Pads (![0, 0] : Fin 2 → Nat) ![128, 0] ![0, 0] S256x128
  slices_S16x32768_S1x32768_15_0 : S16x32768.Slices ![15, 0] S1x32768
  shapeCasts_S1x32768_S32768 : S1x32768.ShapeCasts S32768
  shapeCasts_S32768_S256x128 : S32768.ShapeCasts S256x128
  bcast_S256x128_S1x256x128_1_2 : S256x128.BroadcastsInDim S1x256x128 (![1, 2] : Fin 2 → Fin S1x256x128.rank)
  concatenates_S1x256x128_S1x256x128_S1x256x128_S1x256x128_S1x256x128_S1x256x128_S1x256x128_S1x256x128_S8x256x128_d0 : Shape.Concatenates [S1x256x128, S1x256x128, S1x256x128, S1x256x128, S1x256x128, S1x256x128, S1x256x128, S1x256x128] S8x256x128 0
  bitsLt_bf16_f32 : FTy.bits .bf16 < FTy.bits .f32
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  iota_S1x128_d1_w32 : S1x128.Iotas .tc 32 [1]
  broadcasts_S4096x1_S4096x128 : S4096x1.Broadcasts S4096x128
  broadcasts_S1x128_S4096x128 : S1x128.Broadcasts S4096x128
  natLt_1_32 : 1 < 32
  inb_S8x128_S1x128_0_0 : ∀ a, (![0, 0] : Fin 2 → Nat) a + S1x128.size a ≤ S8x128.size a
  h_S1x128 : 0 < S1x128.numel
  shapeCasts_S1x128_S1x128 : S1x128.ShapeCasts S1x128
  reduces_S4096x128_S4096 : S4096x128.Reduces [1] S4096
  shapeCasts_S4096_S4096x1 : S4096.ShapeCasts S4096x1
  inb_S8x128_S1x128_1_0 : ∀ a, (![1, 0] : Fin 2 → Nat) a + S1x128.size a ≤ S8x128.size a
  inb_S8x128_S1x128_2_0 : ∀ a, (![2, 0] : Fin 2 → Nat) a + S1x128.size a ≤ S8x128.size a
  inb_S8x128_S1x128_3_0 : ∀ a, (![3, 0] : Fin 2 → Nat) a + S1x128.size a ≤ S8x128.size a
  inb_S8x128_S1x128_4_0 : ∀ a, (![4, 0] : Fin 2 → Nat) a + S1x128.size a ≤ S8x128.size a
  inb_S8x128_S1x128_5_0 : ∀ a, (![5, 0] : Fin 2 → Nat) a + S1x128.size a ≤ S8x128.size a
  inb_S8x128_S1x128_6_0 : ∀ a, (![6, 0] : Fin 2 → Nat) a + S1x128.size a ≤ S8x128.size a
  inb_S8x128_S1x128_7_0 : ∀ a, (![7, 0] : Fin 2 → Nat) a + S1x128.size a ≤ S8x128.size a
  iota_S1x256_d1_w32 : S1x256.Iotas .tc 32 [1]
  broadcasts_S4096x1_S4096x256 : S4096x1.Broadcasts S4096x256
  broadcasts_S1x256_S4096x256 : S1x256.Broadcasts S4096x256
  inb_S8x256x128_S1x256x128_0_0_0 : ∀ a, (![0, 0, 0] : Fin 3 → Nat) a + S1x256x128.size a ≤ S8x256x128.size a
  h_S1x256x128 : 0 < S1x256x128.numel
  shapeCasts_S1x256x128_S256x128 : S1x256x128.ShapeCasts S256x128
  inb_S8x256x128_S1x256x128_1_0_0 : ∀ a, (![1, 0, 0] : Fin 3 → Nat) a + S1x256x128.size a ≤ S8x256x128.size a
  inb_S8x256x128_S1x256x128_2_0_0 : ∀ a, (![2, 0, 0] : Fin 3 → Nat) a + S1x256x128.size a ≤ S8x256x128.size a
  inb_S8x256x128_S1x256x128_3_0_0 : ∀ a, (![3, 0, 0] : Fin 3 → Nat) a + S1x256x128.size a ≤ S8x256x128.size a
  inb_S8x256x128_S1x256x128_4_0_0 : ∀ a, (![4, 0, 0] : Fin 3 → Nat) a + S1x256x128.size a ≤ S8x256x128.size a
  inb_S8x256x128_S1x256x128_5_0_0 : ∀ a, (![5, 0, 0] : Fin 3 → Nat) a + S1x256x128.size a ≤ S8x256x128.size a
  inb_S8x256x128_S1x256x128_6_0_0 : ∀ a, (![6, 0, 0] : Fin 3 → Nat) a + S1x256x128.size a ≤ S8x256x128.size a
  inb_S8x256x128_S1x256x128_7_0_0 : ∀ a, (![7, 0, 0] : Fin 3 → Nat) a + S1x256x128.size a ≤ S8x256x128.size a
  concatenates_S4096x1_S4096x1_S4096x1_S4096x1_S4096x1_S4096x1_S4096x1_S4096x1_S4096x1_S4096x1_S4096x1_S4096x1_S4096x1_S4096x1_S4096x1_S4096x1_S4096x16_d1 : Shape.Concatenates [S4096x1, S4096x1, S4096x1, S4096x1, S4096x1, S4096x1, S4096x1, S4096x1, S4096x1, S4096x1, S4096x1, S4096x1, S4096x1, S4096x1, S4096x1, S4096x1] S4096x16 1
  inb_S4096x16_S4096x16_0_0 : ∀ a, (![0, 0] : Fin 2 → Nat) a + S4096x16.size a ≤ S4096x16.size a
  h_S4096x16 : 0 < S4096x16.numel
  dot_S4096x256_S256x128_S4096x128_1_0_0_1_n_n_wf : DotDims.WF S4096x256 S256x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x1.size a ≤ S2097152x1.size a
  hwx0_0 : ∀ i : grid0.Coords, EltTy.bits .i32 = 32 ∨ (Rect.block (s := S2097152x1) S4096x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S8x128.size a
  hwx0_1 : ∀ i : grid0.Coords, EltTy.bits .f32 = 32 ∨ (Rect.block (s := S8x128) S8x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x256x128.size a ≤ S8x256x128.size a
  hwx0_2 : ∀ i : grid0.Coords, EltTy.bits .bf16 = 32 ∨ (Rect.block (s := S8x256x128) S8x256x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x256x128.size a ≤ S8x256x128.size a
  hwx0_3 : ∀ i : grid0.Coords, EltTy.bits .bf16 = 32 ∨ (Rect.block (s := S8x256x128) S8x256x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x16.size a ≤ S2097152x16.size a
  hwx0_4 : ∀ i : grid0.Coords, EltTy.bits .f32 = 32 ∨ (Rect.block (s := S2097152x16) S4096x16.size (cc0_transform_4 i) (hinb0_4 i)).WholeWords (EltTy.packing .f32)

variable [Facts₀]

def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf

abbrev win0_0 : Pipeline.Window sig grid0 :=
  Pipeline.Window.ofSpec (Memref.whole main_v9) S4096x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S8x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v51) S8x256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v54) S8x256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v55) S4096x16.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2097152x16 : Shape := ⟨2, ![2097152, 16]⟩
abbrev S16x32768 : Shape := ⟨2, ![16, 32768]⟩
abbrev S16 : Shape := ⟨1, ![16]⟩
abbrev S_ : Shape := ⟨0, ![]⟩
abbrev S1x16 : Shape := ⟨2, ![1, 16]⟩
abbrev S2097152 : Shape := ⟨1, ![2097152]⟩
abbrev S2097152x1 : Shape := ⟨2, ![2097152, 1]⟩
abbrev S2097152x16x1 : Shape := ⟨3, ![2097152, 16, 1]⟩
abbrev S2097152x16x2 : Shape := ⟨3, ![2097152, 16, 2]⟩

abbrev nBuf : Space → Nat
  | .hbm => 53
  | .vmem => 0
  | .smem => 0
  | _ => 0

abbrev bufTy : (tb : Table) → Fin (tcTables nBuf tb) → BufTy
  | .hbm, ⟨0, _⟩ => ⟨S2097152x16, .i32⟩
  | .hbm, ⟨1, _⟩ => ⟨S16x32768, .f32⟩
  | .hbm, ⟨2, _⟩ => ⟨S2097152x16, .i32⟩
  | .hbm, ⟨3, _⟩ => ⟨S16, .i32⟩
  | .hbm, ⟨4, _⟩ => ⟨S_, .i32⟩
  | .hbm, ⟨5, _⟩ => ⟨S16, .i32⟩
  | .hbm, ⟨6, _⟩ => ⟨S16, .i32⟩
  | .hbm, ⟨7, _⟩ => ⟨S1x16, .i32⟩
  | .hbm, ⟨8, _⟩ => ⟨S2097152x16, .i32⟩
  | .hbm, ⟨9, _⟩ => ⟨S2097152x16, .i32⟩
  | .hbm, ⟨10, _⟩ => ⟨S_, .i32⟩
  | .hbm, ⟨11, _⟩ => ⟨S2097152, .i32⟩
  | .hbm, ⟨12, _⟩ => ⟨S16, .i32⟩
  | .hbm, ⟨13, _⟩ => ⟨S_, .i32⟩
  | .hbm, ⟨14, _⟩ => ⟨S16, .i32⟩
  | .hbm, ⟨15, _⟩ => ⟨S16, .i32⟩
  | .hbm, ⟨16, _⟩ => ⟨S_, .i32⟩
  | .hbm, ⟨17, _⟩ => ⟨S16, .i32⟩
  | .hbm, ⟨18, _⟩ => ⟨S16, .i32⟩
  | .hbm, ⟨19, _⟩ => ⟨S2097152x1, .i32⟩
  | .hbm, ⟨20, _⟩ => ⟨S1x16, .i32⟩
  | .hbm, ⟨21, _⟩ => ⟨S2097152x16, .i32⟩
  | .hbm, ⟨22, _⟩ => ⟨S2097152x16, .i32⟩
  | .hbm, ⟨23, _⟩ => ⟨S2097152x16, .i32⟩
  | .hbm, ⟨24, _⟩ => ⟨S16, .i32⟩
  | .hbm, ⟨25, _⟩ => ⟨S1x16, .i32⟩
  | .hbm, ⟨26, _⟩ => ⟨S_, .i32⟩
  | .hbm, ⟨27, _⟩ => ⟨S1x16, .i32⟩
  | .hbm, ⟨28, _⟩ => ⟨S1x16, .i1⟩
  | .hbm, ⟨29, _⟩ => ⟨S_, .i32⟩
  | .hbm, ⟨30, _⟩ => ⟨S1x16, .i32⟩
  | .hbm, ⟨31, _⟩ => ⟨S1x16, .i32⟩
  | .hbm, ⟨32, _⟩ => ⟨S1x16, .i32⟩
  | .hbm, ⟨33, _⟩ => ⟨S_, .i32⟩
  | .hbm, ⟨34, _⟩ => ⟨S2097152x16, .i32⟩
  | .hbm, ⟨35, _⟩ => ⟨S2097152x16, .i1⟩
  | .hbm, ⟨36, _⟩ => ⟨S_, .i32⟩
  | .hbm, ⟨37, _⟩ => ⟨S2097152x16, .i32⟩
  | .hbm, ⟨38, _⟩ => ⟨S2097152x16, .i32⟩
  | .hbm, ⟨39, _⟩ => ⟨S2097152x16, .i32⟩
  | .hbm, ⟨40, _⟩ => ⟨S2097152x16, .i32⟩
  | .hbm, ⟨41, _⟩ => ⟨S2097152x16x1, .i32⟩
  | .hbm, ⟨42, _⟩ => ⟨S2097152x16x1, .i32⟩
  | .hbm, ⟨43, _⟩ => ⟨S2097152x16x2, .i32⟩
  | .hbm, ⟨44, _⟩ => ⟨S2097152x16, .f32⟩
  | .hbm, ⟨45, _⟩ => ⟨S2097152x16, .f32⟩
  | .hbm, ⟨46, _⟩ => ⟨S2097152x16, .f32⟩
  | .hbm, ⟨47, _⟩ => ⟨S_, .f32⟩
  | .hbm, ⟨48, _⟩ => ⟨S2097152x16, .f32⟩
  | .hbm, ⟨49, _⟩ => ⟨S2097152x16, .f32⟩
  | .hbm, ⟨50, _⟩ => ⟨S2097152x16, .f32⟩
  | .hbm, ⟨51, _⟩ => ⟨S2097152x16, .f32⟩
  | .hbm, ⟨52, _⟩ => ⟨S2097152x16, .f32⟩
  | _, _ => ⟨S2097152x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c_0 : Ref sig .tc := ⟨.hbm, 10, rfl⟩
abbrev main_v7 : Ref sig .tc := ⟨.hbm, 11, rfl⟩
abbrev main_v8 : Ref sig .tc := ⟨.hbm, 12, rfl⟩
abbrev main_c_1 : Ref sig .tc := ⟨.hbm, 13, rfl⟩
abbrev main_v9 : Ref sig .tc := ⟨.hbm, 14, rfl⟩
abbrev main_v10 : Ref sig .tc := ⟨.hbm, 15, rfl⟩
abbrev main_c_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c_3 : Ref sig .tc := ⟨.hbm, 26, rfl⟩
abbrev main_v20 : Ref sig .tc := ⟨.hbm, 27, rfl⟩
abbrev main_v21 : Ref sig .tc := ⟨.hbm, 28, rfl⟩
abbrev main_c_4 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_5 : Ref sig .tc := ⟨.hbm, 33, rfl⟩
abbrev main_v25 : Ref sig .tc := ⟨.hbm, 34, rfl⟩
abbrev main_v26 : Ref sig .tc := ⟨.hbm, 35, rfl⟩
abbrev main_c_6 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩

abbrev nD : Nat := 1
abbrev τ : Topo := Topo.v7x

variable {F : FTy → Type} [FloatOps F]

class Facts₀ : Prop where
  bcast_S_S16 : S_.BroadcastsInDim S16 (![] : Fin 0 → Fin S16.rank)
  bcast_S16_S1x16_1 : S16.BroadcastsInDim S1x16 (![1] : Fin 1 → Fin S1x16.rank)
  bcast_S1x16_S2097152x16_0_1 : S1x16.BroadcastsInDim S2097152x16 (![0, 1] : Fin 2 → Fin S2097152x16.rank)
  reducesTo_S2097152x16_S2097152_d1 : S2097152x16.ReducesTo [1] S2097152
  h_S_ : 0 < S_.numel
  bcast_S2097152_S2097152x1_0 : S2097152.BroadcastsInDim S2097152x1 (![0] : Fin 1 → Fin S2097152x1.rank)
  bcast_S2097152x1_S2097152x16_0_1 : S2097152x1.BroadcastsInDim S2097152x16 (![0, 1] : Fin 2 → Fin S2097152x16.rank)
  bcast_S_S1x16 : S_.BroadcastsInDim S1x16 (![] : Fin 0 → Fin S1x16.rank)
  bcast_S_S2097152x16 : S_.BroadcastsInDim S2097152x16 (![] : Fin 0 → Fin S2097152x16.rank)
  bcast_S2097152x16_S2097152x16x1_0_1 : S2097152x16.BroadcastsInDim S2097152x16x1 (![0, 1] : Fin 2 → Fin S2097152x16x1.rank)
  concatenates_S2097152x16x1_S2097152x16x1_S2097152x16x2_d2 : Shape.Concatenates [S2097152x16x1, S2097152x16x1] S2097152x16x2 2
  gather_S16x32768_S2097152x16x2_S2097152x16_n_01_n_n_01_2_11_wf : GatherDims.WF S16x32768 S2097152x16x2 S2097152x16 [] [0, 1] [] [0, 1] [] 2 ![1, 1]

variable [Facts₀]

def gather_S16x32768_S2097152x16x2_S2097152x16_n_01_n_n_01_2_11 : GatherDims S16x32768 S2097152x16x2 S2097152x16 where
  offsetDims := []
  collapsedSliceDims := [0, 1]
  operandBatchingDims := []
  startIndicesBatchingDims := []
  startIndexMap := [0, 1]
  indexVectorDim := 2
  sliceSizes := ![1, 1]
  wf := gather_S16x32768_S2097152x16x2_S2097152x16_n_01_n_n_01_2_11_wf

class Facts : Prop extends Facts₀ where

variable [Facts]
-- ==== Proof.HandBase.lean ====
/-
  The idealized kernel's program up to its one region, and the body's stored value as one term.

  Before the region the host packs each row of bits into a word, cuts the first eight table rows to
  128 lanes, and lays the other eight rows out as eight zero-padded [256, 128] tables, once as they
  are and once as the residual of a change of format; `V` is what every buffer holds once those lines
  have run.  The body loads the block of packed words, the eight short rows one by one, the eight
  tables and the eight residual tables slab by slab, and stores one [4096, 16] block: `bodyVal` is that
  stored block as a function of the four input blocks.
-/
import proofs.«417890_j27668179321269_3_alg».proof.Proof.Gen.KernelIdeal.Launch
import proofs.«417890_j27668179321269_3_alg».proof.Proof.Gen.KernelIdeal.Skeleton
import proofs.«417890_j27668179321269_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-! ## @main up to the region -/

/-- Core `c`'s TensorCore buffers when the region is entered: after the fifteen stretches of host operations. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor

/-- @main up to the region: the stretches of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c)⟩) h

/-! ## The body's accesses and what it stores -/

abbrev rVal : Rect S4096x1 := Rect.unit (s := S4096x1) ![0, 0] S4096x1.size inb_S4096x1_S4096x1_0_0
abbrev rRow0 : Rect S8x128 := Rect.unit (s := S8x128) ![0, 0] S1x128.size inb_S8x128_S1x128_0_0
abbrev rRow1 : Rect S8x128 := Rect.unit (s := S8x128) ![1, 0] S1x128.size inb_S8x128_S1x128_1_0
abbrev rRow2 : Rect S8x128 := Rect.unit (s := S8x128) ![2, 0] S1x128.size inb_S8x128_S1x128_2_0
abbrev rRow3 : Rect S8x128 := Rect.unit (s := S8x128) ![3, 0] S1x128.size inb_S8x128_S1x128_3_0
abbrev rRow4 : Rect S8x128 := Rect.unit (s := S8x128) ![4, 0] S1x128.size inb_S8x128_S1x128_4_0
abbrev rRow5 : Rect S8x128 := Rect.unit (s := S8x128) ![5, 0] S1x128.size inb_S8x128_S1x128_5_0
abbrev rRow6 : Rect S8x128 := Rect.unit (s := S8x128) ![6, 0] S1x128.size inb_S8x128_S1x128_6_0
abbrev rRow7 : Rect S8x128 := Rect.unit (s := S8x128) ![7, 0] S1x128.size inb_S8x128_S1x128_7_0
abbrev rSlab0 : Rect S8x256x128 := Rect.unit (s := S8x256x128) ![0, 0, 0] S1x256x128.size inb_S8x256x128_S1x256x128_0_0_0
abbrev rSlab1 : Rect S8x256x128 := Rect.unit (s := S8x256x128) ![1, 0, 0] S1x256x128.size inb_S8x256x128_S1x256x128_1_0_0
abbrev rSlab2 : Rect S8x256x128 := Rect.unit (s := S8x256x128) ![2, 0, 0] S1x256x128.size inb_S8x256x128_S1x256x128_2_0_0
abbrev rSlab3 : Rect S8x256x128 := Rect.unit (s := S8x256x128) ![3, 0, 0] S1x256x128.size inb_S8x256x128_S1x256x128_3_0_0
abbrev rSlab4 : Rect S8x256x128 := Rect.unit (s := S8x256x128) ![4, 0, 0] S1x256x128.size inb_S8x256x128_S1x256x128_4_0_0
abbrev rSlab5 : Rect S8x256x128 := Rect.unit (s := S8x256x128) ![5, 0, 0] S1x256x128.size inb_S8x256x128_S1x256x128_5_0_0
abbrev rSlab6 : Rect S8x256x128 := Rect.unit (s := S8x256x128) ![6, 0, 0] S1x256x128.size inb_S8x256x128_S1x256x128_6_0_0
abbrev rSlab7 : Rect S8x256x128 := Rect.unit (s := S8x256x128) ![7, 0, 0] S1x256x128.size inb_S8x256x128_S1x256x128_7_0_0
abbrev rOut : Rect S4096x16 := Rect.unit (s := S4096x16) ![0, 0] S4096x16.size inb_S4096x16_S4096x16_0_0

/-- The block the body stores, from the four input blocks: the packed words `x0`, the eight short rows `x1`,
    the eight tables `x2` and the eight residual tables `x3`, through the body's named values in program order. -/
def bodyVal (x0 : Vec F S4096x1 .i32) (x1 : Vec F S8x128 .f32) (x2 x3 : Vec F S8x256x128 .bf16) : FVec F S4096x16 .f32 :=
  let v0 := View.ld x0 rVal
  let v1 := k0_pay4 v0
  let v9 := k0_pay5 v0
  let v33 := k0_pay6 v0 (View.ld x1 rRow0)
  let v45 := k0_pay7 v0 (View.ld x1 rRow1)
  let v57 := k0_pay8 v1 v45
  let v81 := k0_pay9 v1 (View.ld x1 rRow2)
  let v89 := k0_pay10 (F := F) v1
  let v91 := k0_pay11 (View.ld x1 rRow3)
  let v105 := k0_pay12 v1 v89 v91
  let v129 := k0_pay13 v1 (View.ld x1 rRow4)
  let v137 := k0_pay14 (F := F) v1
  let v153 := k0_pay15 v1 v137 (View.ld x1 rRow5)
  let v177 := k0_pay16 v1 (View.ld x1 rRow6)
  let v183 := k0_pay17 v9 (View.ld x1 rRow7)
  let v193 := k0_pay18 v1 v183
  let v224 := k0_pay19 v1 v9 (View.ld x2 rSlab0) (View.ld x3 rSlab0)
  let v225 := k0_pay20
  let v255 := k0_pay21 v1 v9 v225 (View.ld x2 rSlab1) (View.ld x3 rSlab1)
  let v266 := k0_pay22 (F := F) v1
  let v267 := View.ld x2 rSlab2
  let v286 := k0_pay23 v1 v9 v266 v267 (View.ld x3 rSlab2)
  let v307 := k0_pay24 v1 v9 (View.ld x2 rSlab3) (View.ld x3 rSlab3)
  let v317 := k0_pay25 v1 v307
  let v348 := k0_pay26 v1 v9 (View.ld x2 rSlab4) (View.ld x3 rSlab4)
  let v349 := k0_pay27
  let v379 := k0_pay28 v1 v9 v349 (View.ld x2 rSlab5) (View.ld x3 rSlab5)
  let v390 := k0_pay29 (F := F) v1
  let v391 := View.ld x2 rSlab6
  let v410 := k0_pay30 v1 v9 v390 v391 (View.ld x3 rSlab6)
  let v431 := k0_pay31 v1 v9 (View.ld x2 rSlab7) (View.ld x3 rSlab7)
  let v436 := k0_pay1 (F := F) v1
  let v437 := addf v436 v431
  let v441 := k0_pay2 v431 v436 v437
  k0_pay3 v33 v57 v81 v105 v129 v153 v177 v193 v224 v255 v286 v317 v348 v379 v410 v441

/-- What the output window's staging buffer holds after the body: the one whole-block store. -/
def out0_4 (x0 : Vec F S4096x1 .i32) (x1 : Vec F S8x128 .f32) (x2 x3 : Vec F S8x256x128 .bf16) : Vec F S4096x16 .f32 :=
  View.canon [⟨rOut, bodyVal x0 x1 x2 x3⟩]

end Cert.KernelIdeal.Hand

end
-- ==== Proof.Frame.lean ====
/-
  The idealized kernel's frame: its one region runs to the end at every grid point, leaving each input
  block as it found it and the output block at the body's stored value.

  The body's triple is read off its skeleton: it loads the block of packed words, eight short rows and
  sixteen table slabs, looks once at the output block, and overwrites it whole. The proof data names,
  for every grid point, what each window's staging buffer holds after the body; with it the launch
  theorem gives the run, whose post has every array of the pipeline at the value the write-backs leave,
  and every other buffer — the two argument arrays among them — as the region found it.
-/
import proofs.«417890_j27668179321269_3_alg».proof.Proof.HandBase

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The one store tiles the output block, so it covers it. -/
theorem cover0_4 (p0 : Vec F S4096x16 .f32) (y : S4096x16.Idx) :
    ∃ pc ∈ ([⟨rOut, p0⟩] : List (View.Piece (Elt F) S4096x16 .f32)), y ∈ pc.1.set :=
  View.cover_of_tiled [⟨rOut, p0⟩] S4096x16.size (by rfl) y

/-! ## The body's triple -/

set_option maxHeartbeats 4000000 in
/-- The body on whole staging memrefs, the inputs' at contents `x0 … x3` and the output's at anything, runs to the
    continuation holding the inputs' as they were and the output's at `out0_4` of the inputs'. -/
theorem sound_kernel (c : Dev nD) (E : Set ℕ) (i : grid0.Coords)
    (arg1 : Memref sig .tc .vmem S4096x1 .i32) (harg1 : arg1.IsWhole) (arg2 : Memref sig .tc .vmem S8x128 .f32) (harg2 : arg2.IsWhole)
    (arg3 : Memref sig .tc .vmem S8x256x128 .bf16) (harg3 : arg3.IsWhole) (arg4 : Memref sig .tc .vmem S8x256x128 .bf16) (harg4 : arg4.IsWhole)
    (arg5 : Memref sig .tc .vmem S4096x16 .f32) (harg5 : arg5.IsWhole)
    (x0 : Vec F S4096x1 .i32) (x1 : Vec F S8x128 .f32) (x2 x3 : Vec F S8x256x128 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E
          (cc0__bitlevel_kernel i arg1 harg1 arg2 harg2 arg3 harg3 arg4 harg4 arg5 harg5) K := by
  simp only [cc0__bitlevel_kernel_eq_skeleton]; unfold cc0__bitlevel_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold k0_part1_skel k0_part2_skel k0_part3_skel k0_part4_skel k0_part5_skel k0_part6_skel k0_part7_skel k0_part8_skel k0_part9_skel k0_part10_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover0_4 _)

/-! ## The pipeline's proof data -/

/-- The proof data of the one pipeline on core `c`: the arrays as the region finds them; after the body at point
    `t` each input's buffer at its block and the output's at the stored value of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, every array of the pipeline at what the write-backs leave and every
    other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end and leaves its two argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.Spec.lean ====
/-
  The value both programs compute, written as scalar formulas over one row's packed word.

  A row of sixteen entries b_0 … b_15 (most significant first) packs into the word
  v = Σ_k b_k · 2^(15-k).  Output column j belongs to bit i = 15 - j: with the bit's value ib and the
  table entry f = tables[i, v mod 2^i] the result is (ib + f) - (2·ib)·f, which is the exclusive or of
  ib and f when both are 0 or 1.  The kernel does not index the table: it multiplies a table row by the
  0/1 indicator of "this position is the address" and sums, and for bits 8 … 15 it splits the address
  into a high part (which of up to 256 rows of 128) and a low part (which of the 128 lanes).
-/
import Idealize.ShloMosaic.PureOps.Ideal
import Idealize.ShloMosaic.Lib.ValueIdx

noncomputable section

namespace Cert.Spec

open Idealize.ShloMosaic
open scoped BigOperators

/-- A 32-bit word read as a signed number, as an extended real. -/
def wordVal (w : BitVec 32) : EReal := ((w.toInt : ℝ) : EReal)

/-- The indicator, 0 or 1, that two words are equal: compared, widened to 32 bits, read as a number. -/
def ind (a b : BitVec 32) : EReal := wordVal ((IntOp.cmpi .eq a b).setWidth 32)

/-- The literal 2.0. -/
def two : EReal := Ideal.ofBits .f32 0x40000000#32

/-- (b + f) - (2·b)·f: the exclusive or of b and f when both are 0 or 1. -/
def flipBy (b f : EReal) : EReal := (b + f) - (two * b) * f

/-- A row of width n read through the indicator of position w: the sum of indicator times entry. -/
def sel (n : Nat) (w : BitVec 32) (row : Fin n → EReal) : EReal :=
  ∑ l : Fin n, ind w (BitVec.ofNat 32 l.val) * row l

/-- Bit i of the word, as the kernel takes it: shift right arithmetically by i, keep the last bit. -/
def kbit (w : BitVec 32) (i : Nat) : EReal :=
  wordVal (IntOp.andi (IntOp.shrsi .vector w (BitVec.ofNat 32 i)) 1#32)

/-- Bits 0 … 7: the address is the word's low i bits, looked up in a row of 128 lanes. -/
def lowFlip (w : BitVec 32) (i : Nat) (row : Fin 128 → EReal) : EReal :=
  sel 128 (IntOp.andi w (BitVec.ofNat 32 (2 ^ i - 1))) row

/-- The high part of the address of bit 8 + b: the word shifted right by 7, its low b + 1 bits. -/
def hiWord (w : BitVec 32) (b : Nat) : BitVec 32 :=
  IntOp.andi (IntOp.shrsi .vector w 7#32) (BitVec.ofNat 32 (2 ^ (b + 1) - 1))

/-- Bits 8 … 15: a [256, 128] table (and a second one, the residual, added to it) is first reduced
    over its rows by the indicator of the high part, then over its lanes by that of the low seven bits. -/
def hiFlip (w : BitVec 32) (b : Nat) (hw rs : Fin 256 → Fin 128 → EReal) : EReal :=
  ∑ l : Fin 128, ind (IntOp.andi w 127#32) (BitVec.ofNat 32 l.val) *
    (sel 256 (hiWord w b) (fun h => hw h l) + sel 256 (hiWord w b) (fun h => rs h l))

end Cert.Spec

end
-- ==== Proof.BodySpec.lean ====
/-
  The kernel's stored block, entry by entry, stated over the four input blocks.

  Entry (p, j) of the stored block belongs to bit i = 15 - j of row p's packed word w: it is the
  exclusive-or formula of the bit's value and the looked-up table entry, the look-up done through
  indicator sums — over the lanes of one short row for i < 8, over the rows and then the lanes of one
  [256, 128] table and its residual for i ≥ 8.
-/
import proofs.«417890_j27668179321269_3_alg».proof.Proof.HandBase
import proofs.«417890_j27668179321269_3_alg».proof.Proof.Spec
import Idealize.ShloMosaic.Lib.ValueIdx

noncomputable section

namespace Cert.KernelIdeal.Hand

open Idealize.ShloMosaic Idealize.ShloMosaic.ValueIdx
open Cert.KernelIdeal

/-- Row p's packed word in a block of packed words. -/
def wordAt (x0 : Vec Ideal S4096x1 .i32) (p : Fin 4096) : BitVec 32 := x0 (ix2 p (0 : Fin 1))

/-- The table entry bit i looks up, as the kernel computes it. -/
def kflip (x0 : Vec Ideal S4096x1 .i32) (x1 : Vec Ideal S8x128 .f32) (x2 x3 : Vec Ideal S8x256x128 .bf16) (p : Fin 4096) (i : Nat) : EReal :=
  if h : i < 8 then Cert.Spec.lowFlip (wordAt x0 p) i (fun l => x1 (ix2 (⟨i, h⟩ : Fin 8) l))
  else Cert.Spec.hiFlip (wordAt x0 p) (i - 8)
    (fun r l => x2 (ix3 (⟨(i - 8) % 8, Nat.mod_lt _ (by norm_num)⟩ : Fin 8) r l))
    (fun r l => x3 (ix3 (⟨(i - 8) % 8, Nat.mod_lt _ (by norm_num)⟩ : Fin 8) r l))

/-- Entry (p, j) of the stored block. -/
def kcol (x0 : Vec Ideal S4096x1 .i32) (x1 : Vec Ideal S8x128 .f32) (x2 x3 : Vec Ideal S8x256x128 .bf16) (p : Fin 4096) (j : Fin 16) : EReal :=
  Cert.Spec.flipBy (Cert.Spec.kbit (wordAt x0 p) (15 - j.val)) (kflip x0 x1 x2 x3 p (15 - j.val))

end Cert.KernelIdeal.Hand

end
-- ==== Proof.KSpec.lean ====
/-
  The kernel's result written over a row's packed word and the three staged table arrays.

  For a row whose packed word is w, column j (bit i = 15 - j) is the exclusive-or formula of bit i of w
  and the table entry the kernel looks up for bit i; the result array is that, row by row.
-/
import proofs.«417890_j27668179321269_3_alg».proof.Proof.BodySpec
import Idealize.ShloMosaic.Lib.ValueIdx

noncomputable section

namespace Cert.KernelIdeal.Hand

open Idealize.ShloMosaic Idealize.ShloMosaic.ValueIdx
open Cert.KernelIdeal

/-- The looked-up table entry of bit i for a row whose packed word is w. -/
def kflipW (w : BitVec 32) (x1 : Vec Ideal S8x128 .f32) (x2 x3 : Vec Ideal S8x256x128 .bf16) (i : Nat) : EReal :=
  if h : i < 8 then Cert.Spec.lowFlip w i (fun l => x1 (ix2 (⟨i, h⟩ : Fin 8) l))
  else Cert.Spec.hiFlip w (i - 8)
    (fun r l => x2 (ix3 (⟨(i - 8) % 8, Nat.mod_lt _ (by norm_num)⟩ : Fin 8) r l))
    (fun r l => x3 (ix3 (⟨(i - 8) % 8, Nat.mod_lt _ (by norm_num)⟩ : Fin 8) r l))

/-- Column j of a row whose packed word is w. -/
def kcolW (w : BitVec 32) (x1 : Vec Ideal S8x128 .f32) (x2 x3 : Vec Ideal S8x256x128 .bf16) (j : Fin 16) : EReal :=
  Cert.Spec.flipBy (Cert.Spec.kbit w (15 - j.val)) (kflipW w x1 x2 x3 (15 - j.val))

theorem kcol_eq (x0 : Vec Ideal S4096x1 .i32) (x1 : Vec Ideal S8x128 .f32) (x2 x3 : Vec Ideal S8x256x128 .bf16) (p : Fin 4096) (j : Fin 16) :
    kcol x0 x1 x2 x3 p j = kcolW (wordAt x0 p) x1 x2 x3 j := rfl

/-- The result array as one function of the four staged arrays: entry (r, j) is column j at row r's packed word. -/
def Karr (val : IVec S2097152x1 32) (small : Vec Ideal S8x128 .f32) (hw rs : Vec Ideal S8x256x128 .bf16) : S2097152x16.Idx → EReal :=
  fun i => kcolW (val (ix2 (⟨(i 0).val, idx2_lt0 i⟩ : Fin 2097152) (0 : Fin 1))) small hw rs ⟨(i 1).val, idx2_lt1 i⟩

end Cert.KernelIdeal.Hand

end
-- ==== Proof.GridFacts.lean ====
/-
  The pipeline's index maps over the grid, decided point by point: at grid point t the window of packed
  words and the result window sit at block row t, and the three table windows at block 0 on every axis.
-/
import proofs.«417890_j27668179321269_3_alg».proof.Proof.Gen.KernelIdeal.Points

set_option Elab.async false

noncomputable section

namespace Cert.KernelIdeal.Hand

open Idealize.ShloMosaic
open Cert.KernelIdeal Cert.KernelIdeal.Gen

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 3) = 0 ∧ win0_2.index t (1 : Fin 3) = 0 ∧ win0_2.index t (2 : Fin 3) = 0 :=
  (by decide +kernel : ∀ t : Fin grid0.N, _)
theorem idx3 : ∀ t : Fin cfg0.N, win0_3.index t (0 : Fin 3) = 0 ∧ win0_3.index t (1 : Fin 3) = 0 ∧ win0_3.index t (2 : Fin 3) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)

end Cert.KernelIdeal.Hand

end
-- ==== Proof.BlockReads.lean ====
/-
  Reading the input windows' blocks at grid point t off their arrays.

  The three table windows stage their whole array at every point, so the block is the array. The window
  of packed words stages rows 4096·t … 4096·t + 4095: row p of the block is row 4096·t + p of the array.
  Stated for any array, so that what the array holds is never looked into.
-/
import proofs.«417890_j27668179321269_3_alg».proof.Proof.GridFacts
import proofs.«417890_j27668179321269_3_alg».proof.Proof.HandBase
import Idealize.ShloMosaic.Lib.ValueIdx

set_option Elab.async false

noncomputable section

namespace Cert.KernelIdeal.Hand

open Idealize.ShloMosaic Idealize.ShloMosaic.TcCoe Idealize.ShloMosaic.ValueIdx
open Cert.KernelIdeal Cert.KernelIdeal.Gen

variable {F : FTy → Type} [FloatOps F]

theorem read_whole1 (A : Vec F S8x128 .f32) (t : Fin cfg0.N) : ((cfg0.win 1).blk t).view.read (Elt F) A = A := by
  obtain ⟨e0, e1⟩ := idx1 t
  funext y
  show A (((cfg0.win 1).blk t).view.emb y) = A y
  congr 1
  funext a; apply Fin.ext
  match a with
  | ⟨0, _⟩ => show win0_1.index t (0 : Fin 2) * 8 + 1 * (y 0).val = (y 0).val; omega
  | ⟨1, _⟩ => show win0_1.index t (1 : Fin 2) * 128 + 1 * (y 1).val = (y 1).val; omega

theorem read_whole2 (A : Vec F S8x256x128 .bf16) (t : Fin cfg0.N) : ((cfg0.win 2).blk t).view.read (Elt F) A = A := by
  obtain ⟨e0, e1, e2⟩ := idx2 t
  funext y
  show A (((cfg0.win 2).blk t).view.emb y) = A y
  congr 1
  funext a; apply Fin.ext
  match a with
  | ⟨0, _⟩ => show win0_2.index t (0 : Fin 3) * 8 + 1 * (y 0).val = (y 0).val; omega
  | ⟨1, _⟩ => show win0_2.index t (1 : Fin 3) * 256 + 1 * (y 1).val = (y 1).val; omega
  | ⟨2, _⟩ => show win0_2.index t (2 : Fin 3) * 128 + 1 * (y 2).val = (y 2).val; omega

theorem read_whole3 (A : Vec F S8x256x128 .bf16) (t : Fin cfg0.N) : ((cfg0.win 3).blk t).view.read (Elt F) A = A := by
  obtain ⟨e0, e1, e2⟩ := idx3 t
  funext y
  show A (((cfg0.win 3).blk t).view.emb y) = A y
  congr 1
  funext a; apply Fin.ext
  match a with
  | ⟨0, _⟩ => show win0_3.index t (0 : Fin 3) * 8 + 1 * (y 0).val = (y 0).val; omega
  | ⟨1, _⟩ => show win0_3.index t (1 : Fin 3) * 256 + 1 * (y 1).val = (y 1).val; omega
  | ⟨2, _⟩ => show win0_3.index t (2 : Fin 3) * 128 + 1 * (y 2).val = (y 2).val; omega

theorem read_rows0 (A : Vec F S2097152x1 .i32) (t : Fin cfg0.N) (p : Fin 4096) (hr : t.val * 4096 + p.val < 2097152) :
    ((cfg0.win 0).blk t).view.read (Elt F) A (ix2 p (0 : Fin 1)) = A (ix2 (⟨t.val * 4096 + p.val, hr⟩ : Fin 2097152) (0 : Fin 1)) := by
  obtain ⟨e0, e1⟩ := idx0 t
  show A (((cfg0.win 0).blk t).view.emb (ix2 p (0 : Fin 1))) = A _
  congr 1
  funext a; apply Fin.ext
  match a with
  | ⟨0, _⟩ => show win0_0.index t (0 : Fin 2) * 4096 + 1 * p.val = t.val * 4096 + p.val; omega
  | ⟨1, _⟩ => show win0_0.index t (1 : Fin 2) * 1 + 1 * 0 = 0; omega

end Cert.KernelIdeal.Hand

end
-- ==== Proof.Blocks.lean ====
/-
  From blocks to the whole result array.

  Grid point t stages rows 4096·t … 4096·t + 4095 of the packed words and of the result, and the whole
  of the three table arrays. So what point t writes back is block t of ONE function of the four staged
  arrays: entry (r, j) is the kernel's column formula at the packed word of row r. The 512 blocks
  tile the result array, hence the array ends holding that function.
-/
import proofs.«417890_j27668179321269_3_alg».proof.Proof.Frame
import proofs.«417890_j27668179321269_3_alg».proof.Proof.KSpec
import proofs.«417890_j27668179321269_3_alg».proof.Proof.BlockReads
import Idealize.ShloMosaic.Lib.Pipeline.Value

set_option maxRecDepth 16384
set_option Elab.async false

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

theorem hz2 : (![0, 0] : Fin 2 → Nat) = fun _ => 0 := funext fun a => by fin_cases a <;> rfl

/-- `Karr` by its two coordinates. -/
def KarrAt (A0 : Vec Ideal S2097152x1 .i32) (A1 : Vec Ideal S8x128 .f32) (A2 A3 : Vec Ideal S8x256x128 .bf16)
    (r : Fin 2097152) (j : Fin 16) : EReal := kcolW (A0 (ix2 r (0 : Fin 1))) A1 A2 A3 j

theorem karr_at (A0 : Vec Ideal S2097152x1 .i32) (A1 : Vec Ideal S8x128 .f32) (A2 A3 : Vec Ideal S8x256x128 .bf16) (i : S2097152x16.Idx) :
    Karr A0 A1 A2 A3 i = KarrAt A0 A1 A2 A3 ⟨(i 0).val, idx2_lt0 i⟩ ⟨(i 1).val, idx2_lt1 i⟩ := rfl

/-- Entry (p, j) of point t's block of the result array is entry (4096·t + p, j) of the array. -/
theorem emb4 (t : Fin cfg0.N) (p : Fin 4096) (j : Fin 16) :
    ((((cfg0.win 4).blk t).view.emb (ix2 p j)) 0).val = t.val * 4096 + p.val
    ∧ ((((cfg0.win 4).blk t).view.emb (ix2 p j)) 1).val = j.val := by
  obtain ⟨e0, e1⟩ := idx4 t
  constructor
  · show win0_4.index t (0 : Fin 2) * 4096 + 1 * p.val = _; omega
  · show win0_4.index t (1 : Fin 2) * 16 + 1 * j.val = _; omega

theorem karr_emb (A0 : Vec Ideal S2097152x1 .i32) (A1 : Vec Ideal S8x128 .f32) (A2 A3 : Vec Ideal S8x256x128 .bf16)
    (t : Fin cfg0.N) (p : Fin 4096) (j : Fin 16) (hr : t.val * 4096 + p.val < 2097152) :
    ((cfg0.win 4).blk t).view.read (Elt Ideal) (Karr A0 A1 A2 A3) (ix2 p j)
      = kcolW (A0 (ix2 (⟨t.val * 4096 + p.val, hr⟩ : Fin 2097152) (0 : Fin 1))) A1 A2 A3 j := by
  obtain ⟨h0, h1⟩ := emb4 t p j
  show Karr A0 A1 A2 A3 (((cfg0.win 4).blk t).view.emb (ix2 p j)) = KarrAt A0 A1 A2 A3 ⟨t.val * 4096 + p.val, hr⟩ j
  rw [karr_at]
  exact congrArg₂ (KarrAt A0 A1 A2 A3) (Fin.ext h0) (Fin.ext h1)

/-- For ANY four arrays: the body's stored value of their blocks at point t is block t of `Karr` of the arrays. -/
theorem blk_eq
    (hbody : ∀ (x0 : Vec Ideal S4096x1 .i32) (x1 : Vec Ideal S8x128 .f32) (x2 x3 : Vec Ideal S8x256x128 .bf16) (p : Fin 4096) (j : Fin 16),
      bodyVal (F := Ideal) x0 x1 x2 x3 (ix2 p j) = kcol x0 x1 x2 x3 p j)
    (A0 : Vec Ideal S2097152x1 .i32) (A1 : Vec Ideal S8x128 .f32) (A2 A3 : Vec Ideal S8x256x128 .bf16) (t : Fin cfg0.N) :
    bodyVal (F := Ideal) (((cfg0.win 0).blk t).view.read (Elt Ideal) A0) (((cfg0.win 1).blk t).view.read (Elt Ideal) A1)
        (((cfg0.win 2).blk t).view.read (Elt Ideal) A2) (((cfg0.win 3).blk t).view.read (Elt Ideal) A3)
      = ((cfg0.win 4).blk t).view.read (Elt Ideal) (Karr A0 A1 A2 A3) := by
  obtain ⟨e0, e1⟩ := idx4 t
  have ht : t.val < 512 := lt_of_lt_of_eq t.isLt N_0
  rw [read_whole1, read_whole2, read_whole3]
  funext (y : S4096x16.Idx)
  obtain ⟨p, j, rfl⟩ : ∃ (p : Fin 4096) (j : Fin 16), y = ix2 p j := ⟨y 0, y 1, eq_ix2 y⟩
  rw [hbody, kcol_eq]
  have hw : wordAt (((cfg0.win 0).blk t).view.read (Elt Ideal) A0) p
      = A0 (ix2 (⟨t.val * 4096 + p.val, by omega⟩ : Fin 2097152) (0 : Fin 1)) := read_rows0 A0 t p (by omega)
  rw [hw]
  exact (karr_emb A0 A1 A2 A3 t p j (by omega)).symm

variable (m : (ℓ : Loc nD τ sig) → Buf (Elt Ideal) ℓ) (ρ : Dev nD → PrngReg)

/-- What point t writes back is block t of `Karr` of the staged arrays. -/
theorem flushed4_eq
    (hbody : ∀ (x0 : Vec Ideal S4096x1 .i32) (x1 : Vec Ideal S8x128 .f32) (x2 x3 : Vec Ideal S8x256x128 .bf16) (p : Fin 4096) (j : Fin 16),
      bodyVal (F := Ideal) x0 x1 x2 x3 (ix2 p j) = kcol x0 x1 x2 x3 p j)
    (c : Dev nD) (t : Fin cfg0.N) :
    (dats m 0 c).flushed 4 t = ((cfg0.win 4).blk t).view.read (Elt Ideal)
      (Karr (V m c main_v9) (V m c main_v10) (V m c main_v51) (V m c main_v54)) := by
  show (cfg0.win 4).cut (grid0.coords t) ((dats m 0 c).after 4 t) = _
  rw [after0_4]
  unfold out0_4
  rw [View.canon_unit_zero hz2]
  exact blk_eq hbody (V m c main_v9) (V m c main_v10) (V m c main_v51) (V m c main_v54) t

/-- An index of the result array is in point t's block iff each coordinate is in the block's range. -/
theorem mem_blk4 (t : Fin cfg0.N) (i : S2097152x16.Idx) :
    i ∈ ((cfg0.win 4).blk t).view.set ↔ ∀ a : Fin 2, win0_4.index t a * S4096x16.size a ≤ (i a).val ∧ (i a).val < win0_4.index t a * S4096x16.size a + S4096x16.size a := by
  show i ∈ ((View.whole main_v55).slice (win0_4.rect t)).set ↔ _
  rw [View.set_slice_whole, Rect.mem_set_unit]
  exact Iff.rfl

/-- The 512 blocks of rows tile the result array. -/
theorem cover4 (i : S2097152x16.Idx) : ∃ t : Fin cfg0.N, (cfg0.win 4).flush t = true ∧ i ∈ ((cfg0.win 4).blk t).view.set := by
  have hi0 : (i 0).val < 2097152 := idx2_lt0 i
  have hi1 : (i 1).val < 16 := idx2_lt1 i
  have hN : cfg0.N = 512 := N_0
  refine ⟨⟨(i 0).val / 4096, by omega⟩, flush0_4 _, ?_⟩
  rw [mem_blk4]
  obtain ⟨e0, e1⟩ := idx4 ⟨(i 0).val / 4096, by omega⟩
  intro a
  match a with
  | ⟨0, _⟩ =>
    show win0_4.index _ (0 : Fin 2) * 4096 ≤ (i 0).val ∧ (i 0).val < win0_4.index _ (0 : Fin 2) * 4096 + 4096
    rw [e0]; show (i 0).val / 4096 * 4096 ≤ (i 0).val ∧ (i 0).val < (i 0).val / 4096 * 4096 + 4096; omega
  | ⟨1, _⟩ =>
    show win0_4.index _ (1 : Fin 2) * 16 ≤ (i 1).val ∧ (i 1).val < win0_4.index _ (1 : Fin 2) * 16 + 16
    rw [e1]; omega

/-- The result array after the run. -/
theorem final4
    (hbody : ∀ (x0 : Vec Ideal S4096x1 .i32) (x1 : Vec Ideal S8x128 .f32) (x2 x3 : Vec Ideal S8x256x128 .bf16) (p : Fin 4096) (j : Fin 16),
      bodyVal (F := Ideal) x0 x1 x2 x3 (ix2 p j) = kcol x0 x1 x2 x3 p j)
    (c : Dev nD) :
    (dats m 0 c).arrAt 4 cfg0.N = Karr (V m c main_v9) (V m c main_v10) (V m c main_v51) (V m c main_v54) :=
  (dats m 0 c).arrAt_eq_of_cover 4 _ (fun t _ => flushed4_eq m hbody c t) cover4

end Cert.KernelIdeal.Hand

end
-- ==== Proof.BodyLow.lean ====
/-
  The eight columns of bits 0 … 7 of the stored block, entry by entry.

  Column 15 - i of row p belongs to bit i of the row's packed word w.  For i < 8 the kernel masks w to
  its low i bits, compares the masked word with each of the 128 lane numbers, reads the comparison as
  0 or 1, multiplies the short table row by it lane by lane and sums the lanes: that is the indicator
  sum of the specification.  It then combines the sum f with the bit's value b as (b + f) - (2·b)·f.
-/
import proofs.«417890_j27668179321269_3_alg».proof.Proof.BodySpec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.BodyLow

open Idealize.ShloMosaic Idealize.ShloMosaic.ValueIdx Cert.KernelIdeal Cert.KernelIdeal.Gen Cert.KernelIdeal.Hand
open scoped BigOperators

/-! ## Layout steps read at an entry -/

/-- A column of 4096 entries laid along 128 lanes reads, at (p, l), the column's entry p. -/
theorem col_lanes {α : Type} (x : S4096x1.Idx → α) (h : S4096x1.Broadcasts S4096x128) (p : Fin 4096) (l : Fin 128) :
    broadcastTo S4096x128 x h (ix2 p l) = x (ix2 p (0 : Fin 1)) := by
  refine broadcastTo_apply x h (ix2 p l) (ix2 p (0 : Fin 1)) fun ax => ?_
  match ax with
  | ⟨0, _⟩ => rfl
  | ⟨1, _⟩ => rfl

/-- A vector of 4096 entries viewed as a column reads, at (p, 0), the vector's entry p. -/
theorem vec_as_col {α : Type} (x : S4096.Idx → α) (h : S4096.ShapeCasts S4096x1) (p : Fin 4096) (u : Fin 1) :
    shapeCast S4096x1 x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The table row laid along every row of the block reads, at (p, l), the row's lane l. -/
theorem row_rows (row : Vec Ideal S1x128 .f32) (h1 : S1x128.ShapeCasts S1x128) (h2 : S1x128.Broadcasts S4096x128)
    (p : Fin 4096) (l : Fin 128) :
    broadcastTo S4096x128 (shapeCast S1x128 row h1) h2 (ix2 p l) = row (ix2 (0 : Fin 1) l) := by
  rw [shapeCast_self]
  exact broadcastTo_1b_ab_apply row h2 p l

/-! ## The three steps of a column -/

/-- The one-hot lane vector at (p, l): the indicator that row p's masked word is the lane number l. -/
theorem onehot_apply (w1 : IVec S4096x1 32) (mask : BitVec 32) (p : Fin 4096) (l : Fin 128) :
    (sitofp .f32 (extui 32 (cmpi .eq (broadcastTo S4096x128 (andi w1 (broadcast S4096x1 mask)) broadcasts_S4096x1_S4096x128)
        (broadcastTo S4096x128 (iota .tc S1x128 32 [1] iota_S1x128_d1_w32) broadcasts_S1x128_S4096x128)) natLt_1_32)
        : FVec Ideal S4096x128 .f32) (ix2 p l)
      = Cert.Spec.ind (IntOp.andi (w1 (ix2 p (0 : Fin 1))) mask) (BitVec.ofNat 32 l.val) := by
  show Cert.Spec.wordVal ((IntOp.cmpi .eq (broadcastTo S4096x128 (andi w1 (broadcast S4096x1 mask)) broadcasts_S4096x1_S4096x128 (ix2 p l))
      (broadcastTo S4096x128 (iota .tc S1x128 32 [1] iota_S1x128_d1_w32) broadcasts_S1x128_S4096x128 (ix2 p l))).setWidth 32) = _
  rw [col_lanes, broadcastTo_1b_ab_apply, iota_single_apply]
  rfl

/-- The sum over the 128 lanes, stored as a column: at (p, 0) the sum of row p's entries. -/
theorem lane_sum (src : FVec Ideal S4096x128 .f32) (p : Fin 4096) :
    shapeCast S4096x1 (multiReduction (F := Ideal) .add [1] S4096 src 0x00000000#32 reduces_S4096x128_S4096 (.inl rfl) rfl)
        shapeCasts_S4096_S4096x1 (ix2 p (0 : Fin 1))
      = ∑ l : Fin 128, src (ix2 p l) := by
  refine (vec_as_col _ shapeCasts_S4096_S4096x1 p 0).trans ?_
  refine (Ideal.multiReduction_add_single src 0x00000000#32 reduces_S4096x128_S4096 (.inl rfl) rfl (ix1 p)).trans ?_
  show ∑ l : Fin 128, src (reduces_S4096x128_S4096.lift (ix1 p) l) = _
  refine Finset.sum_congr rfl fun l _ => congrArg src ?_
  funext c
  match c with
  | ⟨0, _⟩ => exact Fin.ext rfl
  | ⟨1, _⟩ => exact Fin.ext rfl

/-- The last three operations: (b + f) - (2·b)·f at (p, 0). -/
theorem finish_apply (ib f : FVec Ideal S4096x1 .f32) (p : Fin 4096) :
    subf (addf ib f) (mulf (mulf (broadcast S4096x1 (Scalar.ofBits (F := Ideal) .f32 0x40000000#32)) ib) f) (ix2 p (0 : Fin 1))
      = Cert.Spec.flipBy (ib (ix2 p (0 : Fin 1))) (f (ix2 p (0 : Fin 1))) := rfl

/-- Bit i's value at row p: the word shifted right by i, its last bit, read as a number. -/
theorem bit_apply (w1 : IVec S4096x1 32) (i : Nat) (p : Fin 4096) :
    (sitofp .f32 (andi (shrsi w1 (broadcast S4096x1 (BitVec.ofNat 32 i))) (broadcast S4096x1 1#32)) : FVec Ideal S4096x1 .f32)
        (ix2 p (0 : Fin 1))
      = Cert.Spec.kbit (w1 (ix2 p (0 : Fin 1))) i := rfl

/-! ## One column -/

/-- A whole column from the row's word: mask, compare with the lane numbers, multiply the table row, sum the
    lanes, and combine with the bit's value. -/
theorem column (w1 : IVec S4096x1 32) (row : Vec Ideal S1x128 .f32) (mask : BitVec 32) (i : Nat) (p : Fin 4096) :
    subf
        (addf
          (sitofp .f32 (andi (shrsi w1 (broadcast S4096x1 (BitVec.ofNat 32 i))) (broadcast S4096x1 1#32)) : FVec Ideal S4096x1 .f32)
          (shapeCast S4096x1 (multiReduction (F := Ideal) .add [1] S4096
            (mulf
              (sitofp .f32 (extui 32 (cmpi .eq (broadcastTo S4096x128 (andi w1 (broadcast S4096x1 mask)) broadcasts_S4096x1_S4096x128)
                (broadcastTo S4096x128 (iota .tc S1x128 32 [1] iota_S1x128_d1_w32) broadcasts_S1x128_S4096x128)) natLt_1_32))
              (broadcastTo S4096x128 (shapeCast S1x128 row shapeCasts_S1x128_S1x128) broadcasts_S1x128_S4096x128))
            0x00000000#32 reduces_S4096x128_S4096 (.inl rfl) rfl) shapeCasts_S4096_S4096x1))
        (mulf
          (mulf (broadcast S4096x1 (Scalar.ofBits (F := Ideal) .f32 0x40000000#32))
            (sitofp .f32 (andi (shrsi w1 (broadcast S4096x1 (BitVec.ofNat 32 i))) (broadcast S4096x1 1#32))))
          (shapeCast S4096x1 (multiReduction (F := Ideal) .add [1] S4096
            (mulf
              (sitofp .f32 (extui 32 (cmpi .eq (broadcastTo S4096x128 (andi w1 (broadcast S4096x1 mask)) broadcasts_S4096x1_S4096x128)
                (broadcastTo S4096x128 (iota .tc S1x128 32 [1] iota_S1x128_d1_w32) broadcasts_S1x128_S4096x128)) natLt_1_32))
              (broadcastTo S4096x128 (shapeCast S1x128 row shapeCasts_S1x128_S1x128) broadcasts_S1x128_S4096x128))
            0x00000000#32 reduces_S4096x128_S4096 (.inl rfl) rfl) shapeCasts_S4096_S4096x1))
        (ix2 p (0 : Fin 1))
      = Cert.Spec.flipBy (Cert.Spec.kbit (w1 (ix2 p (0 : Fin 1))) i)
          (Cert.Spec.sel 128 (IntOp.andi (w1 (ix2 p (0 : Fin 1))) mask) (fun l => row (ix2 (0 : Fin 1) l))) := by
  refine (finish_apply _ _ p).trans ?_
  refine congrArg₂ Cert.Spec.flipBy (bit_apply w1 i p) ?_
  refine (lane_sum _ p).trans ?_
  unfold Cert.Spec.sel
  refine Finset.sum_congr rfl fun l _ => ?_
  refine (mulf_apply _ _ _).trans ?_
  rw [onehot_apply, row_rows]

/-- The block of packed words viewed in its own shape is itself. -/
theorem pay4_eq (v0 : Vec Ideal S4096x1 .i32) : k0_pay4 (F := Ideal) v0 = v0 := shapeCast_self v0 _

/-! ## The eight columns -/

theorem bit0 (v0 : Vec Ideal S4096x1 .i32) (row : Vec Ideal S1x128 .f32) (p : Fin 4096) :
    k0_pay6 (F := Ideal) v0 row (ix2 p (0 : Fin 1))
      = Cert.Spec.flipBy (Cert.Spec.kbit (v0 (ix2 p (0 : Fin 1))) 0)
          (Cert.Spec.lowFlip (v0 (ix2 p (0 : Fin 1))) 0 (fun l => row (ix2 (0 : Fin 1) l))) := by
  unfold k0_pay6
  refine (column (k0_pay4 (F := Ideal) v0) row 0#32 0 p).trans ?_
  rw [pay4_eq]
  rfl

theorem bit1 (v0 : Vec Ideal S4096x1 .i32) (row : Vec Ideal S1x128 .f32) (p : Fin 4096) :
    k0_pay8 (F := Ideal) (k0_pay4 v0) (k0_pay7 v0 row) (ix2 p (0 : Fin 1))
      = Cert.Spec.flipBy (Cert.Spec.kbit (v0 (ix2 p (0 : Fin 1))) 1)
          (Cert.Spec.lowFlip (v0 (ix2 p (0 : Fin 1))) 1 (fun l => row (ix2 (0 : Fin 1) l))) := by
  unfold k0_pay8 k0_pay7
  refine (column (k0_pay4 (F := Ideal) v0) row 1#32 1 p).trans ?_
  rw [pay4_eq]
  rfl

theorem bit2 (v0 : Vec Ideal S4096x1 .i32) (row : Vec Ideal S1x128 .f32) (p : Fin 4096) :
    k0_pay9 (F := Ideal) (k0_pay4 v0) row (ix2 p (0 : Fin 1))
      = Cert.Spec.flipBy (Cert.Spec.kbit (v0 (ix2 p (0 : Fin 1))) 2)
          (Cert.Spec.lowFlip (v0 (ix2 p (0 : Fin 1))) 2 (fun l => row (ix2 (0 : Fin 1) l))) := by
  unfold k0_pay9
  refine (column (k0_pay4 (F := Ideal) v0) row 3#32 2 p).trans ?_
  rw [pay4_eq]
  rfl

theorem bit3 (v0 : Vec Ideal S4096x1 .i32) (row : Vec Ideal S1x128 .f32) (p : Fin 4096) :
    k0_pay12 (F := Ideal) (k0_pay4 v0) (k0_pay10 (k0_pay4 v0)) (k0_pay11 row) (ix2 p (0 : Fin 1))
      = Cert.Spec.flipBy (Cert.Spec.kbit (v0 (ix2 p (0 : Fin 1))) 3)
          (Cert.Spec.lowFlip (v0 (ix2 p (0 : Fin 1))) 3 (fun l => row (ix2 (0 : Fin 1) l))) := by
  unfold k0_pay12 k0_pay10 k0_pay11
  refine (column (k0_pay4 (F := Ideal) v0) row 7#32 3 p).trans ?_
  rw [pay4_eq]
  rfl

theorem bit4 (v0 : Vec Ideal S4096x1 .i32) (row : Vec Ideal S1x128 .f32) (p : Fin 4096) :
    k0_pay13 (F := Ideal) (k0_pay4 v0) row (ix2 p (0 : Fin 1))
      = Cert.Spec.flipBy (Cert.Spec.kbit (v0 (ix2 p (0 : Fin 1))) 4)
          (Cert.Spec.lowFlip (v0 (ix2 p (0 : Fin 1))) 4 (fun l => row (ix2 (0 : Fin 1) l))) := by
  unfold k0_pay13
  refine (column (k0_pay4 (F := Ideal) v0) row 15#32 4 p).trans ?_
  rw [pay4_eq]
  rfl

theorem bit5 (v0 : Vec Ideal S4096x1 .i32) (row : Vec Ideal S1x128 .f32) (p : Fin 4096) :
    k0_pay15 (F := Ideal) (k0_pay4 v0) (k0_pay14 (k0_pay4 v0)) row (ix2 p (0 : Fin 1))
      = Cert.Spec.flipBy (Cert.Spec.kbit (v0 (ix2 p (0 : Fin 1))) 5)
          (Cert.Spec.lowFlip (v0 (ix2 p (0 : Fin 1))) 5 (fun l => row (ix2 (0 : Fin 1) l))) := by
  unfold k0_pay15 k0_pay14
  refine (column (k0_pay4 (F := Ideal) v0) row 31#32 5 p).trans ?_
  rw [pay4_eq]
  rfl

theorem bit6 (v0 : Vec Ideal S4096x1 .i32) (row : Vec Ideal S1x128 .f32) (p : Fin 4096) :
    k0_pay16 (F := Ideal) (k0_pay4 v0) row (ix2 p (0 : Fin 1))
      = Cert.Spec.flipBy (Cert.Spec.kbit (v0 (ix2 p (0 : Fin 1))) 6)
          (Cert.Spec.lowFlip (v0 (ix2 p (0 : Fin 1))) 6 (fun l => row (ix2 (0 : Fin 1) l))) := by
  unfold k0_pay16
  refine (column (k0_pay4 (F := Ideal) v0) row 63#32 6 p).trans ?_
  rw [pay4_eq]
  rfl

theorem bit7 (v0 : Vec Ideal S4096x1 .i32) (row : Vec Ideal S1x128 .f32) (p : Fin 4096) :
    k0_pay18 (F := Ideal) (k0_pay4 v0) (k0_pay17 (k0_pay5 v0) row) (ix2 p (0 : Fin 1))
      = Cert.Spec.flipBy (Cert.Spec.kbit (v0 (ix2 p (0 : Fin 1))) 7)
          (Cert.Spec.lowFlip (v0 (ix2 p (0 : Fin 1))) 7 (fun l => row (ix2 (0 : Fin 1) l))) := by
  unfold k0_pay18 k0_pay17 k0_pay5
  refine (column (k0_pay4 (F := Ideal) v0) row 127#32 7 p).trans ?_
  rw [pay4_eq]
  rfl

end Cert.KernelIdeal.BodyLow

end
-- ==== Proof.BodyHigh.lean ====
/-
  The columns of bits 8 … 15 of the stored block, entry by entry.

  For bit i = 8 + b the table entry is found in two steps.  The row's word, shifted right by seven and
  cut to its low b + 1 bits, is compared with every row number 0 … 255: that is a row of 256 indicators,
  of which at most one is 1.  Multiplying this row into a [256, 128] table (and, separately, into its
  residual table) and adding the two products leaves, in lane l, the sum over the rows h of the
  indicator times the entry (h, l).  The word's low seven bits, compared with every lane number, are a
  second row of indicators, over 128 lanes; the sum over the lanes of that indicator times the first
  result is the looked-up entry.  The column is then (bit + entry) - (2 · bit) · entry.
-/
import proofs.«417890_j27668179321269_3_alg».proof.Proof.BodySpec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.BodyHigh

open Idealize.ShloMosaic Idealize.ShloMosaic.ValueIdx Cert.KernelIdeal Cert.KernelIdeal.Gen Cert.KernelIdeal.Hand
open scoped BigOperators

/-! ## Layout operations read at an index -/

/-- A column [a, 1] broadcast to [a, b] reads, at (p, c), the column's entry at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An [a] array cast to [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The lane numbers of a [1, n] row: at (u, l) the word of l. -/
theorem iota_1n_apply (n : ℕ) (h : (⟨2, ![1, n]⟩ : Shape).Iotas .tc 32 [1]) (u : Fin 1) (l : Fin n) :
    iota .tc ⟨2, ![1, n]⟩ 32 [1] h (ix2 u l) = BitVec.ofNat 32 l.val := by
  show BitVec.ofNat 32 (0 * n + l.val) = _
  rw [Nat.zero_mul, Nat.zero_add]

/-! ## A row of indicators -/

/-- A column of words compared with the lane numbers 0 … n - 1, widened and read as numbers: at (p, c)
    the indicator that row p's word is c. -/
theorem onehot_apply {n : ℕ} (x : IVec S4096x1 32)
    (hb1 : S4096x1.Broadcasts ⟨2, ![4096, n]⟩) (hb2 : (⟨2, ![1, n]⟩ : Shape).Broadcasts ⟨2, ![4096, n]⟩)
    (hi : (⟨2, ![1, n]⟩ : Shape).Iotas .tc 32 [1]) (hlt : 1 < 32) (p : Fin 4096) (c : Fin n) :
    (sitofp .f32 (extui 32 (cmpi .eq (broadcastTo ⟨2, ![4096, n]⟩ x hb1)
        (broadcastTo ⟨2, ![4096, n]⟩ (iota .tc ⟨2, ![1, n]⟩ 32 [1] hi) hb2)) hlt) : FVec Ideal ⟨2, ![4096, n]⟩ .f32) (ix2 p c)
      = Cert.Spec.ind (x (ix2 p (0 : Fin 1))) (BitVec.ofNat 32 c.val) := by
  have e1 := broadcastTo_a1_ab_apply x hb1 p c
  have e2 := (broadcastTo_1b_ab_apply (iota .tc ⟨2, ![1, n]⟩ 32 [1] hi) hb2 p c).trans (iota_1n_apply n hi 0 c)
  show Cert.Spec.wordVal ((IntOp.cmpi .eq (broadcastTo ⟨2, ![4096, n]⟩ x hb1 (ix2 p c))
    (broadcastTo ⟨2, ![4096, n]⟩ (iota .tc ⟨2, ![1, n]⟩ 32 [1] hi) hb2 (ix2 p c))).setWidth 32) = _
  rw [e1, e2]
  rfl

/-- The shared indicator of the low seven bits: at (p, l), whether row p's word, cut to its low seven bits, is l. -/
theorem pay5_apply (v0 : Vec Ideal S4096x1 .i32) (p : Fin 4096) (l : Fin 128) :
    k0_pay5 (F := Ideal) v0 (ix2 p l)
      = Cert.Spec.ind (IntOp.andi (v0 (ix2 p (0 : Fin 1))) 127#32) (BitVec.ofNat 32 l.val) := by
  unfold k0_pay5
  refine (onehot_apply (n := 128) _ _ _ _ _ p l).trans ?_
  unfold k0_pay4
  rw [shapeCast_self]
  rfl

/-- The block of packed words is read as it is. -/
theorem pay4_apply (v0 : Vec Ideal S4096x1 .i32) (i : S4096x1.Idx) : k0_pay4 (F := Ideal) v0 i = v0 i := by
  unfold k0_pay4
  rw [shapeCast_self]

/-- The indicator of the high part: the word shifted right by seven and cut by a mask, compared with the
    row numbers 0 … 255; at (p, h), whether that high part is h.  Narrowing the format changes nothing. -/
theorem hot_hi_apply (w1 : IVec S4096x1 32) (mask : BitVec 32)
    (hb1 : S4096x1.Broadcasts S4096x256) (hb2 : S1x256.Broadcasts S4096x256)
    (hi : S1x256.Iotas .tc 32 [1]) (hlt : 1 < 32) (hbits : FTy.bits .bf16 < FTy.bits .f32)
    (p : Fin 4096) (h : Fin 256) :
    (truncf .bf16 (sitofp .f32 (extui 32 (cmpi .eq
        (broadcastTo S4096x256 (andi (shrsi w1 (broadcast S4096x1 7#32)) (broadcast S4096x1 mask)) hb1)
        (broadcastTo S4096x256 (iota .tc S1x256 32 [1] hi) hb2)) hlt) : FVec Ideal S4096x256 .f32) hbits
          : FVec Ideal S4096x256 .bf16) (ix2 p h)
      = Cert.Spec.ind (IntOp.andi (IntOp.shrsi .vector (w1 (ix2 p (0 : Fin 1))) 7#32) mask) (BitVec.ofNat 32 h.val) :=
  onehot_apply (n := 256) _ hb1 hb2 hi hlt p h

/-! ## The product of a row of indicators with a table -/

/-- In the product, the left factor is read at the result's row … -/
theorem dot_lhs_0 (j : S4096x128.Idx) (k : dot_S4096x256_S256x128_S4096x128_1_0_0_1_n_n.contr.Idx) :
    (dot_S4096x256_S256x128_S4096x128_1_0_0_1_n_n.lhsIdx j k (0 : Fin 2)).val = (j (0 : Fin 2)).val := by
  unfold DotDims.lhsIdx
  rw [dif_neg (show ¬(0 : Fin S4096x256.rank) ∈ dot_S4096x256_S256x128_S4096x128_1_0_0_1_n_n.lhsBatch by decide),
    dif_pos (show (0 : Fin S4096x256.rank) ∈ dot_S4096x256_S256x128_S4096x128_1_0_0_1_n_n.lhsNonContracting by decide)]
  rfl

/-- … and at the summed position in its second coordinate. -/
theorem dot_lhs_1 (j : S4096x128.Idx) (k : dot_S4096x256_S256x128_S4096x128_1_0_0_1_n_n.contr.Idx) :
    (dot_S4096x256_S256x128_S4096x128_1_0_0_1_n_n.lhsIdx j k (1 : Fin 2)).val = (k ⟨0, by decide⟩).val :=
  DotDims.lhsIdx_val_of_single dot_S4096x256_S256x128_S4096x128_1_0_0_1_n_n (cl := (1 : Fin 2)) rfl j k

/-- The right factor is read at the summed position in its first coordinate … -/
theorem dot_rhs_0 (j : S4096x128.Idx) (k : dot_S4096x256_S256x128_S4096x128_1_0_0_1_n_n.contr.Idx) :
    (dot_S4096x256_S256x128_S4096x128_1_0_0_1_n_n.rhsIdx j k (0 : Fin 2)).val = (k ⟨0, by decide⟩).val :=
  DotDims.rhsIdx_val_of_single dot_S4096x256_S256x128_S4096x128_1_0_0_1_n_n (cr := (0 : Fin 2)) rfl j k

/-- … and at the result's lane. -/
theorem dot_rhs_1 (j : S4096x128.Idx) (k : dot_S4096x256_S256x128_S4096x128_1_0_0_1_n_n.contr.Idx) :
    (dot_S4096x256_S256x128_S4096x128_1_0_0_1_n_n.rhsIdx j k (1 : Fin 2)).val = (j (1 : Fin 2)).val := by
  unfold DotDims.rhsIdx
  rw [dif_neg (show ¬(1 : Fin S256x128.rank) ∈ dot_S4096x256_S256x128_S4096x128_1_0_0_1_n_n.rhsBatch by decide),
    dif_pos (show (1 : Fin S256x128.rank) ∈ dot_S4096x256_S256x128_S4096x128_1_0_0_1_n_n.rhsNonContracting by decide)]
  rfl

/-- A [4096, 256] array times a [256, 128] array, into zero: at (p, l), the sum over the 256 rows h of
    the entry (p, h) times the entry (h, l). -/
theorem matmul_ix (A : FVec Ideal S4096x256 .bf16) (B : FVec Ideal S256x128 .bf16) (p : Fin 4096) (l : Fin 128) :
    matmul dot_S4096x256_S256x128_S4096x128_1_0_0_1_n_n none A B (constant (F := Ideal) S4096x128 .f32 0x00000000#32) (ix2 p l)
      = ∑ h : Fin 256, A (ix2 p h) * B (ix2 h l) := by
  show FloatOps.matmul dot_S4096x256_S256x128_S4096x128_1_0_0_1_n_n none A B (constant S4096x128 .f32 0x00000000#32) (ix2 p l) = _
  rw [Ideal.matmul_constant_zero_apply,
    ← Equiv.sum_comp (contrEquiv1 dot_S4096x256_S256x128_S4096x128_1_0_0_1_n_n 256 rfl rfl).symm]
  refine Finset.sum_congr rfl fun c _ => ?_
  have hk := contrEquiv1_symm_val dot_S4096x256_S256x128_S4096x128_1_0_0_1_n_n 256 rfl rfl c
  have l2 : dot_S4096x256_S256x128_S4096x128_1_0_0_1_n_n.lhsIdx (ix2 p l)
      ((contrEquiv1 dot_S4096x256_S256x128_S4096x128_1_0_0_1_n_n 256 rfl rfl).symm c) = ix2 p c := by
    funext ax; apply Fin.ext
    match ax with
    | ⟨0, _⟩ => exact dot_lhs_0 _ _
    | ⟨1, _⟩ => exact (dot_lhs_1 _ _).trans hk
  have r2 : dot_S4096x256_S256x128_S4096x128_1_0_0_1_n_n.rhsIdx (ix2 p l)
      ((contrEquiv1 dot_S4096x256_S256x128_S4096x128_1_0_0_1_n_n 256 rfl rfl).symm c) = ix2 c l := by
    funext ax; apply Fin.ext
    match ax with
    | ⟨0, _⟩ => exact (dot_rhs_0 _ _).trans hk
    | ⟨1, _⟩ => exact dot_rhs_1 _ _
  rw [l2, r2]

/-! ## The sum over the lanes, and the column -/

/-- A [4096, 128] array summed over its lanes and laid out as a column: at (p, 0), the sum over the 128
    lanes l of the entry (p, l). -/
theorem lane_sum_apply (X : FVec Ideal S4096x128 .f32) (hr : S4096x128.Reduces [1] S4096) (hφ : FKind.Formats .f32)
    (hacc : (0x00000000#32 : BitVec 32) = FKind.add.neutral .f32 hφ) (hc : S4096.ShapeCasts S4096x1) (p : Fin 4096) :
    shapeCast S4096x1 (multiReduction (F := Ideal) .add [1] S4096 X 0x00000000#32 hr hφ hacc) hc (ix2 p (0 : Fin 1))
      = ∑ l : Fin 128, X (ix2 p l) := by
  refine (shapeCast_a_a1_apply _ hc p 0).trans ?_
  refine (Ideal.multiReduction_add_single X 0x00000000#32 hr hφ hacc (ix1 p)).trans ?_
  show ∑ l : Fin 128, X (hr.lift (ix1 p) l) = _
  refine Finset.sum_congr rfl fun l _ => congrArg X ?_
  funext ax; apply Fin.ext
  match ax with
  | ⟨0, _⟩ => rfl
  | ⟨1, _⟩ => rfl

/-- The looked-up entry of bit 8 + b.  With A the row of indicators of the high part (the word shifted
    right by seven, cut by the mask 2^(b+1) - 1), the two products of A with the table slab and with the
    residual slab, added, multiplied lane by lane by the indicator of the low seven bits and summed over
    the lanes, are the double indicator sum of the specification. -/
theorem lookup_eq (v0 : Vec Ideal S4096x1 .i32) (A : FVec Ideal S4096x256 .bf16) (s2 s3 : Vec Ideal S1x256x128 .bf16)
    (b : ℕ) (mask : BitVec 32) (hmask : mask = BitVec.ofNat 32 (2 ^ (b + 1) - 1)) (p : Fin 4096)
    (hA : ∀ h : Fin 256, A (ix2 p h)
      = Cert.Spec.ind (IntOp.andi (IntOp.shrsi .vector (v0 (ix2 p (0 : Fin 1))) 7#32) mask) (BitVec.ofNat 32 h.val))
    (hs : S1x256x128.ShapeCasts S256x128) (hr : S4096x128.Reduces [1] S4096) (hφ : FKind.Formats .f32)
    (hacc : (0x00000000#32 : BitVec 32) = FKind.add.neutral .f32 hφ) (hc : S4096.ShapeCasts S4096x1) :
    shapeCast S4096x1 (multiReduction (F := Ideal) .add [1] S4096
        (mulf (k0_pay5 (F := Ideal) v0)
          (addf (matmul dot_S4096x256_S256x128_S4096x128_1_0_0_1_n_n none A (shapeCast S256x128 s2 hs : FVec Ideal S256x128 .bf16)
                  (constant (F := Ideal) S4096x128 .f32 0x00000000#32))
                (matmul dot_S4096x256_S256x128_S4096x128_1_0_0_1_n_n none A (shapeCast S256x128 s3 hs : FVec Ideal S256x128 .bf16)
                  (constant (F := Ideal) S4096x128 .f32 0x00000000#32))))
        0x00000000#32 hr hφ hacc) hc (ix2 p (0 : Fin 1))
      = Cert.Spec.hiFlip (v0 (ix2 p (0 : Fin 1))) b (fun r l => s2 (ix3 (0 : Fin 1) r l)) (fun r l => s3 (ix3 (0 : Fin 1) r l)) := by
  subst hmask
  refine (lane_sum_apply _ hr hφ hacc hc p).trans ?_
  unfold Cert.Spec.hiFlip Cert.Spec.sel Cert.Spec.hiWord
  refine Finset.sum_congr rfl fun l _ => ?_
  show k0_pay5 (F := Ideal) v0 (ix2 p l)
      * (matmul dot_S4096x256_S256x128_S4096x128_1_0_0_1_n_n none A (shapeCast S256x128 s2 hs : FVec Ideal S256x128 .bf16)
            (constant (F := Ideal) S4096x128 .f32 0x00000000#32) (ix2 p l)
        + matmul dot_S4096x256_S256x128_S4096x128_1_0_0_1_n_n none A (shapeCast S256x128 s3 hs : FVec Ideal S256x128 .bf16)
            (constant (F := Ideal) S4096x128 .f32 0x00000000#32) (ix2 p l)) = _
  rw [pay5_apply, matmul_ix, matmul_ix]
  simp only [shapeCast_1ab_ab_apply, hA]

/-- The column of bit i from the looked-up entry f: with the bit's value taken from the word (shifted right
    by i, last bit kept, read as a number), the column is (bit + f) - (2 · bit) · f. -/
theorem flip_apply (v0 : Vec Ideal S4096x1 .i32) (i : ℕ) (f : FVec Ideal S4096x1 .f32) (p : Fin 4096) :
    subf (addf (sitofp (F := Ideal) .f32 (andi (shrsi (k0_pay4 (F := Ideal) v0) (broadcast S4096x1 (BitVec.ofNat 32 i))) (broadcast S4096x1 1#32))) f)
        (mulf (mulf (broadcast S4096x1 (Scalar.ofBits (F := Ideal) .f32 0x40000000#32))
          (sitofp (F := Ideal) .f32 (andi (shrsi (k0_pay4 (F := Ideal) v0) (broadcast S4096x1 (BitVec.ofNat 32 i))) (broadcast S4096x1 1#32)))) f)
        (ix2 p (0 : Fin 1))
      = Cert.Spec.flipBy (Cert.Spec.kbit (v0 (ix2 p (0 : Fin 1))) i) (f (ix2 p (0 : Fin 1))) := by
  show Cert.Spec.flipBy (Cert.Spec.kbit (k0_pay4 (F := Ideal) v0 (ix2 p (0 : Fin 1))) i) (f (ix2 p (0 : Fin 1))) = _
  rw [pay4_apply]

/-- The row of indicators of the high part, over the block of packed words as the body reads it. -/
theorem hot_hi_pay4 (v0 : Vec Ideal S4096x1 .i32) (mask : BitVec 32)
    (hb1 : S4096x1.Broadcasts S4096x256) (hb2 : S1x256.Broadcasts S4096x256)
    (hi : S1x256.Iotas .tc 32 [1]) (hlt : 1 < 32) (hbits : FTy.bits .bf16 < FTy.bits .f32)
    (p : Fin 4096) (h : Fin 256) :
    (truncf .bf16 (sitofp .f32 (extui 32 (cmpi .eq
        (broadcastTo S4096x256 (andi (shrsi (k0_pay4 (F := Ideal) v0) (broadcast S4096x1 7#32)) (broadcast S4096x1 mask)) hb1)
        (broadcastTo S4096x256 (iota .tc S1x256 32 [1] hi) hb2)) hlt) : FVec Ideal S4096x256 .f32) hbits
          : FVec Ideal S4096x256 .bf16) (ix2 p h)
      = Cert.Spec.ind (IntOp.andi (IntOp.shrsi .vector (v0 (ix2 p (0 : Fin 1))) 7#32) mask) (BitVec.ofNat 32 h.val) := by
  refine (hot_hi_apply (k0_pay4 (F := Ideal) v0) mask hb1 hb2 hi hlt hbits p h).trans ?_
  rw [pay4_apply]

/-! ## The eight columns -/

/-- Bit 8: the high part is the word shifted right by seven and cut to its low 1 bit (mask 1). -/
theorem bit8 (v0 : Vec Ideal S4096x1 .i32) (s2 s3 : Vec Ideal S1x256x128 .bf16) (p : Fin 4096) :
    k0_pay19 (F := Ideal) (k0_pay4 v0) (k0_pay5 v0) s2 s3 (ix2 p (0 : Fin 1))
      = Cert.Spec.flipBy (Cert.Spec.kbit (v0 (ix2 p (0 : Fin 1))) 8)
          (Cert.Spec.hiFlip (v0 (ix2 p (0 : Fin 1))) 0 (fun r l => s2 (ix3 (0 : Fin 1) r l)) (fun r l => s3 (ix3 (0 : Fin 1) r l))) := by
  unfold k0_pay19
  refine (flip_apply v0 8 _ p).trans ?_
  refine congrArg (Cert.Spec.flipBy _) ?_
  exact lookup_eq v0 _ s2 s3 0 1#32 rfl p (fun h => hot_hi_pay4 v0 1#32 _ _ _ _ _ p h) _ _ _ _ _

/-- Bit 9: the high part is the word shifted right by seven and cut to its low 2 bits (mask 3). -/
theorem bit9 (v0 : Vec Ideal S4096x1 .i32) (s2 s3 : Vec Ideal S1x256x128 .bf16) (p : Fin 4096) :
    k0_pay21 (F := Ideal) (k0_pay4 v0) (k0_pay5 v0) k0_pay20 s2 s3 (ix2 p (0 : Fin 1))
      = Cert.Spec.flipBy (Cert.Spec.kbit (v0 (ix2 p (0 : Fin 1))) 9)
          (Cert.Spec.hiFlip (v0 (ix2 p (0 : Fin 1))) 1 (fun r l => s2 (ix3 (0 : Fin 1) r l)) (fun r l => s3 (ix3 (0 : Fin 1) r l))) := by
  unfold k0_pay21 k0_pay20
  refine (flip_apply v0 9 _ p).trans ?_
  refine congrArg (Cert.Spec.flipBy _) ?_
  exact lookup_eq v0 _ s2 s3 1 3#32 rfl p (fun h => hot_hi_pay4 v0 3#32 _ _ _ _ _ p h) _ _ _ _ _

/-- Bit 10: the high part is the word shifted right by seven and cut to its low 3 bits (mask 7). -/
theorem bit10 (v0 : Vec Ideal S4096x1 .i32) (s2 s3 : Vec Ideal S1x256x128 .bf16) (p : Fin 4096) :
    k0_pay23 (F := Ideal) (k0_pay4 v0) (k0_pay5 v0) (k0_pay22 (k0_pay4 v0)) s2 s3 (ix2 p (0 : Fin 1))
      = Cert.Spec.flipBy (Cert.Spec.kbit (v0 (ix2 p (0 : Fin 1))) 10)
          (Cert.Spec.hiFlip (v0 (ix2 p (0 : Fin 1))) 2 (fun r l => s2 (ix3 (0 : Fin 1) r l)) (fun r l => s3 (ix3 (0 : Fin 1) r l))) := by
  unfold k0_pay23 k0_pay22
  refine (flip_apply v0 10 _ p).trans ?_
  refine congrArg (Cert.Spec.flipBy _) ?_
  exact lookup_eq v0 _ s2 s3 2 7#32 rfl p (fun h => hot_hi_pay4 v0 7#32 _ _ _ _ _ p h) _ _ _ _ _

/-- Bit 11: the high part is the word shifted right by seven and cut to its low 4 bits (mask 15). -/
theorem bit11 (v0 : Vec Ideal S4096x1 .i32) (s2 s3 : Vec Ideal S1x256x128 .bf16) (p : Fin 4096) :
    k0_pay25 (F := Ideal) (k0_pay4 v0) (k0_pay24 (k0_pay4 v0) (k0_pay5 v0) s2 s3) (ix2 p (0 : Fin 1))
      = Cert.Spec.flipBy (Cert.Spec.kbit (v0 (ix2 p (0 : Fin 1))) 11)
          (Cert.Spec.hiFlip (v0 (ix2 p (0 : Fin 1))) 3 (fun r l => s2 (ix3 (0 : Fin 1) r l)) (fun r l => s3 (ix3 (0 : Fin 1) r l))) := by
  unfold k0_pay25 k0_pay24
  refine (flip_apply v0 11 _ p).trans ?_
  refine congrArg (Cert.Spec.flipBy _) ?_
  exact lookup_eq v0 _ s2 s3 3 15#32 rfl p (fun h => hot_hi_pay4 v0 15#32 _ _ _ _ _ p h) _ _ _ _ _

/-- Bit 12: the high part is the word shifted right by seven and cut to its low 5 bits (mask 31). -/
theorem bit12 (v0 : Vec Ideal S4096x1 .i32) (s2 s3 : Vec Ideal S1x256x128 .bf16) (p : Fin 4096) :
    k0_pay26 (F := Ideal) (k0_pay4 v0) (k0_pay5 v0) s2 s3 (ix2 p (0 : Fin 1))
      = Cert.Spec.flipBy (Cert.Spec.kbit (v0 (ix2 p (0 : Fin 1))) 12)
          (Cert.Spec.hiFlip (v0 (ix2 p (0 : Fin 1))) 4 (fun r l => s2 (ix3 (0 : Fin 1) r l)) (fun r l => s3 (ix3 (0 : Fin 1) r l))) := by
  unfold k0_pay26
  refine (flip_apply v0 12 _ p).trans ?_
  refine congrArg (Cert.Spec.flipBy _) ?_
  exact lookup_eq v0 _ s2 s3 4 31#32 rfl p (fun h => hot_hi_pay4 v0 31#32 _ _ _ _ _ p h) _ _ _ _ _

/-- Bit 13: the high part is the word shifted right by seven and cut to its low 6 bits (mask 63). -/
theorem bit13 (v0 : Vec Ideal S4096x1 .i32) (s2 s3 : Vec Ideal S1x256x128 .bf16) (p : Fin 4096) :
    k0_pay28 (F := Ideal) (k0_pay4 v0) (k0_pay5 v0) k0_pay27 s2 s3 (ix2 p (0 : Fin 1))
      = Cert.Spec.flipBy (Cert.Spec.kbit (v0 (ix2 p (0 : Fin 1))) 13)
          (Cert.Spec.hiFlip (v0 (ix2 p (0 : Fin 1))) 5 (fun r l => s2 (ix3 (0 : Fin 1) r l)) (fun r l => s3 (ix3 (0 : Fin 1) r l))) := by
  unfold k0_pay28 k0_pay27
  refine (flip_apply v0 13 _ p).trans ?_
  refine congrArg (Cert.Spec.flipBy _) ?_
  exact lookup_eq v0 _ s2 s3 5 63#32 rfl p (fun h => hot_hi_pay4 v0 63#32 _ _ _ _ _ p h) _ _ _ _ _

/-- Bit 14: the high part is the word shifted right by seven and cut to its low 7 bits (mask 127). -/
theorem bit14 (v0 : Vec Ideal S4096x1 .i32) (s2 s3 : Vec Ideal S1x256x128 .bf16) (p : Fin 4096) :
    k0_pay30 (F := Ideal) (k0_pay4 v0) (k0_pay5 v0) (k0_pay29 (k0_pay4 v0)) s2 s3 (ix2 p (0 : Fin 1))
      = Cert.Spec.flipBy (Cert.Spec.kbit (v0 (ix2 p (0 : Fin 1))) 14)
          (Cert.Spec.hiFlip (v0 (ix2 p (0 : Fin 1))) 6 (fun r l => s2 (ix3 (0 : Fin 1) r l)) (fun r l => s3 (ix3 (0 : Fin 1) r l))) := by
  unfold k0_pay30 k0_pay29
  refine (flip_apply v0 14 _ p).trans ?_
  refine congrArg (Cert.Spec.flipBy _) ?_
  exact lookup_eq v0 _ s2 s3 6 127#32 rfl p (fun h => hot_hi_pay4 v0 127#32 _ _ _ _ _ p h) _ _ _ _ _

/-- Bit 15: the high part is the word shifted right by seven and cut to its low 8 bits (mask 255). -/
theorem bit15 (v0 : Vec Ideal S4096x1 .i32) (s2 s3 : Vec Ideal S1x256x128 .bf16) (p : Fin 4096) :
    k0_pay2 (F := Ideal) (k0_pay31 (k0_pay4 v0) (k0_pay5 v0) s2 s3) (k0_pay1 (k0_pay4 v0))
        (addf (k0_pay1 (k0_pay4 v0)) (k0_pay31 (k0_pay4 v0) (k0_pay5 v0) s2 s3)) (ix2 p (0 : Fin 1))
      = Cert.Spec.flipBy (Cert.Spec.kbit (v0 (ix2 p (0 : Fin 1))) 15)
          (Cert.Spec.hiFlip (v0 (ix2 p (0 : Fin 1))) 7 (fun r l => s2 (ix3 (0 : Fin 1) r l)) (fun r l => s3 (ix3 (0 : Fin 1) r l))) := by
  unfold k0_pay2 k0_pay1 k0_pay31
  refine (flip_apply v0 15 _ p).trans ?_
  refine congrArg (Cert.Spec.flipBy _) ?_
  exact lookup_eq v0 _ s2 s3 7 255#32 rfl p (fun h => hot_hi_pay4 v0 255#32 _ _ _ _ _ p h) _ _ _ _ _

end Cert.KernelIdeal.BodyHigh

end
-- ==== Proof.BodyAt.lean ====
/-
  The stored block read at an entry.

  The body's stored block is sixteen columns laid side by side; column j belongs to bit 15 - j of a
  row's packed word.  Reading the block at entry (p, j) picks column j at row p; the loads that feed the
  columns read the packed words as they are, row K of the short rows, and slab K of the tables.  With
  the sixteen column formulas taken as hypotheses, entry (p, j) is the exclusive-or formula of the bit's
  value and the looked-up table entry.
-/
import proofs.«417890_j27668179321269_3_alg».proof.Proof.BodySpec
import proofs.«417890_j27668179321269_3_alg».proof.Proof.BodyLow
import proofs.«417890_j27668179321269_3_alg».proof.Proof.BodyHigh
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.BodyAt

open Idealize.ShloMosaic Idealize.ShloMosaic.ValueIdx
open Cert.KernelIdeal Cert.KernelIdeal.Gen Cert.KernelIdeal.Hand

/-! ## The loads -/

/-- The block of packed words is loaded whole. -/
theorem ld_val (x0 : Vec Ideal S4096x1 .i32) : View.ld x0 rVal = x0 :=
  View.ld_unit_zero (S := S4096x1) (by funext a; match a with | ⟨0, _⟩ => rfl | ⟨1, _⟩ => rfl) inb_S4096x1_S4096x1_0_0 x0

/-- A unit-stride rectangle of one row at row K of the short rows reads row K. -/
theorem ld_row (x1 : Vec Ideal S8x128 .f32) (K : Fin 8) (inb : ∀ a, (![K.val, 0] : Fin 2 → Nat) a + S1x128.size a ≤ S8x128.size a)
    (l : Fin 128) :
    View.ld x1 (Rect.unit (s := S8x128) ![K.val, 0] S1x128.size inb) (ix2 (0 : Fin 1) l) = x1 (ix2 K l) := by
  show x1 _ = x1 _
  congr 1
  funext a
  apply Fin.ext
  match a with
  | ⟨0, _⟩ => show K.val + 1 * 0 = K.val; omega
  | ⟨1, _⟩ => show 0 + 1 * l.val = l.val; omega

/-- A unit-stride rectangle of one slab at slab K of the tables reads slab K. -/
theorem ld_slab (x2 : Vec Ideal S8x256x128 .bf16) (K : Fin 8)
    (inb : ∀ a, (![K.val, 0, 0] : Fin 3 → Nat) a + S1x256x128.size a ≤ S8x256x128.size a) (r : Fin 256) (l : Fin 128) :
    View.ld x2 (Rect.unit (s := S8x256x128) ![K.val, 0, 0] S1x256x128.size inb) (ix3 (0 : Fin 1) r l) = x2 (ix3 K r l) := by
  show x2 _ = x2 _
  congr 1
  funext a
  apply Fin.ext
  match a with
  | ⟨0, _⟩ => show K.val + 1 * 0 = K.val; omega
  | ⟨1, _⟩ => show 0 + 1 * r.val = r.val; omega
  | ⟨2, _⟩ => show 0 + 1 * l.val = l.val; omega

/-! ## The sixteen columns side by side -/

/-- The sixteen columns in the order they are laid side by side: column j belongs to bit 15 - j. -/
def colOf (v33 v57 v81 v105 v129 v153 v177 v193 v224 v255 v286 v317 v348 v379 v410 v441 : FVec Ideal S4096x1 .f32) (n : Fin 16) : S4096x1.Idx → Ideal .f32 :=
  match n with
  | ⟨0, _⟩ => v441
  | ⟨1, _⟩ => v410
  | ⟨2, _⟩ => v379
  | ⟨3, _⟩ => v348
  | ⟨4, _⟩ => v317
  | ⟨5, _⟩ => v286
  | ⟨6, _⟩ => v255
  | ⟨7, _⟩ => v224
  | ⟨8, _⟩ => v193
  | ⟨9, _⟩ => v177
  | ⟨10, _⟩ => v153
  | ⟨11, _⟩ => v129
  | ⟨12, _⟩ => v105
  | ⟨13, _⟩ => v81
  | ⟨14, _⟩ => v57
  | ⟨15, _⟩ => v33
  | ⟨n + 16, h⟩ => absurd h (by omega)

/-- Entry (p, j) of the sixteen columns side by side is column number j at row p: every column has
    extent one along the axis they are joined on. -/
theorem cat_apply (v33 v57 v81 v105 v129 v153 v177 v193 v224 v255 v286 v317 v348 v379 v410 v441 : FVec Ideal S4096x1 .f32) (p : Fin 4096) (j : Fin 16) :
    k0_pay3 (F := Ideal) v33 v57 v81 v105 v129 v153 v177 v193 v224 v255 v286 v317 v348 v379 v410 v441 (ix2 p j) = colOf v33 v57 v81 v105 v129 v153 v177 v193 v224 v255 v286 v317 v348 v379 v410 v441 j (ix2 p (0 : Fin 1)) := by
  unfold k0_pay3
  exact concatenate_ofFn_unit_apply (1 : Fin S4096x16.rank) (colOf v33 v57 v81 v105 v129 v153 v177 v193 v224 v255 v286 v317 v348 v379 v410 v441) _ rfl rfl (ix2 p j) j rfl (ix2 p (0 : Fin 1))
    (fun b hb => by
      match b, hb with
      | ⟨0, _⟩, _ => rfl
      | ⟨1, _⟩, hb => exact absurd (Fin.ext rfl) hb)

/-- Entry (p, 0) is the column of bit 15 at row p. -/
theorem cat_0 (v33 v57 v81 v105 v129 v153 v177 v193 v224 v255 v286 v317 v348 v379 v410 v441 : FVec Ideal S4096x1 .f32) (p : Fin 4096) :
    k0_pay3 (F := Ideal) v33 v57 v81 v105 v129 v153 v177 v193 v224 v255 v286 v317 v348 v379 v410 v441 (ix2 p (⟨0, by decide⟩ : Fin 16)) = v441 (ix2 p (0 : Fin 1)) :=
  cat_apply v33 v57 v81 v105 v129 v153 v177 v193 v224 v255 v286 v317 v348 v379 v410 v441 p _

/-- Entry (p, 1) is the column of bit 14 at row p. -/
theorem cat_1 (v33 v57 v81 v105 v129 v153 v177 v193 v224 v255 v286 v317 v348 v379 v410 v441 : FVec Ideal S4096x1 .f32) (p : Fin 4096) :
    k0_pay3 (F := Ideal) v33 v57 v81 v105 v129 v153 v177 v193 v224 v255 v286 v317 v348 v379 v410 v441 (ix2 p (⟨1, by decide⟩ : Fin 16)) = v410 (ix2 p (0 : Fin 1)) :=
  cat_apply v33 v57 v81 v105 v129 v153 v177 v193 v224 v255 v286 v317 v348 v379 v410 v441 p _

/-- Entry (p, 2) is the column of bit 13 at row p. -/
theorem cat_2 (v33 v57 v81 v105 v129 v153 v177 v193 v224 v255 v286 v317 v348 v379 v410 v441 : FVec Ideal S4096x1 .f32) (p : Fin 4096) :
    k0_pay3 (F := Ideal) v33 v57 v81 v105 v129 v153 v177 v193 v224 v255 v286 v317 v348 v379 v410 v441 (ix2 p (⟨2, by decide⟩ : Fin 16)) = v379 (ix2 p (0 : Fin 1)) :=
  cat_apply v33 v57 v81 v105 v129 v153 v177 v193 v224 v255 v286 v317 v348 v379 v410 v441 p _

/-- Entry (p, 3) is the column of bit 12 at row p. -/
theorem cat_3 (v33 v57 v81 v105 v129 v153 v177 v193 v224 v255 v286 v317 v348 v379 v410 v441 : FVec Ideal S4096x1 .f32) (p : Fin 4096) :
    k0_pay3 (F := Ideal) v33 v57 v81 v105 v129 v153 v177 v193 v224 v255 v286 v317 v348 v379 v410 v441 (ix2 p (⟨3, by decide⟩ : Fin 16)) = v348 (ix2 p (0 : Fin 1)) :=
  cat_apply v33 v57 v81 v105 v129 v153 v177 v193 v224 v255 v286 v317 v348 v379 v410 v441 p _

/-- Entry (p, 4) is the column of bit 11 at row p. -/
theorem cat_4 (v33 v57 v81 v105 v129 v153 v177 v193 v224 v255 v286 v317 v348 v379 v410 v441 : FVec Ideal S4096x1 .f32) (p : Fin 4096) :
    k0_pay3 (F := Ideal) v33 v57 v81 v105 v129 v153 v177 v193 v224 v255 v286 v317 v348 v379 v410 v441 (ix2 p (⟨4, by decide⟩ : Fin 16)) = v317 (ix2 p (0 : Fin 1)) :=
  cat_apply v33 v57 v81 v105 v129 v153 v177 v193 v224 v255 v286 v317 v348 v379 v410 v441 p _

/-- Entry (p, 5) is the column of bit 10 at row p. -/
theorem cat_5 (v33 v57 v81 v105 v129 v153 v177 v193 v224 v255 v286 v317 v348 v379 v410 v441 : FVec Ideal S4096x1 .f32) (p : Fin 4096) :
    k0_pay3 (F := Ideal) v33 v57 v81 v105 v129 v153 v177 v193 v224 v255 v286 v317 v348 v379 v410 v441 (ix2 p (⟨5, by decide⟩ : Fin 16)) = v286 (ix2 p (0 : Fin 1)) :=
  cat_apply v33 v57 v81 v105 v129 v153 v177 v193 v224 v255 v286 v317 v348 v379 v410 v441 p _

/-- Entry (p, 6) is the column of bit 9 at row p. -/
theorem cat_6 (v33 v57 v81 v105 v129 v153 v177 v193 v224 v255 v286 v317 v348 v379 v410 v441 : FVec Ideal S4096x1 .f32) (p : Fin 4096) :
    k0_pay3 (F := Ideal) v33 v57 v81 v105 v129 v153 v177 v193 v224 v255 v286 v317 v348 v379 v410 v441 (ix2 p (⟨6, by decide⟩ : Fin 16)) = v255 (ix2 p (0 : Fin 1)) :=
  cat_apply v33 v57 v81 v105 v129 v153 v177 v193 v224 v255 v286 v317 v348 v379 v410 v441 p _

/-- Entry (p, 7) is the column of bit 8 at row p. -/
theorem cat_7 (v33 v57 v81 v105 v129 v153 v177 v193 v224 v255 v286 v317 v348 v379 v410 v441 : FVec Ideal S4096x1 .f32) (p : Fin 4096) :
    k0_pay3 (F := Ideal) v33 v57 v81 v105 v129 v153 v177 v193 v224 v255 v286 v317 v348 v379 v410 v441 (ix2 p (⟨7, by decide⟩ : Fin 16)) = v224 (ix2 p (0 : Fin 1)) :=
  cat_apply v33 v57 v81 v105 v129 v153 v177 v193 v224 v255 v286 v317 v348 v379 v410 v441 p _

/-- Entry (p, 8) is the column of bit 7 at row p. -/
theorem cat_8 (v33 v57 v81 v105 v129 v153 v177 v193 v224 v255 v286 v317 v348 v379 v410 v441 : FVec Ideal S4096x1 .f32) (p : Fin 4096) :
    k0_pay3 (F := Ideal) v33 v57 v81 v105 v129 v153 v177 v193 v224 v255 v286 v317 v348 v379 v410 v441 (ix2 p (⟨8, by decide⟩ : Fin 16)) = v193 (ix2 p (0 : Fin 1)) :=
  cat_apply v33 v57 v81 v105 v129 v153 v177 v193 v224 v255 v286 v317 v348 v379 v410 v441 p _

/-- Entry (p, 9) is the column of bit 6 at row p. -/
theorem cat_9 (v33 v57 v81 v105 v129 v153 v177 v193 v224 v255 v286 v317 v348 v379 v410 v441 : FVec Ideal S4096x1 .f32) (p : Fin 4096) :
    k0_pay3 (F := Ideal) v33 v57 v81 v105 v129 v153 v177 v193 v224 v255 v286 v317 v348 v379 v410 v441 (ix2 p (⟨9, by decide⟩ : Fin 16)) = v177 (ix2 p (0 : Fin 1)) :=
  cat_apply v33 v57 v81 v105 v129 v153 v177 v193 v224 v255 v286 v317 v348 v379 v410 v441 p _

/-- Entry (p, 10) is the column of bit 5 at row p. -/
theorem cat_10 (v33 v57 v81 v105 v129 v153 v177 v193 v224 v255 v286 v317 v348 v379 v410 v441 : FVec Ideal S4096x1 .f32) (p : Fin 4096) :
    k0_pay3 (F := Ideal) v33 v57 v81 v105 v129 v153 v177 v193 v224 v255 v286 v317 v348 v379 v410 v441 (ix2 p (⟨10, by decide⟩ : Fin 16)) = v153 (ix2 p (0 : Fin 1)) :=
  cat_apply v33 v57 v81 v105 v129 v153 v177 v193 v224 v255 v286 v317 v348 v379 v410 v441 p _

/-- Entry (p, 11) is the column of bit 4 at row p. -/
theorem cat_11 (v33 v57 v81 v105 v129 v153 v177 v193 v224 v255 v286 v317 v348 v379 v410 v441 : FVec Ideal S4096x1 .f32) (p : Fin 4096) :
    k0_pay3 (F := Ideal) v33 v57 v81 v105 v129 v153 v177 v193 v224 v255 v286 v317 v348 v379 v410 v441 (ix2 p (⟨11, by decide⟩ : Fin 16)) = v129 (ix2 p (0 : Fin 1)) :=
  cat_apply v33 v57 v81 v105 v129 v153 v177 v193 v224 v255 v286 v317 v348 v379 v410 v441 p _

/-- Entry (p, 12) is the column of bit 3 at row p. -/
theorem cat_12 (v33 v57 v81 v105 v129 v153 v177 v193 v224 v255 v286 v317 v348 v379 v410 v441 : FVec Ideal S4096x1 .f32) (p : Fin 4096) :
    k0_pay3 (F := Ideal) v33 v57 v81 v105 v129 v153 v177 v193 v224 v255 v286 v317 v348 v379 v410 v441 (ix2 p (⟨12, by decide⟩ : Fin 16)) = v105 (ix2 p (0 : Fin 1)) :=
  cat_apply v33 v57 v81 v105 v129 v153 v177 v193 v224 v255 v286 v317 v348 v379 v410 v441 p _

/-- Entry (p, 13) is the column of bit 2 at row p. -/
theorem cat_13 (v33 v57 v81 v105 v129 v153 v177 v193 v224 v255 v286 v317 v348 v379 v410 v441 : FVec Ideal S4096x1 .f32) (p : Fin 4096) :
    k0_pay3 (F := Ideal) v33 v57 v81 v105 v129 v153 v177 v193 v224 v255 v286 v317 v348 v379 v410 v441 (ix2 p (⟨13, by decide⟩ : Fin 16)) = v81 (ix2 p (0 : Fin 1)) :=
  cat_apply v33 v57 v81 v105 v129 v153 v177 v193 v224 v255 v286 v317 v348 v379 v410 v441 p _

/-- Entry (p, 14) is the column of bit 1 at row p. -/
theorem cat_14 (v33 v57 v81 v105 v129 v153 v177 v193 v224 v255 v286 v317 v348 v379 v410 v441 : FVec Ideal S4096x1 .f32) (p : Fin 4096) :
    k0_pay3 (F := Ideal) v33 v57 v81 v105 v129 v153 v177 v193 v224 v255 v286 v317 v348 v379 v410 v441 (ix2 p (⟨14, by decide⟩ : Fin 16)) = v57 (ix2 p (0 : Fin 1)) :=
  cat_apply v33 v57 v81 v105 v129 v153 v177 v193 v224 v255 v286 v317 v348 v379 v410 v441 p _

/-- Entry (p, 15) is the column of bit 0 at row p. -/
theorem cat_15 (v33 v57 v81 v105 v129 v153 v177 v193 v224 v255 v286 v317 v348 v379 v410 v441 : FVec Ideal S4096x1 .f32) (p : Fin 4096) :
    k0_pay3 (F := Ideal) v33 v57 v81 v105 v129 v153 v177 v193 v224 v255 v286 v317 v348 v379 v410 v441 (ix2 p (⟨15, by decide⟩ : Fin 16)) = v33 (ix2 p (0 : Fin 1)) :=
  cat_apply v33 v57 v81 v105 v129 v153 v177 v193 v224 v255 v286 v317 v348 v379 v410 v441 p _

/-! ## The target formula at a column -/

/-- The target formula at a column of one of the bits 0 … 7. -/
theorem kcol_low (x0 : Vec Ideal S4096x1 .i32) (x1 : Vec Ideal S8x128 .f32) (x2 x3 : Vec Ideal S8x256x128 .bf16) (p : Fin 4096)
    (j : Fin 16) (i : Nat) (hi : 15 - j.val = i) (h : i < 8) :
    kcol x0 x1 x2 x3 p j = Cert.Spec.flipBy (Cert.Spec.kbit (x0 (ix2 p (0 : Fin 1))) i)
      (Cert.Spec.lowFlip (x0 (ix2 p (0 : Fin 1))) i (fun l => x1 (ix2 (⟨i, h⟩ : Fin 8) l))) := by
  subst hi
  unfold kcol kflip wordAt
  rw [dif_pos h]

/-- The target formula at a column of one of the bits 8 … 15: bit 8 + b reads table b. -/
theorem kcol_hi (x0 : Vec Ideal S4096x1 .i32) (x1 : Vec Ideal S8x128 .f32) (x2 x3 : Vec Ideal S8x256x128 .bf16) (p : Fin 4096)
    (j : Fin 16) (i b : Nat) (hi : 15 - j.val = i) (h : ¬ i < 8) (hb : i - 8 = b) (hb8 : b < 8) :
    kcol x0 x1 x2 x3 p j = Cert.Spec.flipBy (Cert.Spec.kbit (x0 (ix2 p (0 : Fin 1))) i)
      (Cert.Spec.hiFlip (x0 (ix2 p (0 : Fin 1))) b (fun r l => x2 (ix3 (⟨b, hb8⟩ : Fin 8) r l))
        (fun r l => x3 (ix3 (⟨b, hb8⟩ : Fin 8) r l))) := by
  subst hi
  subst hb
  unfold kcol kflip wordAt
  rw [dif_neg h]
  have e : (⟨(15 - j.val - 8) % 8, Nat.mod_lt _ (by norm_num)⟩ : Fin 8) = ⟨15 - j.val - 8, hb8⟩ :=
    Fin.ext (Nat.mod_eq_of_lt hb8)
  rw [e]

/-! ## The sixteen column formulas, as hypotheses -/

/-- The sixteen columns' formulas: the column of bit i at row p is the exclusive-or formula of the
    bit's value and the table entry looked up through indicator sums. -/
structure Cols : Prop where
  bit0 : ∀ (v0 : Vec Ideal S4096x1 .i32) (row : Vec Ideal S1x128 .f32) (p : Fin 4096),
    k0_pay6 (F := Ideal) v0 row (ix2 p (0 : Fin 1))
      = Cert.Spec.flipBy (Cert.Spec.kbit (v0 (ix2 p (0 : Fin 1))) 0)
          (Cert.Spec.lowFlip (v0 (ix2 p (0 : Fin 1))) 0 (fun l => row (ix2 (0 : Fin 1) l)))
  bit1 : ∀ (v0 : Vec Ideal S4096x1 .i32) (row : Vec Ideal S1x128 .f32) (p : Fin 4096),
    k0_pay8 (F := Ideal) (k0_pay4 v0) (k0_pay7 v0 row) (ix2 p (0 : Fin 1))
      = Cert.Spec.flipBy (Cert.Spec.kbit (v0 (ix2 p (0 : Fin 1))) 1)
          (Cert.Spec.lowFlip (v0 (ix2 p (0 : Fin 1))) 1 (fun l => row (ix2 (0 : Fin 1) l)))
  bit2 : ∀ (v0 : Vec Ideal S4096x1 .i32) (row : Vec Ideal S1x128 .f32) (p : Fin 4096),
    k0_pay9 (F := Ideal) (k0_pay4 v0) row (ix2 p (0 : Fin 1))
      = Cert.Spec.flipBy (Cert.Spec.kbit (v0 (ix2 p (0 : Fin 1))) 2)
          (Cert.Spec.lowFlip (v0 (ix2 p (0 : Fin 1))) 2 (fun l => row (ix2 (0 : Fin 1) l)))
  bit3 : ∀ (v0 : Vec Ideal S4096x1 .i32) (row : Vec Ideal S1x128 .f32) (p : Fin 4096),
    k0_pay12 (F := Ideal) (k0_pay4 v0) (k0_pay10 (k0_pay4 v0)) (k0_pay11 row) (ix2 p (0 : Fin 1))
      = Cert.Spec.flipBy (Cert.Spec.kbit (v0 (ix2 p (0 : Fin 1))) 3)
          (Cert.Spec.lowFlip (v0 (ix2 p (0 : Fin 1))) 3 (fun l => row (ix2 (0 : Fin 1) l)))
  bit4 : ∀ (v0 : Vec Ideal S4096x1 .i32) (row : Vec Ideal S1x128 .f32) (p : Fin 4096),
    k0_pay13 (F := Ideal) (k0_pay4 v0) row (ix2 p (0 : Fin 1))
      = Cert.Spec.flipBy (Cert.Spec.kbit (v0 (ix2 p (0 : Fin 1))) 4)
          (Cert.Spec.lowFlip (v0 (ix2 p (0 : Fin 1))) 4 (fun l => row (ix2 (0 : Fin 1) l)))
  bit5 : ∀ (v0 : Vec Ideal S4096x1 .i32) (row : Vec Ideal S1x128 .f32) (p : Fin 4096),
    k0_pay15 (F := Ideal) (k0_pay4 v0) (k0_pay14 (k0_pay4 v0)) row (ix2 p (0 : Fin 1))
      = Cert.Spec.flipBy (Cert.Spec.kbit (v0 (ix2 p (0 : Fin 1))) 5)
          (Cert.Spec.lowFlip (v0 (ix2 p (0 : Fin 1))) 5 (fun l => row (ix2 (0 : Fin 1) l)))
  bit6 : ∀ (v0 : Vec Ideal S4096x1 .i32) (row : Vec Ideal S1x128 .f32) (p : Fin 4096),
    k0_pay16 (F := Ideal) (k0_pay4 v0) row (ix2 p (0 : Fin 1))
      = Cert.Spec.flipBy (Cert.Spec.kbit (v0 (ix2 p (0 : Fin 1))) 6)
          (Cert.Spec.lowFlip (v0 (ix2 p (0 : Fin 1))) 6 (fun l => row (ix2 (0 : Fin 1) l)))
  bit7 : ∀ (v0 : Vec Ideal S4096x1 .i32) (row : Vec Ideal S1x128 .f32) (p : Fin 4096),
    k0_pay18 (F := Ideal) (k0_pay4 v0) (k0_pay17 (k0_pay5 v0) row) (ix2 p (0 : Fin 1))
      = Cert.Spec.flipBy (Cert.Spec.kbit (v0 (ix2 p (0 : Fin 1))) 7)
          (Cert.Spec.lowFlip (v0 (ix2 p (0 : Fin 1))) 7 (fun l => row (ix2 (0 : Fin 1) l)))
  bit8 : ∀ (v0 : Vec Ideal S4096x1 .i32) (s2 s3 : Vec Ideal S1x256x128 .bf16) (p : Fin 4096),
    k0_pay19 (F := Ideal) (k0_pay4 v0) (k0_pay5 v0) s2 s3 (ix2 p (0 : Fin 1))
      = Cert.Spec.flipBy (Cert.Spec.kbit (v0 (ix2 p (0 : Fin 1))) 8)
          (Cert.Spec.hiFlip (v0 (ix2 p (0 : Fin 1))) 0 (fun r l => s2 (ix3 (0 : Fin 1) r l)) (fun r l => s3 (ix3 (0 : Fin 1) r l)))
  bit9 : ∀ (v0 : Vec Ideal S4096x1 .i32) (s2 s3 : Vec Ideal S1x256x128 .bf16) (p : Fin 4096),
    k0_pay21 (F := Ideal) (k0_pay4 v0) (k0_pay5 v0) k0_pay20 s2 s3 (ix2 p (0 : Fin 1))
      = Cert.Spec.flipBy (Cert.Spec.kbit (v0 (ix2 p (0 : Fin 1))) 9)
          (Cert.Spec.hiFlip (v0 (ix2 p (0 : Fin 1))) 1 (fun r l => s2 (ix3 (0 : Fin 1) r l)) (fun r l => s3 (ix3 (0 : Fin 1) r l)))
  bit10 : ∀ (v0 : Vec Ideal S4096x1 .i32) (s2 s3 : Vec Ideal S1x256x128 .bf16) (p : Fin 4096),
    k0_pay23 (F := Ideal) (k0_pay4 v0) (k0_pay5 v0) (k0_pay22 (k0_pay4 v0)) s2 s3 (ix2 p (0 : Fin 1))
      = Cert.Spec.flipBy (Cert.Spec.kbit (v0 (ix2 p (0 : Fin 1))) 10)
          (Cert.Spec.hiFlip (v0 (ix2 p (0 : Fin 1))) 2 (fun r l => s2 (ix3 (0 : Fin 1) r l)) (fun r l => s3 (ix3 (0 : Fin 1) r l)))
  bit11 : ∀ (v0 : Vec Ideal S4096x1 .i32) (s2 s3 : Vec Ideal S1x256x128 .bf16) (p : Fin 4096),
    k0_pay25 (F := Ideal) (k0_pay4 v0) (k0_pay24 (k0_pay4 v0) (k0_pay5 v0) s2 s3) (ix2 p (0 : Fin 1))
      = Cert.Spec.flipBy (Cert.Spec.kbit (v0 (ix2 p (0 : Fin 1))) 11)
          (Cert.Spec.hiFlip (v0 (ix2 p (0 : Fin 1))) 3 (fun r l => s2 (ix3 (0 : Fin 1) r l)) (fun r l => s3 (ix3 (0 : Fin 1) r l)))
  bit12 : ∀ (v0 : Vec Ideal S4096x1 .i32) (s2 s3 : Vec Ideal S1x256x128 .bf16) (p : Fin 4096),
    k0_pay26 (F := Ideal) (k0_pay4 v0) (k0_pay5 v0) s2 s3 (ix2 p (0 : Fin 1))
      = Cert.Spec.flipBy (Cert.Spec.kbit (v0 (ix2 p (0 : Fin 1))) 12)
          (Cert.Spec.hiFlip (v0 (ix2 p (0 : Fin 1))) 4 (fun r l => s2 (ix3 (0 : Fin 1) r l)) (fun r l => s3 (ix3 (0 : Fin 1) r l)))
  bit13 : ∀ (v0 : Vec Ideal S4096x1 .i32) (s2 s3 : Vec Ideal S1x256x128 .bf16) (p : Fin 4096),
    k0_pay28 (F := Ideal) (k0_pay4 v0) (k0_pay5 v0) k0_pay27 s2 s3 (ix2 p (0 : Fin 1))
      = Cert.Spec.flipBy (Cert.Spec.kbit (v0 (ix2 p (0 : Fin 1))) 13)
          (Cert.Spec.hiFlip (v0 (ix2 p (0 : Fin 1))) 5 (fun r l => s2 (ix3 (0 : Fin 1) r l)) (fun r l => s3 (ix3 (0 : Fin 1) r l)))
  bit14 : ∀ (v0 : Vec Ideal S4096x1 .i32) (s2 s3 : Vec Ideal S1x256x128 .bf16) (p : Fin 4096),
    k0_pay30 (F := Ideal) (k0_pay4 v0) (k0_pay5 v0) (k0_pay29 (k0_pay4 v0)) s2 s3 (ix2 p (0 : Fin 1))
      = Cert.Spec.flipBy (Cert.Spec.kbit (v0 (ix2 p (0 : Fin 1))) 14)
          (Cert.Spec.hiFlip (v0 (ix2 p (0 : Fin 1))) 6 (fun r l => s2 (ix3 (0 : Fin 1) r l)) (fun r l => s3 (ix3 (0 : Fin 1) r l)))
  bit15 : ∀ (v0 : Vec Ideal S4096x1 .i32) (s2 s3 : Vec Ideal S1x256x128 .bf16) (p : Fin 4096),
    k0_pay2 (F := Ideal) (k0_pay31 (k0_pay4 v0) (k0_pay5 v0) s2 s3) (k0_pay1 (k0_pay4 v0)) (addf (k0_pay1 (k0_pay4 v0)) (k0_pay31 (k0_pay4 v0) (k0_pay5 v0) s2 s3)) (ix2 p (0 : Fin 1))
      = Cert.Spec.flipBy (Cert.Spec.kbit (v0 (ix2 p (0 : Fin 1))) 15)
          (Cert.Spec.hiFlip (v0 (ix2 p (0 : Fin 1))) 7 (fun r l => s2 (ix3 (0 : Fin 1) r l)) (fun r l => s3 (ix3 (0 : Fin 1) r l)))

/-! ## The stored block, entry by entry -/

/-- Entry (p, 0): the column of bit 15, looked up in table 7 and its residual. -/
theorem entry_0 (hc : Cols) (x0 : Vec Ideal S4096x1 .i32) (x1 : Vec Ideal S8x128 .f32) (x2 x3 : Vec Ideal S8x256x128 .bf16)
    (p : Fin 4096) : bodyVal (F := Ideal) x0 x1 x2 x3 (ix2 p (⟨0, by decide⟩ : Fin 16)) = kcol x0 x1 x2 x3 p ⟨0, by decide⟩ := by
  refine (cat_0 _ _ _ _ _ _ _ _ _ _ _ _ _ _ _ _ p).trans ?_
  refine (hc.bit15 (View.ld x0 rVal) (View.ld x2 rSlab7) (View.ld x3 rSlab7) p).trans ?_
  rw [ld_val, kcol_hi x0 x1 x2 x3 p ⟨0, by decide⟩ 15 7 rfl (by decide) rfl (by decide)]
  exact congrArg₂ (fun T R => Cert.Spec.flipBy (Cert.Spec.kbit (x0 (ix2 p (0 : Fin 1))) 15) (Cert.Spec.hiFlip (x0 (ix2 p (0 : Fin 1))) 7 T R))
    (funext fun r => funext fun l => ld_slab x2 (⟨7, by decide⟩ : Fin 8) inb_S8x256x128_S1x256x128_7_0_0 r l)
    (funext fun r => funext fun l => ld_slab x3 (⟨7, by decide⟩ : Fin 8) inb_S8x256x128_S1x256x128_7_0_0 r l)

/-- Entry (p, 1): the column of bit 14, looked up in table 6 and its residual. -/
theorem entry_1 (hc : Cols) (x0 : Vec Ideal S4096x1 .i32) (x1 : Vec Ideal S8x128 .f32) (x2 x3 : Vec Ideal S8x256x128 .bf16)
    (p : Fin 4096) : bodyVal (F := Ideal) x0 x1 x2 x3 (ix2 p (⟨1, by decide⟩ : Fin 16)) = kcol x0 x1 x2 x3 p ⟨1, by decide⟩ := by
  refine (cat_1 _ _ _ _ _ _ _ _ _ _ _ _ _ _ _ _ p).trans ?_
  refine (hc.bit14 (View.ld x0 rVal) (View.ld x2 rSlab6) (View.ld x3 rSlab6) p).trans ?_
  rw [ld_val, kcol_hi x0 x1 x2 x3 p ⟨1, by decide⟩ 14 6 rfl (by decide) rfl (by decide)]
  exact congrArg₂ (fun T R => Cert.Spec.flipBy (Cert.Spec.kbit (x0 (ix2 p (0 : Fin 1))) 14) (Cert.Spec.hiFlip (x0 (ix2 p (0 : Fin 1))) 6 T R))
    (funext fun r => funext fun l => ld_slab x2 (⟨6, by decide⟩ : Fin 8) inb_S8x256x128_S1x256x128_6_0_0 r l)
    (funext fun r => funext fun l => ld_slab x3 (⟨6, by decide⟩ : Fin 8) inb_S8x256x128_S1x256x128_6_0_0 r l)

/-- Entry (p, 2): the column of bit 13, looked up in table 5 and its residual. -/
theorem entry_2 (hc : Cols) (x0 : Vec Ideal S4096x1 .i32) (x1 : Vec Ideal S8x128 .f32) (x2 x3 : Vec Ideal S8x256x128 .bf16)
    (p : Fin 4096) : bodyVal (F := Ideal) x0 x1 x2 x3 (ix2 p (⟨2, by decide⟩ : Fin 16)) = kcol x0 x1 x2 x3 p ⟨2, by decide⟩ := by
  refine (cat_2 _ _ _ _ _ _ _ _ _ _ _ _ _ _ _ _ p).trans ?_
  refine (hc.bit13 (View.ld x0 rVal) (View.ld x2 rSlab5) (View.ld x3 rSlab5) p).trans ?_
  rw [ld_val, kcol_hi x0 x1 x2 x3 p ⟨2, by decide⟩ 13 5 rfl (by decide) rfl (by decide)]
  exact congrArg₂ (fun T R => Cert.Spec.flipBy (Cert.Spec.kbit (x0 (ix2 p (0 : Fin 1))) 13) (Cert.Spec.hiFlip (x0 (ix2 p (0 : Fin 1))) 5 T R))
    (funext fun r => funext fun l => ld_slab x2 (⟨5, by decide⟩ : Fin 8) inb_S8x256x128_S1x256x128_5_0_0 r l)
    (funext fun r => funext fun l => ld_slab x3 (⟨5, by decide⟩ : Fin 8) inb_S8x256x128_S1x256x128_5_0_0 r l)

/-- Entry (p, 3): the column of bit 12, looked up in table 4 and its residual. -/
theorem entry_3 (hc : Cols) (x0 : Vec Ideal S4096x1 .i32) (x1 : Vec Ideal S8x128 .f32) (x2 x3 : Vec Ideal S8x256x128 .bf16)
    (p : Fin 4096) : bodyVal (F := Ideal) x0 x1 x2 x3 (ix2 p (⟨3, by decide⟩ : Fin 16)) = kcol x0 x1 x2 x3 p ⟨3, by decide⟩ := by
  refine (cat_3 _ _ _ _ _ _ _ _ _ _ _ _ _ _ _ _ p).trans ?_
  refine (hc.bit12 (View.ld x0 rVal) (View.ld x2 rSlab4) (View.ld x3 rSlab4) p).trans ?_
  rw [ld_val, kcol_hi x0 x1 x2 x3 p ⟨3, by decide⟩ 12 4 rfl (by decide) rfl (by decide)]
  exact congrArg₂ (fun T R => Cert.Spec.flipBy (Cert.Spec.kbit (x0 (ix2 p (0 : Fin 1))) 12) (Cert.Spec.hiFlip (x0 (ix2 p (0 : Fin 1))) 4 T R))
    (funext fun r => funext fun l => ld_slab x2 (⟨4, by decide⟩ : Fin 8) inb_S8x256x128_S1x256x128_4_0_0 r l)
    (funext fun r => funext fun l => ld_slab x3 (⟨4, by decide⟩ : Fin 8) inb_S8x256x128_S1x256x128_4_0_0 r l)

/-- Entry (p, 4): the column of bit 11, looked up in table 3 and its residual. -/
theorem entry_4 (hc : Cols) (x0 : Vec Ideal S4096x1 .i32) (x1 : Vec Ideal S8x128 .f32) (x2 x3 : Vec Ideal S8x256x128 .bf16)
    (p : Fin 4096) : bodyVal (F := Ideal) x0 x1 x2 x3 (ix2 p (⟨4, by decide⟩ : Fin 16)) = kcol x0 x1 x2 x3 p ⟨4, by decide⟩ := by
  refine (cat_4 _ _ _ _ _ _ _ _ _ _ _ _ _ _ _ _ p).trans ?_
  refine (hc.bit11 (View.ld x0 rVal) (View.ld x2 rSlab3) (View.ld x3 rSlab3) p).trans ?_
  rw [ld_val, kcol_hi x0 x1 x2 x3 p ⟨4, by decide⟩ 11 3 rfl (by decide) rfl (by decide)]
  exact congrArg₂ (fun T R => Cert.Spec.flipBy (Cert.Spec.kbit (x0 (ix2 p (0 : Fin 1))) 11) (Cert.Spec.hiFlip (x0 (ix2 p (0 : Fin 1))) 3 T R))
    (funext fun r => funext fun l => ld_slab x2 (⟨3, by decide⟩ : Fin 8) inb_S8x256x128_S1x256x128_3_0_0 r l)
    (funext fun r => funext fun l => ld_slab x3 (⟨3, by decide⟩ : Fin 8) inb_S8x256x128_S1x256x128_3_0_0 r l)

/-- Entry (p, 5): the column of bit 10, looked up in table 2 and its residual. -/
theorem entry_5 (hc : Cols) (x0 : Vec Ideal S4096x1 .i32) (x1 : Vec Ideal S8x128 .f32) (x2 x3 : Vec Ideal S8x256x128 .bf16)
    (p : Fin 4096) : bodyVal (F := Ideal) x0 x1 x2 x3 (ix2 p (⟨5, by decide⟩ : Fin 16)) = kcol x0 x1 x2 x3 p ⟨5, by decide⟩ := by
  refine (cat_5 _ _ _ _ _ _ _ _ _ _ _ _ _ _ _ _ p).trans ?_
  refine (hc.bit10 (View.ld x0 rVal) (View.ld x2 rSlab2) (View.ld x3 rSlab2) p).trans ?_
  rw [ld_val, kcol_hi x0 x1 x2 x3 p ⟨5, by decide⟩ 10 2 rfl (by decide) rfl (by decide)]
  exact congrArg₂ (fun T R => Cert.Spec.flipBy (Cert.Spec.kbit (x0 (ix2 p (0 : Fin 1))) 10) (Cert.Spec.hiFlip (x0 (ix2 p (0 : Fin 1))) 2 T R))
    (funext fun r => funext fun l => ld_slab x2 (⟨2, by decide⟩ : Fin 8) inb_S8x256x128_S1x256x128_2_0_0 r l)
    (funext fun r => funext fun l => ld_slab x3 (⟨2, by decide⟩ : Fin 8) inb_S8x256x128_S1x256x128_2_0_0 r l)

/-- Entry (p, 6): the column of bit 9, looked up in table 1 and its residual. -/
theorem entry_6 (hc : Cols) (x0 : Vec Ideal S4096x1 .i32) (x1 : Vec Ideal S8x128 .f32) (x2 x3 : Vec Ideal S8x256x128 .bf16)
    (p : Fin 4096) : bodyVal (F := Ideal) x0 x1 x2 x3 (ix2 p (⟨6, by decide⟩ : Fin 16)) = kcol x0 x1 x2 x3 p ⟨6, by decide⟩ := by
  refine (cat_6 _ _ _ _ _ _ _ _ _ _ _ _ _ _ _ _ p).trans ?_
  refine (hc.bit9 (View.ld x0 rVal) (View.ld x2 rSlab1) (View.ld x3 rSlab1) p).trans ?_
  rw [ld_val, kcol_hi x0 x1 x2 x3 p ⟨6, by decide⟩ 9 1 rfl (by decide) rfl (by decide)]
  exact congrArg₂ (fun T R => Cert.Spec.flipBy (Cert.Spec.kbit (x0 (ix2 p (0 : Fin 1))) 9) (Cert.Spec.hiFlip (x0 (ix2 p (0 : Fin 1))) 1 T R))
    (funext fun r => funext fun l => ld_slab x2 (⟨1, by decide⟩ : Fin 8) inb_S8x256x128_S1x256x128_1_0_0 r l)
    (funext fun r => funext fun l => ld_slab x3 (⟨1, by decide⟩ : Fin 8) inb_S8x256x128_S1x256x128_1_0_0 r l)

/-- Entry (p, 7): the column of bit 8, looked up in table 0 and its residual. -/
theorem entry_7 (hc : Cols) (x0 : Vec Ideal S4096x1 .i32) (x1 : Vec Ideal S8x128 .f32) (x2 x3 : Vec Ideal S8x256x128 .bf16)
    (p : Fin 4096) : bodyVal (F := Ideal) x0 x1 x2 x3 (ix2 p (⟨7, by decide⟩ : Fin 16)) = kcol x0 x1 x2 x3 p ⟨7, by decide⟩ := by
  refine (cat_7 _ _ _ _ _ _ _ _ _ _ _ _ _ _ _ _ p).trans ?_
  refine (hc.bit8 (View.ld x0 rVal) (View.ld x2 rSlab0) (View.ld x3 rSlab0) p).trans ?_
  rw [ld_val, kcol_hi x0 x1 x2 x3 p ⟨7, by decide⟩ 8 0 rfl (by decide) rfl (by decide)]
  exact congrArg₂ (fun T R => Cert.Spec.flipBy (Cert.Spec.kbit (x0 (ix2 p (0 : Fin 1))) 8) (Cert.Spec.hiFlip (x0 (ix2 p (0 : Fin 1))) 0 T R))
    (funext fun r => funext fun l => ld_slab x2 (⟨0, by decide⟩ : Fin 8) inb_S8x256x128_S1x256x128_0_0_0 r l)
    (funext fun r => funext fun l => ld_slab x3 (⟨0, by decide⟩ : Fin 8) inb_S8x256x128_S1x256x128_0_0_0 r l)

/-- Entry (p, 8): the column of bit 7, looked up in short row 7. -/
theorem entry_8 (hc : Cols) (x0 : Vec Ideal S4096x1 .i32) (x1 : Vec Ideal S8x128 .f32) (x2 x3 : Vec Ideal S8x256x128 .bf16)
    (p : Fin 4096) : bodyVal (F := Ideal) x0 x1 x2 x3 (ix2 p (⟨8, by decide⟩ : Fin 16)) = kcol x0 x1 x2 x3 p ⟨8, by decide⟩ := by
  refine (cat_8 _ _ _ _ _ _ _ _ _ _ _ _ _ _ _ _ p).trans ?_
  refine (hc.bit7 (View.ld x0 rVal) (View.ld x1 rRow7) p).trans ?_
  rw [ld_val, kcol_low x0 x1 x2 x3 p ⟨8, by decide⟩ 7 rfl (by decide)]
  exact congrArg (fun f => Cert.Spec.flipBy (Cert.Spec.kbit (x0 (ix2 p (0 : Fin 1))) 7) (Cert.Spec.lowFlip (x0 (ix2 p (0 : Fin 1))) 7 f))
    (funext fun l => ld_row x1 (⟨7, by decide⟩ : Fin 8) inb_S8x128_S1x128_7_0 l)

/-- Entry (p, 9): the column of bit 6, looked up in short row 6. -/
theorem entry_9 (hc : Cols) (x0 : Vec Ideal S4096x1 .i32) (x1 : Vec Ideal S8x128 .f32) (x2 x3 : Vec Ideal S8x256x128 .bf16)
    (p : Fin 4096) : bodyVal (F := Ideal) x0 x1 x2 x3 (ix2 p (⟨9, by decide⟩ : Fin 16)) = kcol x0 x1 x2 x3 p ⟨9, by decide⟩ := by
  refine (cat_9 _ _ _ _ _ _ _ _ _ _ _ _ _ _ _ _ p).trans ?_
  refine (hc.bit6 (View.ld x0 rVal) (View.ld x1 rRow6) p).trans ?_
  rw [ld_val, kcol_low x0 x1 x2 x3 p ⟨9, by decide⟩ 6 rfl (by decide)]
  exact congrArg (fun f => Cert.Spec.flipBy (Cert.Spec.kbit (x0 (ix2 p (0 : Fin 1))) 6) (Cert.Spec.lowFlip (x0 (ix2 p (0 : Fin 1))) 6 f))
    (funext fun l => ld_row x1 (⟨6, by decide⟩ : Fin 8) inb_S8x128_S1x128_6_0 l)

/-- Entry (p, 10): the column of bit 5, looked up in short row 5. -/
theorem entry_10 (hc : Cols) (x0 : Vec Ideal S4096x1 .i32) (x1 : Vec Ideal S8x128 .f32) (x2 x3 : Vec Ideal S8x256x128 .bf16)
    (p : Fin 4096) : bodyVal (F := Ideal) x0 x1 x2 x3 (ix2 p (⟨10, by decide⟩ : Fin 16)) = kcol x0 x1 x2 x3 p ⟨10, by decide⟩ := by
  refine (cat_10 _ _ _ _ _ _ _ _ _ _ _ _ _ _ _ _ p).trans ?_
  refine (hc.bit5 (View.ld x0 rVal) (View.ld x1 rRow5) p).trans ?_
  rw [ld_val, kcol_low x0 x1 x2 x3 p ⟨10, by decide⟩ 5 rfl (by decide)]
  exact congrArg (fun f => Cert.Spec.flipBy (Cert.Spec.kbit (x0 (ix2 p (0 : Fin 1))) 5) (Cert.Spec.lowFlip (x0 (ix2 p (0 : Fin 1))) 5 f))
    (funext fun l => ld_row x1 (⟨5, by decide⟩ : Fin 8) inb_S8x128_S1x128_5_0 l)

/-- Entry (p, 11): the column of bit 4, looked up in short row 4. -/
theorem entry_11 (hc : Cols) (x0 : Vec Ideal S4096x1 .i32) (x1 : Vec Ideal S8x128 .f32) (x2 x3 : Vec Ideal S8x256x128 .bf16)
    (p : Fin 4096) : bodyVal (F := Ideal) x0 x1 x2 x3 (ix2 p (⟨11, by decide⟩ : Fin 16)) = kcol x0 x1 x2 x3 p ⟨11, by decide⟩ := by
  refine (cat_11 _ _ _ _ _ _ _ _ _ _ _ _ _ _ _ _ p).trans ?_
  refine (hc.bit4 (View.ld x0 rVal) (View.ld x1 rRow4) p).trans ?_
  rw [ld_val, kcol_low x0 x1 x2 x3 p ⟨11, by decide⟩ 4 rfl (by decide)]
  exact congrArg (fun f => Cert.Spec.flipBy (Cert.Spec.kbit (x0 (ix2 p (0 : Fin 1))) 4) (Cert.Spec.lowFlip (x0 (ix2 p (0 : Fin 1))) 4 f))
    (funext fun l => ld_row x1 (⟨4, by decide⟩ : Fin 8) inb_S8x128_S1x128_4_0 l)

/-- Entry (p, 12): the column of bit 3, looked up in short row 3. -/
theorem entry_12 (hc : Cols) (x0 : Vec Ideal S4096x1 .i32) (x1 : Vec Ideal S8x128 .f32) (x2 x3 : Vec Ideal S8x256x128 .bf16)
    (p : Fin 4096) : bodyVal (F := Ideal) x0 x1 x2 x3 (ix2 p (⟨12, by decide⟩ : Fin 16)) = kcol x0 x1 x2 x3 p ⟨12, by decide⟩ := by
  refine (cat_12 _ _ _ _ _ _ _ _ _ _ _ _ _ _ _ _ p).trans ?_
  refine (hc.bit3 (View.ld x0 rVal) (View.ld x1 rRow3) p).trans ?_
  rw [ld_val, kcol_low x0 x1 x2 x3 p ⟨12, by decide⟩ 3 rfl (by decide)]
  exact congrArg (fun f => Cert.Spec.flipBy (Cert.Spec.kbit (x0 (ix2 p (0 : Fin 1))) 3) (Cert.Spec.lowFlip (x0 (ix2 p (0 : Fin 1))) 3 f))
    (funext fun l => ld_row x1 (⟨3, by decide⟩ : Fin 8) inb_S8x128_S1x128_3_0 l)

/-- Entry (p, 13): the column of bit 2, looked up in short row 2. -/
theorem entry_13 (hc : Cols) (x0 : Vec Ideal S4096x1 .i32) (x1 : Vec Ideal S8x128 .f32) (x2 x3 : Vec Ideal S8x256x128 .bf16)
    (p : Fin 4096) : bodyVal (F := Ideal) x0 x1 x2 x3 (ix2 p (⟨13, by decide⟩ : Fin 16)) = kcol x0 x1 x2 x3 p ⟨13, by decide⟩ := by
  refine (cat_13 _ _ _ _ _ _ _ _ _ _ _ _ _ _ _ _ p).trans ?_
  refine (hc.bit2 (View.ld x0 rVal) (View.ld x1 rRow2) p).trans ?_
  rw [ld_val, kcol_low x0 x1 x2 x3 p ⟨13, by decide⟩ 2 rfl (by decide)]
  exact congrArg (fun f => Cert.Spec.flipBy (Cert.Spec.kbit (x0 (ix2 p (0 : Fin 1))) 2) (Cert.Spec.lowFlip (x0 (ix2 p (0 : Fin 1))) 2 f))
    (funext fun l => ld_row x1 (⟨2, by decide⟩ : Fin 8) inb_S8x128_S1x128_2_0 l)

/-- Entry (p, 14): the column of bit 1, looked up in short row 1. -/
theorem entry_14 (hc : Cols) (x0 : Vec Ideal S4096x1 .i32) (x1 : Vec Ideal S8x128 .f32) (x2 x3 : Vec Ideal S8x256x128 .bf16)
    (p : Fin 4096) : bodyVal (F := Ideal) x0 x1 x2 x3 (ix2 p (⟨14, by decide⟩ : Fin 16)) = kcol x0 x1 x2 x3 p ⟨14, by decide⟩ := by
  refine (cat_14 _ _ _ _ _ _ _ _ _ _ _ _ _ _ _ _ p).trans ?_
  refine (hc.bit1 (View.ld x0 rVal) (View.ld x1 rRow1) p).trans ?_
  rw [ld_val, kcol_low x0 x1 x2 x3 p ⟨14, by decide⟩ 1 rfl (by decide)]
  exact congrArg (fun f => Cert.Spec.flipBy (Cert.Spec.kbit (x0 (ix2 p (0 : Fin 1))) 1) (Cert.Spec.lowFlip (x0 (ix2 p (0 : Fin 1))) 1 f))
    (funext fun l => ld_row x1 (⟨1, by decide⟩ : Fin 8) inb_S8x128_S1x128_1_0 l)

/-- Entry (p, 15): the column of bit 0, looked up in short row 0. -/
theorem entry_15 (hc : Cols) (x0 : Vec Ideal S4096x1 .i32) (x1 : Vec Ideal S8x128 .f32) (x2 x3 : Vec Ideal S8x256x128 .bf16)
    (p : Fin 4096) : bodyVal (F := Ideal) x0 x1 x2 x3 (ix2 p (⟨15, by decide⟩ : Fin 16)) = kcol x0 x1 x2 x3 p ⟨15, by decide⟩ := by
  refine (cat_15 _ _ _ _ _ _ _ _ _ _ _ _ _ _ _ _ p).trans ?_
  refine (hc.bit0 (View.ld x0 rVal) (View.ld x1 rRow0) p).trans ?_
  rw [ld_val, kcol_low x0 x1 x2 x3 p ⟨15, by decide⟩ 0 rfl (by decide)]
  exact congrArg (fun f => Cert.Spec.flipBy (Cert.Spec.kbit (x0 (ix2 p (0 : Fin 1))) 0) (Cert.Spec.lowFlip (x0 (ix2 p (0 : Fin 1))) 0 f))
    (funext fun l => ld_row x1 (⟨0, by decide⟩ : Fin 8) inb_S8x128_S1x128_0_0 l)

/-- Entry (p, j) of the stored block is the exclusive-or formula of bit 15 - j of row p's packed word
    and the table entry that bit looks up. -/
theorem bodyVal_apply (hc : Cols) (x0 : Vec Ideal S4096x1 .i32) (x1 : Vec Ideal S8x128 .f32) (x2 x3 : Vec Ideal S8x256x128 .bf16)
    (p : Fin 4096) (j : Fin 16) : bodyVal (F := Ideal) x0 x1 x2 x3 (ix2 p j) = kcol x0 x1 x2 x3 p j := by
  match j with
  | ⟨0, _⟩ => exact entry_0 hc x0 x1 x2 x3 p
  | ⟨1, _⟩ => exact entry_1 hc x0 x1 x2 x3 p
  | ⟨2, _⟩ => exact entry_2 hc x0 x1 x2 x3 p
  | ⟨3, _⟩ => exact entry_3 hc x0 x1 x2 x3 p
  | ⟨4, _⟩ => exact entry_4 hc x0 x1 x2 x3 p
  | ⟨5, _⟩ => exact entry_5 hc x0 x1 x2 x3 p
  | ⟨6, _⟩ => exact entry_6 hc x0 x1 x2 x3 p
  | ⟨7, _⟩ => exact entry_7 hc x0 x1 x2 x3 p
  | ⟨8, _⟩ => exact entry_8 hc x0 x1 x2 x3 p
  | ⟨9, _⟩ => exact entry_9 hc x0 x1 x2 x3 p
  | ⟨10, _⟩ => exact entry_10 hc x0 x1 x2 x3 p
  | ⟨11, _⟩ => exact entry_11 hc x0 x1 x2 x3 p
  | ⟨12, _⟩ => exact entry_12 hc x0 x1 x2 x3 p
  | ⟨13, _⟩ => exact entry_13 hc x0 x1 x2 x3 p
  | ⟨14, _⟩ => exact entry_14 hc x0 x1 x2 x3 p
  | ⟨15, _⟩ => exact entry_15 hc x0 x1 x2 x3 p
  | ⟨n + 16, h⟩ => exact absurd h (by omega)

/-- The sixteen column formulas hold. -/
theorem cols : Cols :=
  ⟨BodyLow.bit0, BodyLow.bit1, BodyLow.bit2, BodyLow.bit3, BodyLow.bit4, BodyLow.bit5, BodyLow.bit6, BodyLow.bit7,
    BodyHigh.bit8, BodyHigh.bit9, BodyHigh.bit10, BodyHigh.bit11, BodyHigh.bit12, BodyHigh.bit13, BodyHigh.bit14, BodyHigh.bit15⟩

/-- Entry (p, j) of the stored block, with the column formulas discharged. -/
theorem bodyVal_apply' (x0 : Vec Ideal S4096x1 .i32) (x1 : Vec Ideal S8x128 .f32) (x2 x3 : Vec Ideal S8x256x128 .bf16)
    (p : Fin 4096) (j : Fin 16) : bodyVal (F := Ideal) x0 x1 x2 x3 (ix2 p j) = kcol x0 x1 x2 x3 p j :=
  bodyVal_apply cols x0 x1 x2 x3 p j

end Cert.KernelIdeal.BodyAt

end
-- ==== Proof.SpecG.lean ====
/-
  The function of the two argument arrays that both programs compute.

  Row r of the bit array packs into the number n_r = Σ_k bits[r, k] · 2^(15-k).  Output entry (r, j)
  belongs to bit i = 15 - j: it is (b + f) - (2·b)·f with b = bits[r, j] read as a number and
  f = tables[i, n_r mod 2^i], the table of bit i addressed by the i bits below it.
-/
import proofs.«417890_j27668179321269_3_alg».proof.Proof.Spec

noncomputable section

namespace Cert.Spec

open Idealize.ShloMosaic Idealize.ShloMosaic.ValueIdx
open scoped BigOperators

abbrev SBits : Shape := ⟨2, ![2097152, 16]⟩
abbrev STab : Shape := ⟨2, ![16, 32768]⟩

/-- Row r's packed number: column k weighs 2^(15-k). -/
def packedNat (bits : IVec SBits 32) (r : Fin 2097152) : ℕ :=
  ∑ k : Fin 16, (bits (ix2 r k)).toNat * 2 ^ (15 - k.val)

theorem addr_lt (n : ℕ) (j : Fin 16) : n % 2 ^ (15 - j.val) < 32768 :=
  lt_of_lt_of_le (Nat.mod_lt _ (Nat.pos_of_ne_zero (by positivity)))
    (by calc 2 ^ (15 - j.val) ≤ 2 ^ 15 := Nat.pow_le_pow_right (by norm_num) (by omega)
          _ = 32768 := by norm_num)

/-- The table position output column j reads: row 15 - j, column n_r mod 2^(15-j). -/
def tabIdx (bits : IVec SBits 32) (r : Fin 2097152) (j : Fin 16) : STab.Idx :=
  ix2 (⟨15 - j.val, by omega⟩ : Fin 16) (⟨packedNat bits r % 2 ^ (15 - j.val), addr_lt _ j⟩ : Fin 32768)

/-- Entry (r, j) of the result. -/
def Gat (bits : IVec SBits 32) (tables : FVec Ideal STab .f32) (r : Fin 2097152) (j : Fin 16) : EReal :=
  flipBy (wordVal (bits (ix2 r j))) (tables (tabIdx bits r j))

/-- The whole result array. -/
def G (bits : IVec SBits 32) (tables : FVec Ideal STab .f32) : FVec Ideal SBits .f32 :=
  fun idx => Gat bits tables ⟨(idx 0).val, idx2_lt0 idx⟩ ⟨(idx 1).val, idx2_lt1 idx⟩

theorem G_apply (bits : IVec SBits 32) (tables : FVec Ideal STab .f32) (r : Fin 2097152) (j : Fin 16) :
    G bits tables (ix2 r j) = Gat bits tables r j := rfl

end Cert.Spec

end
-- ==== Proof.HostWord.lean ====
/-
  What the host's lines before the region leave in two of the region's input arrays.

  The packed word of row r is the sum over the sixteen columns k of bits[r, k] · (1 shifted left by 15 - k), taken as
  a fold of 32-bit additions; the short tables are the first eight rows and first 128 lanes of the table array.
-/
import proofs.«417890_j27668179321269_3_alg».proof.Proof.HandBase
import proofs.«417890_j27668179321269_3_alg».proof.Proof.SpecG
import Idealize.ShloMosaic.Lib.ValueIdx
import Idealize.ShloMosaic.Lib.Pipeline.Value
import Idealize.ShloMosaic.Lib.StableHlo.Run
import Idealize.ShloMosaic.Lib.StableHlo.Predicate
import Mathlib.Algebra.Order.BigOperators.Group.Finset

set_option maxRecDepth 16384

noncomputable section

namespace Cert.KernelIdeal.HostVal

open Idealize.ShloMosaic Idealize.ShloMosaic.ValueIdx Cert.KernelIdeal Cert.KernelIdeal.Gen Cert.KernelIdeal.Hand
open Idealize.ShloMosaic.StableHlo Idealize.ShloMosaic.TcCoe

variable (m : (ℓ : Loc nD τ sig) → Buf (Elt Ideal) ℓ) (c : Dev nD)

/-! ## The short tables -/

/-- The array of short tables is the slice [0:8, 0:128] of the table array. -/
theorem small_eq : (V m c main_v10 : S8x128.Idx → EReal) =
    extractStridedSlice S8x128 ![0, 0] (m ((c : Thread nD τ).loc main_arg1) : FVec Ideal S16x32768 .f32) slices_S16x32768_S8x128_0_0 := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results

/-- Entry (k, l) of the short tables is entry (k, l) of the table array. -/
theorem small_apply (k : Fin 8) (l : Fin 128) :
    (V m c main_v10 : FVec Ideal S8x128 .f32) (ix2 k l)
      = (m ((c : Thread nD τ).loc main_arg1) : FVec Ideal S16x32768 .f32) (ix2 (⟨k.val, by omega⟩ : Fin 16) (⟨l.val, by omega⟩ : Fin 32768)) := by
  refine (congrFun (small_eq m c) (ix2 k l)).trans ?_
  refine extractStridedSlice_apply _ _ _ _ _ fun a => ?_
  match a with
  | ⟨0, _⟩ => show k.val = 0 + k.val; omega
  | ⟨1, _⟩ => show l.val = 0 + l.val; omega

/-! ## The packed words -/

/-- The sixteen weights as the program computes them: 1 shifted left by 15 minus the position. -/
def wts : IVec S16 32 :=
  Host.shli (broadcastInDim S16 ![] bcast_S_S16 (constantI S_ 32 1#32))
    (subi (broadcastInDim S16 ![] bcast_S_S16 (constantI S_ 32 15#32)) (iotaInDim S16 32 0))

/-- The weight word of column k: 1 shifted left by 15 - k. -/
def wt (k : Fin 16) : BitVec 32 := IntOp.shli .host 1#32 (IntOp.subi 15#32 (BitVec.ofNat 32 k.val))

theorem wts_apply (k : Fin 16) : wts (ix1 k) = wt k := rfl

/-- The weight of column k is 2^(15-k). -/
theorem wt_toNat : ∀ k : Fin 16, (wt k).toNat = 2 ^ (15 - k.val) := by decide

/-- The weights laid along every row. -/
def wtsB : IVec S2097152x16 32 :=
  broadcastInDim S2097152x16 ![0, 1] bcast_S1x16_S2097152x16_0_1 (broadcastInDim S1x16 ![1] bcast_S16_S1x16_1 wts)

/-- Every row of the broadcast weights reads the weight of its column. -/
theorem wtsB_apply (r : Fin 2097152) (k : Fin 16) : wtsB (ix2 r k) = wt k := rfl

/-- Row r with column k put back on the reduced axis is the index (r, k). -/
theorem lift_eq (h : S2097152x16.Reduces [1] S2097152) (r : Fin 2097152) (k : Fin 16) :
    h.lift (ix1 r) k = ix2 r k := by
  funext a
  match a with
  | ⟨0, _⟩ => exact Fin.ext rfl
  | ⟨1, _⟩ => exact Fin.ext rfl

/-- The reshaped row sum, read at row r, is the fold of word additions over the sixteen columns. -/
theorem fold_read (bits : IVec S2097152x16 32) (r : Fin 2097152) :
    shapeCast S2097152x1
      (Host.reduce IntOp.addi (muli bits wtsB) (constantI S_ 32 0#32) reducesTo_S2097152x16_S2097152_d1 h_S_)
      shapeCasts_S2097152_S2097152x1 (ix2 r (0 : Fin 1))
    = Finset.univ.fold IntOp.addi 0#32 (fun k : Fin 16 => IntOp.muli (bits (ix2 r k)) (wt k)) := by
  have hR : S2097152x16.Reduces [1] S2097152 := by decide
  refine (shapeCast_apply _ shapeCasts_S2097152_S2097152x1 (ix2 r (0 : Fin 1)) (ix1 r) ?_).trans ?_
  · rw [Shape.rowMajor_val_one, Shape.rowMajor_val_two]
    show r.val = r.val * 1 + 0
    omega
  refine (Host.reduce_eq_fold_single IntOp.addi _ _ reducesTo_S2097152x16_S2097152_d1 hR h_S_ (ix1 r)).trans ?_
  refine Finset.fold_congr (fun (k : Fin 16) _ => ?_)
  show IntOp.muli (bits (hR.lift (ix1 r) k)) (wtsB (hR.lift (ix1 r) k)) = IntOp.muli (bits (ix2 r k)) (wt k)
  rw [lift_eq hR r k, wtsB_apply]

set_option maxHeartbeats 8000000 in
/-- The array of packed words is the reshape of the row sums of bits times weights. -/
theorem word_eq : (V m c main_v9 : S2097152x1.Idx → BitVec 32) =
    shapeCast S2097152x1
      (Host.reduce IntOp.addi (muli (m ((c : Thread nD τ).loc main_arg0) : IVec S2097152x16 32) wtsB)
        (constantI S_ 32 0#32) reducesTo_S2097152x16_S2097152_d1 h_S_)
      shapeCasts_S2097152_S2097152x1 := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results
  rfl

/-- The packed word of row r is the fold of word additions of bit times weight over the sixteen columns. -/
theorem word_fold (r : Fin 2097152) :
    (V m c main_v9 : IVec S2097152x1 32) (ix2 r (0 : Fin 1))
      = Finset.univ.fold IntOp.addi 0#32
          (fun k : Fin 16 => IntOp.muli ((m ((c : Thread nD τ).loc main_arg0) : IVec S2097152x16 32) (ix2 r k)) (wt k)) :=
  (congrFun (word_eq m c) (ix2 r (0 : Fin 1))).trans (fold_read _ r)

/-- A fold of word additions of 0/1 entries times the weights does not wrap: it is the packed number. -/
theorem fold_toNat (b : Fin 16 → BitVec 32) (hb : ∀ k, b k = 0#32 ∨ b k = 1#32) :
    (Finset.univ.fold IntOp.addi 0#32 (fun k : Fin 16 => IntOp.muli (b k) (wt k))).toNat
      = ∑ k : Fin 16, (b k).toNat * 2 ^ (15 - k.val) := by
  have hterm : ∀ k : Fin 16, (IntOp.muli (b k) (wt k)).toNat = (b k).toNat * 2 ^ (15 - k.val) := by
    intro k
    rcases hb k with h | h
    · rw [h]
      show (0#32 * wt k).toNat = (0#32).toNat * 2 ^ (15 - k.val)
      rw [BitVec.zero_mul]
      show 0 = 0 * 2 ^ (15 - k.val)
      rw [Nat.zero_mul]
    · rw [h]
      show (1#32 * wt k).toNat = (1#32).toNat * 2 ^ (15 - k.val)
      rw [BitVec.one_mul, wt_toNat]
      show 2 ^ (15 - k.val) = 1 * 2 ^ (15 - k.val)
      rw [Nat.one_mul]
  have hle : ∀ k : Fin 16, (IntOp.muli (b k) (wt k)).toNat ≤ 32768 := by
    intro k
    rw [hterm k]
    have h1 : (b k).toNat ≤ 1 := by
      rcases hb k with h | h <;> rw [h] <;> decide
    have h2 : 2 ^ (15 - k.val) ≤ 2 ^ 15 := Nat.pow_le_pow_right (by norm_num) (by omega)
    calc (b k).toNat * 2 ^ (15 - k.val) ≤ 1 * 2 ^ 15 := Nat.mul_le_mul h1 h2
      _ = 32768 := by norm_num
  rw [Predicate.toNat_fold_addi]
  · exact Finset.sum_congr rfl (fun k _ => hterm k)
  · calc ∑ k : Fin 16, (IntOp.muli (b k) (wt k)).toNat ≤ ∑ _k : Fin 16, 32768 := Finset.sum_le_sum (fun k _ => hle k)
      _ = 16 * 32768 := by simp
      _ < 2 ^ 32 := by norm_num

/-- When every entry of the bit array is 0 or 1, the packed word of row r is the row's packed number. -/
theorem word_toNat
    (hb : ∀ idx, (m ((c : Thread nD τ).loc main_arg0) : IVec S2097152x16 32) idx = 0#32
      ∨ (m ((c : Thread nD τ).loc main_arg0) : IVec S2097152x16 32) idx = 1#32)
    (r : Fin 2097152) :
    ((V m c main_v9 : IVec S2097152x1 32) (ix2 r (0 : Fin 1))).toNat
      = Cert.Spec.packedNat (m ((c : Thread nD τ).loc main_arg0) : IVec S2097152x16 32) r := by
  rw [word_fold]
  exact fold_toNat (fun k => (m ((c : Thread nD τ).loc main_arg0) : IVec S2097152x16 32) (ix2 r k)) (fun k => hb (ix2 r k))

end Cert.KernelIdeal.HostVal

end
-- ==== Proof.HostTabs.lean ====
/-
  What the host lays out for the region's two table windows, read at an index.

  The eight table rows 8 … 15 are stacked as eight [256, 128] tables.  Table b < 7 is row 8 + b's first
  2^(b+8) entries laid out as [2^(b+1), 128] and padded with zero rows up to 256 rows; table 7 is the
  whole of row 15 as [256, 128].  So the stack at (b, h, l) is the table entry (8 + b, h·128 + l) when
  h < 2^(b+1), and 0 otherwise.  The first window's array is the stack after a change of format, which
  leaves every extended real as it is; the second is the residual of that change, the stack less its
  round trip, which is x - x = 0 at every finite x.

  The host operations come in fifteen stretches.  The last one forms the stack, its change of format
  and the residual from the seven padded tables and the table argument; the fourteen before it form
  the padded tables, each from the table argument alone.  The last stretch is read over arbitrary
  buffers first, and each padded table over the launch's buffers, so that no read walks the whole line.
-/
import proofs.«417890_j27668179321269_3_alg».proof.Proof.HandBase
import Idealize.ShloMosaic.Lib.ValueIdx
import Idealize.ShloMosaic.Lib.Pipeline.Value
import Idealize.ShloMosaic.Lib.KernelVsHost
import Idealize.ShloMosaic.Lib.StableHlo.Run
import Mathlib.Data.EReal.Operations

set_option maxRecDepth 16384

noncomputable section

namespace Cert.KernelIdeal.HostVal

open Idealize.ShloMosaic Idealize.ShloMosaic.TcCoe Idealize.ShloMosaic.ValueIdx Cert.KernelIdeal Cert.KernelIdeal.Gen Cert.KernelIdeal.Hand

variable (m : (ℓ : Loc nD τ sig) → Buf (Elt Ideal) ℓ) (c : Dev nD)

/-- The table argument as launched. -/
abbrev tabs : FVec Ideal S16x32768 .f32 := m ((c : Thread nD τ).loc main_arg1)

open Idealize.ShloMosaic.StableHlo in
/-- An operation over a literal family of eight references leaves, at its result, its function of the eight
    operands' contents, each at its own reference. -/
theorem nary8_result {Val : EltTy → Type} {x0 x1 x2 x3 x4 x5 x6 x7 y : Ref sig .tc}
    (f : ((k : Fin 8) → ((![x0, x1, x2, x3, x4, x5, x6, x7] : Fin 8 → Ref sig .tc) k).ty.Contents Val) → y.ty.Contents Val) (hxs hy)
    (F : Valuation τ sig Val) :
    (nary (τ := τ) ![x0, x1, x2, x3, x4, x5, x6, x7] y f hxs hy).result F (Proc.devRef .tc y)
      = f (Fin.cons (F (Proc.devRef .tc x0)) (Fin.cons (F (Proc.devRef .tc x1)) (Fin.cons (F (Proc.devRef .tc x2)) (Fin.cons (F (Proc.devRef .tc x3))
          (Fin.cons (F (Proc.devRef .tc x4)) (Fin.cons (F (Proc.devRef .tc x5)) (Fin.cons (F (Proc.devRef .tc x6)) (Fin.cons (F (Proc.devRef .tc x7)) (fun i => i.elim0))))))))) := by
  rw [nary_result]; congr 1; funext k; fin_cases k <;> rfl

open Idealize.ShloMosaic.StableHlo in
/-- Reads a buffer after a literal line of operations: each operation's result at its own buffer is its function's
    value, at any other buffer what was there before. -/
macro "after_results8" : tactic =>
  `(tactic| (simp only [after_cons, after_nil]
             repeat (first
               | rw [nullary_result] | rw [unary_result] | rw [binary_result]
               | rw [reshape_result] | rw [nary8_result]
               | (rw [nullary_result_ne]; rotate_left; decide)
               | (rw [unary_result_ne]; rotate_left; decide)
               | (rw [binary_result_ne]; rotate_left; decide)
               | (rw [reshape_result_ne]; rotate_left; decide)
               | (rw [nary_result_ne]; rotate_left; decide))))

/-- The buffers before the last stretch of host operations. -/
def W : Valuation τ sig (Elt Ideal) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13]) (fun b => m (c, b))

theorem V_eq_tail (b : Ref sig .tc) : V m c b = StableHlo.after hostOps0_14 (W m c) (Proc.devRef .tc b) := by
  dsimp only [V, W]
  rw [show (List.flatten [hostOps0, hostOps0_1, hostOps0_2, hostOps0_3, hostOps0_4, hostOps0_5, hostOps0_6, hostOps0_7, hostOps0_8, hostOps0_9, hostOps0_10, hostOps0_11, hostOps0_12, hostOps0_13, hostOps0_14] : List (HloOp τ sig (Elt Ideal)))
      = List.flatten [hostOps0, hostOps0_1, hostOps0_2, hostOps0_3, hostOps0_4, hostOps0_5, hostOps0_6, hostOps0_7, hostOps0_8, hostOps0_9, hostOps0_10, hostOps0_11, hostOps0_12, hostOps0_13] ++ hostOps0_14 from by
    simp only [List.flatten_cons, List.flatten_nil, List.append_nil, List.append_assoc]]
  rw [StableHlo.after_append]

/-- Eight [256, 128] tables stacked along a new leading axis. -/
def stack8 (t0 t1 t2 t3 t4 t5 t6 t7 : FVec Ideal S256x128 .f32) : FVec Ideal S8x256x128 .f32 :=
  concatenate S8x256x128 0
    [⟨S1x256x128, broadcastInDim S1x256x128 ![1, 2] bcast_S256x128_S1x256x128_1_2 t0⟩,
     ⟨S1x256x128, broadcastInDim S1x256x128 ![1, 2] bcast_S256x128_S1x256x128_1_2 t1⟩,
     ⟨S1x256x128, broadcastInDim S1x256x128 ![1, 2] bcast_S256x128_S1x256x128_1_2 t2⟩,
     ⟨S1x256x128, broadcastInDim S1x256x128 ![1, 2] bcast_S256x128_S1x256x128_1_2 t3⟩,
     ⟨S1x256x128, broadcastInDim S1x256x128 ![1, 2] bcast_S256x128_S1x256x128_1_2 t4⟩,
     ⟨S1x256x128, broadcastInDim S1x256x128 ![1, 2] bcast_S256x128_S1x256x128_1_2 t5⟩,
     ⟨S1x256x128, broadcastInDim S1x256x128 ![1, 2] bcast_S256x128_S1x256x128_1_2 t6⟩,
     ⟨S1x256x128, broadcastInDim S1x256x128 ![1, 2] bcast_S256x128_S1x256x128_1_2 t7⟩]
    concatenates_S1x256x128_S1x256x128_S1x256x128_S1x256x128_S1x256x128_S1x256x128_S1x256x128_S1x256x128_S8x256x128_d0

/-- Row 15 of the tables, all 32768 entries, laid out as [256, 128]. -/
def lastTab (T : FVec Ideal S16x32768 .f32) : FVec Ideal S256x128 .f32 :=
  shapeCast S256x128 (shapeCast S32768 (extractStridedSlice S1x32768 ![15, 0] T slices_S16x32768_S1x32768_15_0)
    shapeCasts_S1x32768_S32768) shapeCasts_S32768_S256x128

/-- Converting the zero word to a float gives 0. -/
theorem padVal_zero (i : S_.Idx) : (sitofp (F := Ideal) .f32 (constantI S_ 32 0#32) : FVec Ideal S_ .f32) i = 0 := by
  show (((0#32 : BitVec 32).toInt : ℝ) : EReal) = 0
  simp

/-- A [256, 128] table broadcast to [1, 256, 128] reads, at (0, h, l), the table at (h, l). -/
theorem bcast_apply (t : FVec Ideal S256x128 .f32) (h : Fin 256) (l : Fin 128) :
    broadcastInDim S1x256x128 ![1, 2] bcast_S256x128_S1x256x128_1_2 t (ix3 (0 : Fin 1) h l) = t (ix2 h l) :=
  broadcastInDim_apply _ _ t (ix3 (0 : Fin 1) h l) (ix2 h l) (fun a => match a with | ⟨0, _⟩ => rfl | ⟨1, _⟩ => rfl)

/-- Row r of the tables, its first M = N·128 entries laid out as [N, 128] and padded with rows of v up to 256 rows:
    at (h, l) it is the table entry r, h·128 + l when h < N, and 0 otherwise when v is 0. -/
theorem piece_apply (T : FVec Ideal S16x32768 .f32) (r N M P : Nat) (hr : r < 16) (hM : M = N * 128) (hM' : M ≤ 32768)
    (hs : S16x32768.Slices ![r, 0] ⟨2, ![1, M]⟩) (hc1 : (⟨2, ![1, M]⟩ : Shape).ShapeCasts ⟨1, ![M]⟩)
    (hc2 : (⟨1, ![M]⟩ : Shape).ShapeCasts ⟨2, ![N, 128]⟩) (hp : (⟨2, ![N, 128]⟩ : Shape).Pads ![0, 0] ![P, 0] ![0, 0] S256x128)
    (v : FVec Ideal S_ .f32) (hv : ∀ i, v i = 0) (hu : 0 < S_.numel) (h : Fin 256) (l : Fin 128) :
    pad S256x128 ![0, 0] ![P, 0] ![0, 0]
        (shapeCast ⟨2, ![N, 128]⟩ (shapeCast ⟨1, ![M]⟩ (extractStridedSlice ⟨2, ![1, M]⟩ ![r, 0] T hs) hc1) hc2) v hp hu (ix2 h l)
      = if hh : h.val < N then T (ix2 (⟨r, hr⟩ : Fin 16) (⟨h.val * 128 + l.val, by have := l.isLt; omega⟩ : Fin 32768)) else 0 := by
  by_cases hh : h.val < N
  · rw [dif_pos hh]
    have hlt : h.val * 128 + l.val < M := by have := l.isLt; omega
    refine (pad_apply_of_inside _ _ _ _ v hp hu (ix2 h l) (ix2 (⟨h.val, hh⟩ : Fin N) l) (fun a => match a with
      | ⟨0, _⟩ => by show h.val = 0 + h.val * (0 + 1); omega
      | ⟨1, _⟩ => by show l.val = 0 + l.val * (0 + 1); omega)).trans ?_
    refine (shapeCast_apply _ hc2 (ix2 (⟨h.val, hh⟩ : Fin N) l) (ix1 (⟨h.val * 128 + l.val, hlt⟩ : Fin M)) (by
      rw [Shape.rowMajor_val_one, Shape.rowMajor_val_two]; rfl)).trans ?_
    refine (shapeCast_apply _ hc1 (ix1 (⟨h.val * 128 + l.val, hlt⟩ : Fin M)) (ix2 (0 : Fin 1) (⟨h.val * 128 + l.val, hlt⟩ : Fin M)) (by
      rw [Shape.rowMajor_val_one, Shape.rowMajor_val_two]
      show 0 * M + (h.val * 128 + l.val) = h.val * 128 + l.val
      omega)).trans ?_
    exact extractStridedSlice_apply ![r, 0] T hs (ix2 (0 : Fin 1) (⟨h.val * 128 + l.val, hlt⟩ : Fin M)) _ (fun a => match a with
      | ⟨0, _⟩ => by show r = r + 0; omega
      | ⟨1, _⟩ => by show h.val * 128 + l.val = 0 + (h.val * 128 + l.val); omega)
  · rw [dif_neg hh]
    refine (pad_apply_of_not_inside _ _ _ _ v hp hu (ix2 h l) (0 : Fin 2) (fun hin => hh ?_)).trans ?_
    · have h3 : (h.val - 0) / (0 + 1) < N := hin.2.2
      rw [Nat.sub_zero, Nat.zero_add, Nat.div_one] at h3
      exact h3
    · exact hv _

/-- On the stack's axis every piece has extent one: off that axis the piece's index at 0 agrees with the stack's. -/
theorem stack_hi (k : Fin 8) (h : Fin 256) (l : Fin 128) (b' : Fin S1x256x128.rank)
    (hb : b'.cast (rfl : S1x256x128.rank = S8x256x128.rank) ≠ (0 : Fin S8x256x128.rank)) :
    ((ix3 (0 : Fin 1) h l : S1x256x128.Idx) b').val = ((ix3 k h l : S8x256x128.Idx) (b'.cast rfl)).val :=
  match b', hb with
  | ⟨0, _⟩, hb => absurd rfl hb
  | ⟨1, _⟩, _ => rfl
  | ⟨2, _⟩, _ => rfl

/-- The stack read at (0, h, l) is table 0 at (h, l). -/
theorem stack8_apply0 (t0 t1 t2 t3 t4 t5 t6 t7 : FVec Ideal S256x128 .f32) (hk : 0 < 8) (h : Fin 256) (l : Fin 128) :
    stack8 t0 t1 t2 t3 t4 t5 t6 t7 (ix3 (⟨0, hk⟩ : Fin 8) h l) = t0 (ix2 h l) := by
  unfold stack8
  exact (concatenate_apply_piece (0 : Fin S8x256x128.rank) _ _ _ 0 (by show (0 : ℕ) < 8; omega) S1x256x128 _ rfl rfl 0 rfl
    (ix3 (0 : Fin 1) h l) (stack_hi _ h l) rfl).trans (bcast_apply t0 h l)

/-- The stack read at (1, h, l) is table 1 at (h, l). -/
theorem stack8_apply1 (t0 t1 t2 t3 t4 t5 t6 t7 : FVec Ideal S256x128 .f32) (hk : 1 < 8) (h : Fin 256) (l : Fin 128) :
    stack8 t0 t1 t2 t3 t4 t5 t6 t7 (ix3 (⟨1, hk⟩ : Fin 8) h l) = t1 (ix2 h l) := by
  unfold stack8
  exact (concatenate_apply_piece (0 : Fin S8x256x128.rank) _ _ _ 1 (by show (1 : ℕ) < 8; omega) S1x256x128 _ rfl rfl 1 rfl
    (ix3 (0 : Fin 1) h l) (stack_hi _ h l) rfl).trans (bcast_apply t1 h l)

/-- The stack read at (2, h, l) is table 2 at (h, l). -/
theorem stack8_apply2 (t0 t1 t2 t3 t4 t5 t6 t7 : FVec Ideal S256x128 .f32) (hk : 2 < 8) (h : Fin 256) (l : Fin 128) :
    stack8 t0 t1 t2 t3 t4 t5 t6 t7 (ix3 (⟨2, hk⟩ : Fin 8) h l) = t2 (ix2 h l) := by
  unfold stack8
  exact (concatenate_apply_piece (0 : Fin S8x256x128.rank) _ _ _ 2 (by show (2 : ℕ) < 8; omega) S1x256x128 _ rfl rfl 2 rfl
    (ix3 (0 : Fin 1) h l) (stack_hi _ h l) rfl).trans (bcast_apply t2 h l)

/-- The stack read at (3, h, l) is table 3 at (h, l). -/
theorem stack8_apply3 (t0 t1 t2 t3 t4 t5 t6 t7 : FVec Ideal S256x128 .f32) (hk : 3 < 8) (h : Fin 256) (l : Fin 128) :
    stack8 t0 t1 t2 t3 t4 t5 t6 t7 (ix3 (⟨3, hk⟩ : Fin 8) h l) = t3 (ix2 h l) := by
  unfold stack8
  exact (concatenate_apply_piece (0 : Fin S8x256x128.rank) _ _ _ 3 (by show (3 : ℕ) < 8; omega) S1x256x128 _ rfl rfl 3 rfl
    (ix3 (0 : Fin 1) h l) (stack_hi _ h l) rfl).trans (bcast_apply t3 h l)

/-- The stack read at (4, h, l) is table 4 at (h, l). -/
theorem stack8_apply4 (t0 t1 t2 t3 t4 t5 t6 t7 : FVec Ideal S256x128 .f32) (hk : 4 < 8) (h : Fin 256) (l : Fin 128) :
    stack8 t0 t1 t2 t3 t4 t5 t6 t7 (ix3 (⟨4, hk⟩ : Fin 8) h l) = t4 (ix2 h l) := by
  unfold stack8
  exact (concatenate_apply_piece (0 : Fin S8x256x128.rank) _ _ _ 4 (by show (4 : ℕ) < 8; omega) S1x256x128 _ rfl rfl 4 rfl
    (ix3 (0 : Fin 1) h l) (stack_hi _ h l) rfl).trans (bcast_apply t4 h l)

/-- The stack read at (5, h, l) is table 5 at (h, l). -/
theorem stack8_apply5 (t0 t1 t2 t3 t4 t5 t6 t7 : FVec Ideal S256x128 .f32) (hk : 5 < 8) (h : Fin 256) (l : Fin 128) :
    stack8 t0 t1 t2 t3 t4 t5 t6 t7 (ix3 (⟨5, hk⟩ : Fin 8) h l) = t5 (ix2 h l) := by
  unfold stack8
  exact (concatenate_apply_piece (0 : Fin S8x256x128.rank) _ _ _ 5 (by show (5 : ℕ) < 8; omega) S1x256x128 _ rfl rfl 5 rfl
    (ix3 (0 : Fin 1) h l) (stack_hi _ h l) rfl).trans (bcast_apply t5 h l)

/-- The stack read at (6, h, l) is table 6 at (h, l). -/
theorem stack8_apply6 (t0 t1 t2 t3 t4 t5 t6 t7 : FVec Ideal S256x128 .f32) (hk : 6 < 8) (h : Fin 256) (l : Fin 128) :
    stack8 t0 t1 t2 t3 t4 t5 t6 t7 (ix3 (⟨6, hk⟩ : Fin 8) h l) = t6 (ix2 h l) := by
  unfold stack8
  exact (concatenate_apply_piece (0 : Fin S8x256x128.rank) _ _ _ 6 (by show (6 : ℕ) < 8; omega) S1x256x128 _ rfl rfl 6 rfl
    (ix3 (0 : Fin 1) h l) (stack_hi _ h l) rfl).trans (bcast_apply t6 h l)

/-- The stack read at (7, h, l) is table 7 at (h, l). -/
theorem stack8_apply7 (t0 t1 t2 t3 t4 t5 t6 t7 : FVec Ideal S256x128 .f32) (hk : 7 < 8) (h : Fin 256) (l : Fin 128) :
    stack8 t0 t1 t2 t3 t4 t5 t6 t7 (ix3 (⟨7, hk⟩ : Fin 8) h l) = t7 (ix2 h l) := by
  unfold stack8
  exact (concatenate_apply_piece (0 : Fin S8x256x128.rank) _ _ _ 7 (by show (7 : ℕ) < 8; omega) S1x256x128 _ rfl rfl 7 rfl
    (ix3 (0 : Fin 1) h l) (stack_hi _ h l) rfl).trans (bcast_apply t7 h l)

/-- The last table, read at (h, l): row 15 at h·128 + l. -/
theorem lastTab_apply (T : FVec Ideal S16x32768 .f32) (h : Fin 256) (l : Fin 128) :
    lastTab T (ix2 h l) = T (ix2 (⟨15, by omega⟩ : Fin 16) (⟨h.val * 128 + l.val, by have := h.isLt; have := l.isLt; omega⟩ : Fin 32768)) := by
  unfold lastTab
  have hlt : h.val * 128 + l.val < 32768 := by have := h.isLt; have := l.isLt; omega
  refine (shapeCast_apply _ shapeCasts_S32768_S256x128 (ix2 h l) (ix1 (⟨h.val * 128 + l.val, hlt⟩ : Fin 32768)) (by
    rw [Shape.rowMajor_val_one, Shape.rowMajor_val_two]; rfl)).trans ?_
  refine (shapeCast_apply _ shapeCasts_S1x32768_S32768 (ix1 (⟨h.val * 128 + l.val, hlt⟩ : Fin 32768)) (ix2 (0 : Fin 1) (⟨h.val * 128 + l.val, hlt⟩ : Fin 32768)) (by
    rw [Shape.rowMajor_val_one, Shape.rowMajor_val_two]
    show 0 * 32768 + (h.val * 128 + l.val) = h.val * 128 + l.val
    omega)).trans ?_
  exact extractStridedSlice_apply ![15, 0] T slices_S16x32768_S1x32768_15_0 (ix2 (0 : Fin 1) (⟨h.val * 128 + l.val, hlt⟩ : Fin 32768)) _ (fun a => match a with
    | ⟨0, _⟩ => by show 15 = 15 + 0; omega
    | ⟨1, _⟩ => by show h.val * 128 + l.val = 0 + (h.val * 128 + l.val); omega)

/-! ## The last stretch over the buffers before it -/

set_option maxHeartbeats 4000000 in
theorem tail_v50 (w : Valuation τ sig (Elt Ideal)) :
    @Eq (FVec Ideal S8x256x128 .f32) (StableHlo.after hostOps0_14 w (Proc.devRef .tc main_v50))
      (stack8 (w (Proc.devRef .tc main_v14)) (w (Proc.devRef .tc main_v18)) (w (Proc.devRef .tc main_v22)) (w (Proc.devRef .tc main_v26))
        (w (Proc.devRef .tc main_v30)) (w (Proc.devRef .tc main_v34)) (w (Proc.devRef .tc main_v38)) (lastTab (w (Proc.devRef .tc main_arg1)))) := by
  simp only [hostOps0_14]
  after_results8
  rfl

theorem tail_v51 (w : Valuation τ sig (Elt Ideal)) :
    @Eq (FVec Ideal S8x256x128 .bf16) (StableHlo.after hostOps0_14 w (Proc.devRef .tc main_v51))
      (truncf .bf16 (StableHlo.after hostOps0_14 w (Proc.devRef .tc main_v50) : FVec Ideal S8x256x128 .f32) bitsLt_bf16_f32) := by
  simp only [hostOps0_14, StableHlo.after_cons, StableHlo.after_nil]
  repeat (first
    | rw [StableHlo.unary_result] | rw [StableHlo.binary_result]
    | (rw [StableHlo.unary_result_ne]; rotate_left; decide)
    | (rw [StableHlo.binary_result_ne]; rotate_left; decide))

theorem tail_v54 (w : Valuation τ sig (Elt Ideal)) :
    @Eq (FVec Ideal S8x256x128 .bf16) (StableHlo.after hostOps0_14 w (Proc.devRef .tc main_v54))
      (truncf .bf16 (subf (StableHlo.after hostOps0_14 w (Proc.devRef .tc main_v50) : FVec Ideal S8x256x128 .f32)
        (extf .f32 (truncf .bf16 (StableHlo.after hostOps0_14 w (Proc.devRef .tc main_v50) : FVec Ideal S8x256x128 .f32) bitsLt_bf16_f32) bitsLt_bf16_f32))
        bitsLt_bf16_f32) := by
  simp only [hostOps0_14, StableHlo.after_cons, StableHlo.after_nil]
  repeat (first
    | rw [StableHlo.unary_result] | rw [StableHlo.binary_result]
    | (rw [StableHlo.unary_result_ne]; rotate_left; decide)
    | (rw [StableHlo.binary_result_ne]; rotate_left; decide))

/-! ## The buffers before the last stretch -/

theorem W_arg1 : @Eq (FVec Ideal S16x32768 .f32) (W m c (Proc.devRef .tc main_arg1)) (tabs m c) := by
  dsimp only [W]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  after_results8

/-- Table 0 before the last stretch: row 8's first 256 entries as [2, 128], padded to 256 rows. -/
theorem W_v14_apply (h : Fin 256) (l : Fin 128) :
    (W m c (Proc.devRef .tc main_v14) : FVec Ideal S256x128 .f32) (ix2 h l)
      = if hh : h.val < 2 then tabs m c (ix2 (⟨8, by omega⟩ : Fin 16) (⟨h.val * 128 + l.val, by have := h.isLt; have := l.isLt; omega⟩ : Fin 32768)) else 0 := by
  have e : @Eq (FVec Ideal S256x128 .f32) (W m c (Proc.devRef .tc main_v14))
      (pad S256x128 ![0, 0] ![254, 0] ![0, 0]
        (shapeCast S2x128 (shapeCast S256 (extractStridedSlice S1x256 ![8, 0] (tabs m c) slices_S16x32768_S1x256_8_0)
          shapeCasts_S1x256_S256) shapeCasts_S256_S2x128)
        (sitofp (F := Ideal) .f32 (constantI S_ 32 0#32)) pads_S2x128_S256x128_02540_000 h_S_) := by
    dsimp only [W]
    simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
    after_results8
    simp only [StableHlo.TRef.ofBuf, StableHlo.TRef.toBuf, cast_eq]
    rfl
  exact (congrFun e (ix2 h l)).trans
    (piece_apply (tabs m c) 8 2 256 254 (by omega) rfl (by omega) _ _ _ _ _ padVal_zero h_S_ h l)

/-- Table 1 before the last stretch: row 9's first 512 entries as [4, 128], padded to 256 rows. -/
theorem W_v18_apply (h : Fin 256) (l : Fin 128) :
    (W m c (Proc.devRef .tc main_v18) : FVec Ideal S256x128 .f32) (ix2 h l)
      = if hh : h.val < 4 then tabs m c (ix2 (⟨9, by omega⟩ : Fin 16) (⟨h.val * 128 + l.val, by have := h.isLt; have := l.isLt; omega⟩ : Fin 32768)) else 0 := by
  have e : @Eq (FVec Ideal S256x128 .f32) (W m c (Proc.devRef .tc main_v18))
      (pad S256x128 ![0, 0] ![252, 0] ![0, 0]
        (shapeCast S4x128 (shapeCast S512 (extractStridedSlice S1x512 ![9, 0] (tabs m c) slices_S16x32768_S1x512_9_0)
          shapeCasts_S1x512_S512) shapeCasts_S512_S4x128)
        (sitofp (F := Ideal) .f32 (constantI S_ 32 0#32)) pads_S4x128_S256x128_02520_000 h_S_) := by
    dsimp only [W]
    simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
    after_results8
    simp only [StableHlo.TRef.ofBuf, StableHlo.TRef.toBuf, cast_eq]
    rfl
  exact (congrFun e (ix2 h l)).trans
    (piece_apply (tabs m c) 9 4 512 252 (by omega) rfl (by omega) _ _ _ _ _ padVal_zero h_S_ h l)

/-- Table 2 before the last stretch: row 10's first 1024 entries as [8, 128], padded to 256 rows. -/
theorem W_v22_apply (h : Fin 256) (l : Fin 128) :
    (W m c (Proc.devRef .tc main_v22) : FVec Ideal S256x128 .f32) (ix2 h l)
      = if hh : h.val < 8 then tabs m c (ix2 (⟨10, by omega⟩ : Fin 16) (⟨h.val * 128 + l.val, by have := h.isLt; have := l.isLt; omega⟩ : Fin 32768)) else 0 := by
  have e : @Eq (FVec Ideal S256x128 .f32) (W m c (Proc.devRef .tc main_v22))
      (pad S256x128 ![0, 0] ![248, 0] ![0, 0]
        (shapeCast S8x128 (shapeCast S1024 (extractStridedSlice S1x1024 ![10, 0] (tabs m c) slices_S16x32768_S1x1024_10_0)
          shapeCasts_S1x1024_S1024) shapeCasts_S1024_S8x128)
        (sitofp (F := Ideal) .f32 (constantI S_ 32 0#32)) pads_S8x128_S256x128_02480_000 h_S_) := by
    dsimp only [W]
    simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
    after_results8
    simp only [StableHlo.TRef.ofBuf, StableHlo.TRef.toBuf, cast_eq]
    rfl
  exact (congrFun e (ix2 h l)).trans
    (piece_apply (tabs m c) 10 8 1024 248 (by omega) rfl (by omega) _ _ _ _ _ padVal_zero h_S_ h l)

/-- Table 3 before the last stretch: row 11's first 2048 entries as [16, 128], padded to 256 rows. -/
theorem W_v26_apply (h : Fin 256) (l : Fin 128) :
    (W m c (Proc.devRef .tc main_v26) : FVec Ideal S256x128 .f32) (ix2 h l)
      = if hh : h.val < 16 then tabs m c (ix2 (⟨11, by omega⟩ : Fin 16) (⟨h.val * 128 + l.val, by have := h.isLt; have := l.isLt; omega⟩ : Fin 32768)) else 0 := by
  have e : @Eq (FVec Ideal S256x128 .f32) (W m c (Proc.devRef .tc main_v26))
      (pad S256x128 ![0, 0] ![240, 0] ![0, 0]
        (shapeCast S16x128 (shapeCast S2048 (extractStridedSlice S1x2048 ![11, 0] (tabs m c) slices_S16x32768_S1x2048_11_0)
          shapeCasts_S1x2048_S2048) shapeCasts_S2048_S16x128)
        (sitofp (F := Ideal) .f32 (constantI S_ 32 0#32)) pads_S16x128_S256x128_02400_000 h_S_) := by
    dsimp only [W]
    simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
    after_results8
    simp only [StableHlo.TRef.ofBuf, StableHlo.TRef.toBuf, cast_eq]
    rfl
  exact (congrFun e (ix2 h l)).trans
    (piece_apply (tabs m c) 11 16 2048 240 (by omega) rfl (by omega) _ _ _ _ _ padVal_zero h_S_ h l)

/-- Table 4 before the last stretch: row 12's first 4096 entries as [32, 128], padded to 256 rows. -/
theorem W_v30_apply (h : Fin 256) (l : Fin 128) :
    (W m c (Proc.devRef .tc main_v30) : FVec Ideal S256x128 .f32) (ix2 h l)
      = if hh : h.val < 32 then tabs m c (ix2 (⟨12, by omega⟩ : Fin 16) (⟨h.val * 128 + l.val, by have := h.isLt; have := l.isLt; omega⟩ : Fin 32768)) else 0 := by
  have e : @Eq (FVec Ideal S256x128 .f32) (W m c (Proc.devRef .tc main_v30))
      (pad S256x128 ![0, 0] ![224, 0] ![0, 0]
        (shapeCast S32x128 (shapeCast S4096 (extractStridedSlice S1x4096 ![12, 0] (tabs m c) slices_S16x32768_S1x4096_12_0)
          shapeCasts_S1x4096_S4096) shapeCasts_S4096_S32x128)
        (sitofp (F := Ideal) .f32 (constantI S_ 32 0#32)) pads_S32x128_S256x128_02240_000 h_S_) := by
    dsimp only [W]
    simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
    after_results8
    simp only [StableHlo.TRef.ofBuf, StableHlo.TRef.toBuf, cast_eq]
    rfl
  exact (congrFun e (ix2 h l)).trans
    (piece_apply (tabs m c) 12 32 4096 224 (by omega) rfl (by omega) _ _ _ _ _ padVal_zero h_S_ h l)

/-- Table 5 before the last stretch: row 13's first 8192 entries as [64, 128], padded to 256 rows. -/
theorem W_v34_apply (h : Fin 256) (l : Fin 128) :
    (W m c (Proc.devRef .tc main_v34) : FVec Ideal S256x128 .f32) (ix2 h l)
      = if hh : h.val < 64 then tabs m c (ix2 (⟨13, by omega⟩ : Fin 16) (⟨h.val * 128 + l.val, by have := h.isLt; have := l.isLt; omega⟩ : Fin 32768)) else 0 := by
  have e : @Eq (FVec Ideal S256x128 .f32) (W m c (Proc.devRef .tc main_v34))
      (pad S256x128 ![0, 0] ![192, 0] ![0, 0]
        (shapeCast S64x128 (shapeCast S8192 (extractStridedSlice S1x8192 ![13, 0] (tabs m c) slices_S16x32768_S1x8192_13_0)
          shapeCasts_S1x8192_S8192) shapeCasts_S8192_S64x128)
        (sitofp (F := Ideal) .f32 (constantI S_ 32 0#32)) pads_S64x128_S256x128_01920_000 h_S_) := by
    dsimp only [W]
    simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
    after_results8
    simp only [StableHlo.TRef.ofBuf, StableHlo.TRef.toBuf, cast_eq]
    rfl
  exact (congrFun e (ix2 h l)).trans
    (piece_apply (tabs m c) 13 64 8192 192 (by omega) rfl (by omega) _ _ _ _ _ padVal_zero h_S_ h l)

/-- Table 6 before the last stretch: row 14's first 16384 entries as [128, 128], padded to 256 rows. -/
theorem W_v38_apply (h : Fin 256) (l : Fin 128) :
    (W m c (Proc.devRef .tc main_v38) : FVec Ideal S256x128 .f32) (ix2 h l)
      = if hh : h.val < 128 then tabs m c (ix2 (⟨14, by omega⟩ : Fin 16) (⟨h.val * 128 + l.val, by have := h.isLt; have := l.isLt; omega⟩ : Fin 32768)) else 0 := by
  have e : @Eq (FVec Ideal S256x128 .f32) (W m c (Proc.devRef .tc main_v38))
      (pad S256x128 ![0, 0] ![128, 0] ![0, 0]
        (shapeCast S128x128 (shapeCast S16384 (extractStridedSlice S1x16384 ![14, 0] (tabs m c) slices_S16x32768_S1x16384_14_0)
          shapeCasts_S1x16384_S16384) shapeCasts_S16384_S128x128)
        (sitofp (F := Ideal) .f32 (constantI S_ 32 0#32)) pads_S128x128_S256x128_01280_000 h_S_) := by
    dsimp only [W]
    simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
    after_results8
    simp only [StableHlo.TRef.ofBuf, StableHlo.TRef.toBuf, cast_eq]
    rfl
  exact (congrFun e (ix2 h l)).trans
    (piece_apply (tabs m c) 14 128 16384 128 (by omega) rfl (by omega) _ _ _ _ _ padVal_zero h_S_ h l)

/-! ## The three arrays at an index -/

set_option maxHeartbeats 1000000 in
theorem stack_apply (b : Fin 8) (h : Fin 256) (l : Fin 128) :
    (V m c main_v50 : FVec Ideal S8x256x128 .f32) (ix3 b h l)
      = if hh : h.val < 2 ^ (b.val + 1) then
          tabs m c (ix2 (⟨8 + b.val, by omega⟩ : Fin 16) (⟨h.val * 128 + l.val, by have := h.isLt; have := l.isLt; omega⟩ : Fin 32768))
        else 0 := by
  rw [V_eq_tail m c main_v50]
  refine (congrFun (tail_v50 (W m c)) (ix3 b h l)).trans ?_
  match b with
  | ⟨0, hk⟩ => exact (stack8_apply0 _ _ _ _ _ _ _ _ hk h l).trans (W_v14_apply m c h l)
  | ⟨1, hk⟩ => exact (stack8_apply1 _ _ _ _ _ _ _ _ hk h l).trans (W_v18_apply m c h l)
  | ⟨2, hk⟩ => exact (stack8_apply2 _ _ _ _ _ _ _ _ hk h l).trans (W_v22_apply m c h l)
  | ⟨3, hk⟩ => exact (stack8_apply3 _ _ _ _ _ _ _ _ hk h l).trans (W_v26_apply m c h l)
  | ⟨4, hk⟩ => exact (stack8_apply4 _ _ _ _ _ _ _ _ hk h l).trans (W_v30_apply m c h l)
  | ⟨5, hk⟩ => exact (stack8_apply5 _ _ _ _ _ _ _ _ hk h l).trans (W_v34_apply m c h l)
  | ⟨6, hk⟩ => exact (stack8_apply6 _ _ _ _ _ _ _ _ hk h l).trans (W_v38_apply m c h l)
  | ⟨7, hk⟩ =>
    refine (stack8_apply7 _ _ _ _ _ _ _ _ hk h l).trans ?_
    refine ((congrArg (fun T => lastTab T (ix2 h l)) (W_arg1 m c)).trans (lastTab_apply (tabs m c) h l)).trans ?_
    split
    · rfl
    · next hn => exact absurd (show h.val < 2 ^ (7 + 1) from h.isLt) hn

theorem hi_apply (b : Fin 8) (h : Fin 256) (l : Fin 128) :
    (V m c main_v51 : FVec Ideal S8x256x128 .bf16) (ix3 b h l) = (V m c main_v50 : FVec Ideal S8x256x128 .f32) (ix3 b h l) := by
  rw [V_eq_tail m c main_v51, V_eq_tail m c main_v50, tail_v51]
  rfl

/-- A finite x leaves a zero residual: x less x, whatever format either passes through. -/
theorem resid_of (S : FVec Ideal S8x256x128 .f32) (i : S8x256x128.Idx) (x : EReal) (hx : S i = x) (h1 : x ≠ ⊤) (h2 : x ≠ ⊥) :
    (truncf .bf16 (subf S (extf .f32 (truncf .bf16 S bitsLt_bf16_f32) bitsLt_bf16_f32)) bitsLt_bf16_f32 : FVec Ideal S8x256x128 .bf16) i
      = (0 : EReal) := by
  show S i - S i = 0
  rw [hx]
  exact EReal.sub_self h1 h2

theorem resid_apply (hfin : ∀ idx, tabs m c idx ≠ ⊤ ∧ tabs m c idx ≠ ⊥) (b : Fin 8) (h : Fin 256) (l : Fin 128) :
    (V m c main_v54 : FVec Ideal S8x256x128 .bf16) (ix3 b h l) = (0 : EReal) := by
  have hs := stack_apply m c b h l
  rw [V_eq_tail m c main_v50] at hs
  rw [V_eq_tail m c main_v54, tail_v54]
  refine resid_of _ _ _ hs ?_ ?_
  · split
    · exact (hfin _).1
    · exact EReal.zero_ne_top
  · split
    · exact (hfin _).2
    · exact EReal.zero_ne_bot

end Cert.KernelIdeal.HostVal

end
-- ==== Proof.LibBits.lean ====
/-
  Arithmetic of the packed word and of one-hot selection, over the definitions of the specification.

  A sum of "indicator of position l, times entry l" over a row is the row's entry at the indicated
  position, because 0 * x = 0 and 1 * x = x for every extended real.  A word below 2^31 shifted right
  arithmetically is the word divided by a power of two, and masking with 2^i - 1 is the remainder
  modulo 2^i.  A word packed from sixteen 0/1 entries b_0 … b_15 as Σ_k b_k · 2^(15-k) has b_(15-i)
  as its bit i.
-/
import proofs.«417890_j27668179321269_3_alg».proof.Proof.Spec
import Idealize.ShloMosaic.Lib.StableHlo.Predicate
import Mathlib.Data.EReal.Operations
import Mathlib.Data.Fin.Rev
import Mathlib.Algebra.BigOperators.Fin

noncomputable section

namespace Cert.LibBits

open Idealize.ShloMosaic
open Idealize.ShloMosaic.StableHlo
open scoped BigOperators

/-- The indicator of equality is 1 on equal words and 0 otherwise. -/
theorem ind_eq (a b : BitVec 32) : Cert.Spec.ind a b = if a = b then 1 else 0 := by
  unfold Cert.Spec.ind Cert.Spec.wordVal
  by_cases h : a = b
  · have h1 : IntOp.cmpi .eq a b = 1#1 := Predicate.cmpi_eq_iff.mpr h
    have h2 : ((1#1 : BitVec 1).setWidth 32).toInt = 1 := by decide
    rw [h1, if_pos h, h2]; simp
  · have h0 : IntOp.cmpi .eq a b = 0#1 := by
      rcases BitVec.eq_zero_or_eq_one (IntOp.cmpi .eq a b) with h0 | h1
      · exact h0
      · exact absurd (Predicate.cmpi_eq_iff.mp h1) h
    have h2 : ((0#1 : BitVec 1).setWidth 32).toInt = 0 := by decide
    rw [h0, if_neg h, h2]; simp

/-- A one-hot sum over a row of width n picks the entry at the word's value k, when k < n ≤ 2^32. -/
theorem sel_at {n : Nat} (hn : n ≤ 2 ^ 32) (w : BitVec 32) (k : Nat) (hk : k < n) (hwk : w.toNat = k)
    (row : Fin n → EReal) : Cert.Spec.sel n w row = row ⟨k, hk⟩ := by
  unfold Cert.Spec.sel
  rw [Finset.sum_eq_single (⟨k, hk⟩ : Fin n)]
  · have e : w = BitVec.ofNat 32 k := by
      apply BitVec.eq_of_toNat_eq
      rw [BitVec.toNat_ofNat, hwk, Nat.mod_eq_of_lt (lt_of_lt_of_le hk hn)]
    rw [ind_eq, if_pos e, one_mul]
  · intro l _ hl
    have ne : ¬ w = BitVec.ofNat 32 l.val := by
      intro he
      apply hl
      apply Fin.ext
      have h3 := congrArg BitVec.toNat he
      rw [BitVec.toNat_ofNat, hwk, Nat.mod_eq_of_lt (lt_of_lt_of_le l.isLt hn)] at h3
      exact h3.symm
    rw [ind_eq, if_neg ne, zero_mul]
  · intro h; exact absurd (Finset.mem_univ _) h

theorem sel_eq {n : Nat} (hn : n ≤ 2 ^ 32) (w : BitVec 32) (hw : w.toNat < n) (row : Fin n → EReal) :
    Cert.Spec.sel n w row = row ⟨w.toNat, hw⟩ :=
  sel_at hn w w.toNat hw rfl row

/-- An address below 2^(b+8) splits into its row, n / 128 mod 2^(b+1), and its lane, n mod 128. -/
theorem addr_split (n b : Nat) : n / 128 % 2 ^ (b + 1) * 128 + n % 128 = n % 2 ^ (b + 8) := by
  have h : 2 ^ (b + 8) = 128 * 2 ^ (b + 1) := by
    rw [show b + 8 = 7 + (b + 1) by omega, pow_add]; norm_num
  rw [h, Nat.mod_mul]; ring

/-- A finite extended real minus itself is zero. -/
theorem sub_self_real (x : EReal) (h1 : x ≠ ⊤) (h2 : x ≠ ⊥) : x - x = 0 :=
  EReal.sub_self h1 h2

/-- A word below 2^31, shifted right arithmetically by s < 32, is its value divided by 2^s. -/
theorem shrsi_toNat (w s : BitVec 32) (hw : w.toNat < 2 ^ 31) (hs : s.toNat < 32) :
    (IntOp.shrsi .vector w s).toNat = w.toNat / 2 ^ s.toNat := by
  have hm : w.msb = false := BitVec.msb_eq_false_iff_two_mul_lt.mpr (by omega)
  unfold IntOp.shrsi
  rw [if_pos hs, BitVec.toNat_sshiftRight'_of_msb_false hm, Nat.shiftRight_eq_div_pow]

/-- Masking with 2^i - 1 keeps the value modulo 2^i. -/
theorem andi_mask_toNat (w : BitVec 32) (i : Nat) (hi : i ≤ 32) :
    (IntOp.andi w (BitVec.ofNat 32 (2 ^ i - 1))).toNat = w.toNat % 2 ^ i := by
  have hp : 2 ^ i ≤ 2 ^ 32 := Nat.pow_le_pow_right (by norm_num) hi
  have hlt : 2 ^ i - 1 < 2 ^ 32 := by omega
  unfold IntOp.andi
  rw [BitVec.toNat_and, BitVec.toNat_ofNat, Nat.mod_eq_of_lt hlt, Nat.and_two_pow_sub_one_eq_mod]

/-- Masking with 127 keeps the value modulo 128. -/
theorem andi_127_toNat (w : BitVec 32) : (IntOp.andi w 127#32).toNat = w.toNat % 128 :=
  andi_mask_toNat w 7 (by norm_num)

theorem lowFlip_eq (w : BitVec 32) (i : Nat) (hi : i ≤ 7) (row : Fin 128 → EReal) :
    Cert.Spec.lowFlip w i row = row ⟨w.toNat % 2 ^ i, lt_of_lt_of_le (Nat.mod_lt _ (by positivity))
      (by calc 2 ^ i ≤ 2 ^ 7 := Nat.pow_le_pow_right (by norm_num) hi
        _ = 128 := by norm_num)⟩ := by
  unfold Cert.Spec.lowFlip
  exact sel_at (by norm_num) _ _ _ (andi_mask_toNat w i (by omega)) row

theorem hiWord_toNat (w : BitVec 32) (hw : w.toNat < 2 ^ 31) (b : Nat) (hb : b ≤ 7) :
    (Cert.Spec.hiWord w b).toNat = w.toNat / 128 % 2 ^ (b + 1) := by
  unfold Cert.Spec.hiWord
  rw [andi_mask_toNat _ (b + 1) (by omega), shrsi_toNat w 7#32 hw (by decide)]
  rfl

theorem hiFlip_eq (w : BitVec 32) (hw : w.toNat < 2 ^ 31) (b : Nat) (hb : b ≤ 7)
    (T R : Fin 256 → Fin 128 → EReal) :
    ∃ (h1 : w.toNat / 128 % 2 ^ (b + 1) < 256) (h2 : w.toNat % 128 < 128),
      Cert.Spec.hiFlip w b T R = T ⟨_, h1⟩ ⟨_, h2⟩ + R ⟨_, h1⟩ ⟨_, h2⟩ := by
  have h1 : w.toNat / 128 % 2 ^ (b + 1) < 256 :=
    lt_of_lt_of_le (Nat.mod_lt _ (by positivity))
      (by calc 2 ^ (b + 1) ≤ 2 ^ 8 := Nat.pow_le_pow_right (by norm_num) (by omega)
        _ = 256 := by norm_num)
  have h2 : w.toNat % 128 < 128 := Nat.mod_lt _ (by norm_num)
  refine ⟨h1, h2, ?_⟩
  have e : Cert.Spec.hiFlip w b T R =
      Cert.Spec.sel 128 (IntOp.andi w 127#32)
        (fun l => Cert.Spec.sel 256 (Cert.Spec.hiWord w b) (fun h => T h l)
          + Cert.Spec.sel 256 (Cert.Spec.hiWord w b) (fun h => R h l)) := rfl
  rw [e, sel_at (by norm_num) _ _ h2 (andi_127_toNat w)]
  show Cert.Spec.sel 256 (Cert.Spec.hiWord w b) (fun h => T h ⟨w.toNat % 128, h2⟩)
      + Cert.Spec.sel 256 (Cert.Spec.hiWord w b) (fun h => R h ⟨w.toNat % 128, h2⟩) = _
  rw [sel_at (by norm_num) _ _ h1 (hiWord_toNat w hw b hb) (fun h => T h ⟨w.toNat % 128, h2⟩),
    sel_at (by norm_num) _ _ h1 (hiWord_toNat w hw b hb) (fun h => R h ⟨w.toNat % 128, h2⟩)]

/-! The packed word.  A sum over sixteen positions is written out term by term. -/

private theorem sum_univ_nine (f : Fin 9 → ℕ) :
    ∑ k, f k = f 0 + f 1 + f 2 + f 3 + f 4 + f 5 + f 6 + f 7 + f 8 := by
  rw [Fin.sum_univ_castSucc, Fin.sum_univ_eight]
  rfl

private theorem sum_univ_ten (f : Fin 10 → ℕ) :
    ∑ k, f k = f 0 + f 1 + f 2 + f 3 + f 4 + f 5 + f 6 + f 7 + f 8 + f 9 := by
  rw [Fin.sum_univ_castSucc, sum_univ_nine]
  rfl

private theorem sum_univ_eleven (f : Fin 11 → ℕ) :
    ∑ k, f k = f 0 + f 1 + f 2 + f 3 + f 4 + f 5 + f 6 + f 7 + f 8 + f 9 + f 10 := by
  rw [Fin.sum_univ_castSucc, sum_univ_ten]
  rfl

private theorem sum_univ_twelve (f : Fin 12 → ℕ) :
    ∑ k, f k = f 0 + f 1 + f 2 + f 3 + f 4 + f 5 + f 6 + f 7 + f 8 + f 9 + f 10 + f 11 := by
  rw [Fin.sum_univ_castSucc, sum_univ_eleven]
  rfl

private theorem sum_univ_thirteen (f : Fin 13 → ℕ) :
    ∑ k, f k = f 0 + f 1 + f 2 + f 3 + f 4 + f 5 + f 6 + f 7 + f 8 + f 9 + f 10 + f 11 + f 12 := by
  rw [Fin.sum_univ_castSucc, sum_univ_twelve]
  rfl

private theorem sum_univ_fourteen (f : Fin 14 → ℕ) :
    ∑ k, f k = f 0 + f 1 + f 2 + f 3 + f 4 + f 5 + f 6 + f 7 + f 8 + f 9 + f 10 + f 11 + f 12 + f 13 := by
  rw [Fin.sum_univ_castSucc, sum_univ_thirteen]
  rfl

private theorem sum_univ_fifteen (f : Fin 15 → ℕ) :
    ∑ k, f k = f 0 + f 1 + f 2 + f 3 + f 4 + f 5 + f 6 + f 7 + f 8 + f 9 + f 10 + f 11 + f 12 + f 13 + f 14 := by
  rw [Fin.sum_univ_castSucc, sum_univ_fourteen]
  rfl

private theorem sum_univ_sixteen (f : Fin 16 → ℕ) :
    ∑ k, f k = f 0 + f 1 + f 2 + f 3 + f 4 + f 5 + f 6 + f 7 + f 8 + f 9 + f 10 + f 11 + f 12 + f 13 + f 14 + f 15 := by
  rw [Fin.sum_univ_castSucc, sum_univ_fifteen]
  rfl

/-- The packed sum Σ_k c_k · 2^(15-k), written out. -/
private theorem packed_expand (c : Fin 16 → ℕ) :
    ∑ k : Fin 16, c k * 2 ^ (15 - k.val) =
      c 0 * 32768 + c 1 * 16384 + c 2 * 8192 + c 3 * 4096 + c 4 * 2048 + c 5 * 1024 + c 6 * 512 + c 7 * 256 + c 8 * 128 + c 9 * 64 + c 10 * 32 + c 11 * 16 + c 12 * 8 + c 13 * 4 + c 14 * 2 + c 15 * 1 := by
  rw [sum_univ_sixteen]
  rfl

/-- Sixteen 0/1 digits pack into a number below 2^16. -/
private theorem packed_lt_nat (c : Fin 16 → ℕ) (hc : ∀ k, c k ≤ 1) :
    ∑ k : Fin 16, c k * 2 ^ (15 - k.val) < 65536 := by
  rw [packed_expand]
  have h0 := hc 0
  have h1 := hc 1
  have h2 := hc 2
  have h3 := hc 3
  have h4 := hc 4
  have h5 := hc 5
  have h6 := hc 6
  have h7 := hc 7
  have h8 := hc 8
  have h9 := hc 9
  have h10 := hc 10
  have h11 := hc 11
  have h12 := hc 12
  have h13 := hc 13
  have h14 := hc 14
  have h15 := hc 15
  omega

/-- Digit i of the packed number, counted from the least significant end, is c_(15-i). -/
private theorem packed_bit (c : Fin 16 → ℕ) (hc : ∀ k, c k ≤ 1) (i : Fin 16) :
    (∑ k : Fin 16, c k * 2 ^ (15 - k.val)) / 2 ^ i.val % 2 = c i.rev := by
  rw [packed_expand]
  have h0 := hc 0
  have h1 := hc 1
  have h2 := hc 2
  have h3 := hc 3
  have h4 := hc 4
  have h5 := hc 5
  have h6 := hc 6
  have h7 := hc 7
  have h8 := hc 8
  have h9 := hc 9
  have h10 := hc 10
  have h11 := hc 11
  have h12 := hc 12
  have h13 := hc 13
  have h14 := hc 14
  have h15 := hc 15
  exact match i with
  | ⟨0, _⟩ => by
    change _ / 2 ^ 0 % 2 = c 15
    omega
  | ⟨1, _⟩ => by
    change _ / 2 ^ 1 % 2 = c 14
    omega
  | ⟨2, _⟩ => by
    change _ / 2 ^ 2 % 2 = c 13
    omega
  | ⟨3, _⟩ => by
    change _ / 2 ^ 3 % 2 = c 12
    omega
  | ⟨4, _⟩ => by
    change _ / 2 ^ 4 % 2 = c 11
    omega
  | ⟨5, _⟩ => by
    change _ / 2 ^ 5 % 2 = c 10
    omega
  | ⟨6, _⟩ => by
    change _ / 2 ^ 6 % 2 = c 9
    omega
  | ⟨7, _⟩ => by
    change _ / 2 ^ 7 % 2 = c 8
    omega
  | ⟨8, _⟩ => by
    change _ / 2 ^ 8 % 2 = c 7
    omega
  | ⟨9, _⟩ => by
    change _ / 2 ^ 9 % 2 = c 6
    omega
  | ⟨10, _⟩ => by
    change _ / 2 ^ 10 % 2 = c 5
    omega
  | ⟨11, _⟩ => by
    change _ / 2 ^ 11 % 2 = c 4
    omega
  | ⟨12, _⟩ => by
    change _ / 2 ^ 12 % 2 = c 3
    omega
  | ⟨13, _⟩ => by
    change _ / 2 ^ 13 % 2 = c 2
    omega
  | ⟨14, _⟩ => by
    change _ / 2 ^ 14 % 2 = c 1
    omega
  | ⟨15, _⟩ => by
    change _ / 2 ^ 15 % 2 = c 0
    omega
  | ⟨n + 16, h⟩ => absurd h (by omega)

/-- A word that is 0 or 1 has value at most 1. -/
private theorem bit_le_one (b : Fin 16 → BitVec 32) (hb : ∀ k, b k = 0#32 ∨ b k = 1#32) (k : Fin 16) :
    (b k).toNat ≤ 1 := by
  rcases hb k with h | h <;> rw [h] <;> decide

theorem packed_lt (b : Fin 16 → BitVec 32) (hb : ∀ k, b k = 0#32 ∨ b k = 1#32) :
    ∑ k : Fin 16, (b k).toNat * 2 ^ (15 - k.val) < 65536 :=
  packed_lt_nat (fun k => (b k).toNat) (bit_le_one b hb)

theorem packed_rev (b : Fin 16 → BitVec 32) :
    ∑ k : Fin 16, (b k).toNat * 2 ^ (15 - k.val) = ∑ k : Fin 16, (b k.rev).toNat * 2 ^ k.val := by
  rw [← Equiv.sum_comp Fin.revPerm (fun k : Fin 16 => (b k).toNat * 2 ^ (15 - k.val))]
  refine Finset.sum_congr rfl (fun k _ => ?_)
  have hk := k.isLt
  have e : 15 - (Fin.rev k).val = k.val := by rw [Fin.val_rev]; omega
  rw [Fin.revPerm_apply, e]

theorem kbit_eq (b : Fin 16 → BitVec 32) (hb : ∀ k, b k = 0#32 ∨ b k = 1#32) (v : BitVec 32)
    (hv : v.toNat = ∑ k : Fin 16, (b k).toNat * 2 ^ (15 - k.val)) (i : Fin 16) :
    Cert.Spec.kbit v i.val = Cert.Spec.wordVal (b i.rev) := by
  have hi := i.isLt
  have hlt : v.toNat < 65536 := by rw [hv]; exact packed_lt b hb
  have hs : (BitVec.ofNat 32 i.val).toNat = i.val := by
    rw [BitVec.toNat_ofNat]; exact Nat.mod_eq_of_lt (by omega)
  have hm : ∀ x : BitVec 32, (IntOp.andi x 1#32).toNat = x.toNat % 2 :=
    fun x => andi_mask_toNat x 1 (by norm_num)
  unfold Cert.Spec.kbit
  refine congrArg Cert.Spec.wordVal (BitVec.eq_of_toNat_eq ?_)
  rw [hm, shrsi_toNat v _ (by omega) (by rw [hs]; omega), hs, hv]
  exact packed_bit (fun k => (b k).toNat) (bit_le_one b hb) i

theorem word_of_fold (b : Fin 16 → BitVec 32) (hb : ∀ k, b k = 0#32 ∨ b k = 1#32)
    (s : Fin 16 → BitVec 32) (hs : ∀ k, (s k).toNat = 2 ^ (15 - k.val)) :
    (Finset.univ.fold IntOp.addi 0#32 (fun k => IntOp.muli (b k) (s k))).toNat
      = ∑ k : Fin 16, (b k).toNat * 2 ^ (15 - k.val) := by
  have hterm : ∀ k : Fin 16, (IntOp.muli (b k) (s k)).toNat = (b k).toNat * 2 ^ (15 - k.val) := by
    intro k
    show ((b k) * (s k)).toNat = _
    rw [BitVec.toNat_mul, hs k]
    apply Nat.mod_eq_of_lt
    have h1 := bit_le_one b hb k
    have h2 : 2 ^ (15 - k.val) ≤ 2 ^ 15 := Nat.pow_le_pow_right (by norm_num) (by omega)
    calc (b k).toNat * 2 ^ (15 - k.val) ≤ 1 * 2 ^ 15 := Nat.mul_le_mul h1 h2
      _ < 2 ^ 32 := by norm_num
  have hsum : ∑ k : Fin 16, (IntOp.muli (b k) (s k)).toNat
      = ∑ k : Fin 16, (b k).toNat * 2 ^ (15 - k.val) :=
    Finset.sum_congr rfl (fun k _ => hterm k)
  have hS : ∑ k ∈ (Finset.univ : Finset (Fin 16)), ((fun k => IntOp.muli (b k) (s k)) k).toNat < 2 ^ 32 := by
    show ∑ k : Fin 16, (IntOp.muli (b k) (s k)).toNat < 2 ^ 32
    rw [hsum]
    have := packed_lt b hb
    omega
  rw [Predicate.toNat_fold_addi Finset.univ (fun k => IntOp.muli (b k) (s k)) hS]
  exact hsum

end Cert.LibBits

end
-- ==== Proof.JoinCol.lean ====
/-
  One column of the kernel's result is the reference's.

  For a row whose packed word w has the value n = Σ_k bits[r, k] · 2^(15-k), every entry of the row
  being the word 0 or 1, column j belongs to bit i = 15 - j.  Bit i of w is the entry bits[r, j]
  itself.  The entry the kernel selects is tables[i, n mod 2^i]: for i < 8 the short rows are the
  table's first 128 columns; for i = 8 + b the high part h = n / 128 mod 2^(b+1) lies below 2^(b+1),
  where the stacked table holds tables[8 + b, h·128 + l], the residual is 0, and
  h·128 + n mod 128 = n mod 2^(b+8).
-/
import proofs.«417890_j27668179321269_3_alg».proof.Proof.KSpec
import proofs.«417890_j27668179321269_3_alg».proof.Proof.SpecG
import proofs.«417890_j27668179321269_3_alg».proof.Proof.LibBits
import Idealize.ShloMosaic.Lib.ValueIdx

noncomputable section

namespace Cert.KernelIdeal.Join

open Idealize.ShloMosaic Idealize.ShloMosaic.ValueIdx Cert.KernelIdeal Cert.KernelIdeal.Hand

/-- A table entry whose two coordinates are those of the position column j reads is that entry. -/
theorem tab_at (bits : IVec Cert.Spec.SBits 32) (tables : FVec Ideal Cert.Spec.STab .f32)
    (r : Fin 2097152) (j : Fin 16) (a : Fin 16) (c : Fin 32768)
    (ha : a.val = 15 - j.val) (hc : c.val = Cert.Spec.packedNat bits r % 2 ^ (15 - j.val)) :
    tables (ix2 a c) = tables (Cert.Spec.tabIdx bits r j) := by
  refine congrArg tables ?_
  funext d
  match d with
  | ⟨0, _⟩ => exact Fin.ext ha
  | ⟨1, _⟩ => exact Fin.ext hc

theorem kcolW_eq (bits : IVec Cert.Spec.SBits 32) (tables : FVec Ideal Cert.Spec.STab .f32)
    (hb : ∀ idx, bits idx = 0#32 ∨ bits idx = 1#32) (r : Fin 2097152) (w : BitVec 32)
    (hw : w.toNat = Cert.Spec.packedNat bits r)
    (small : Vec Ideal S8x128 .f32) (hwt rs : Vec Ideal S8x256x128 .bf16)
    (hs : ∀ (k : Fin 8) (l : Fin 128), small (ix2 k l)
      = tables (ix2 (⟨k.val, by omega⟩ : Fin 16) (⟨l.val, by omega⟩ : Fin 32768)))
    (hh : ∀ (b : Fin 8) (h : Fin 256) (l : Fin 128), h.val < 2 ^ (b.val + 1) →
      ∀ hbound : h.val * 128 + l.val < 32768, hwt (ix3 b h l)
        = tables (ix2 (⟨8 + b.val, by omega⟩ : Fin 16) (⟨h.val * 128 + l.val, hbound⟩ : Fin 32768)))
    (hr : ∀ (b : Fin 8) (h : Fin 256) (l : Fin 128), rs (ix3 b h l) = 0)
    (j : Fin 16) : kcolW w small hwt rs j = Cert.Spec.Gat bits tables r j := by
  have hj := j.isLt
  have hpk : Cert.Spec.packedNat bits r
      = ∑ k : Fin 16, (bits (ix2 r k)).toNat * 2 ^ (15 - k.val) := rfl
  have hb' : ∀ k : Fin 16, bits (ix2 r k) = 0#32 ∨ bits (ix2 r k) = 1#32 := fun k => hb _
  have hlt : Cert.Spec.packedNat bits r < 65536 :=
    Cert.LibBits.packed_lt (fun k => bits (ix2 r k)) hb'
  have hw31 : w.toNat < 2 ^ 31 := by omega
  have hmodlt : w.toNat % 2 ^ (15 - j.val) < 32768 := by rw [hw]; exact Cert.Spec.addr_lt _ j
  -- bit 15 - j of the packed word is the entry of column j
  have hA : Cert.Spec.kbit w (15 - j.val) = Cert.Spec.wordVal (bits (ix2 r j)) := by
    have h := Cert.LibBits.kbit_eq (fun k => bits (ix2 r k)) hb' w (hw.trans hpk)
      (⟨15 - j.val, by omega⟩ : Fin 16)
    have hrev : Fin.rev (⟨15 - j.val, by omega⟩ : Fin 16) = j := by
      apply Fin.ext
      rw [Fin.val_rev]
      show 16 - (15 - j.val + 1) = j.val
      omega
    rw [hrev] at h
    exact h
  -- the selected entry is the table's entry at the address n mod 2^(15 - j)
  have hB : kflipW w small hwt rs (15 - j.val) = tables (Cert.Spec.tabIdx bits r j) := by
    by_cases h : 15 - j.val < 8
    · unfold kflipW
      rw [dif_pos h, Cert.LibBits.lowFlip_eq w (15 - j.val) (by omega)]
      show small (ix2 (⟨15 - j.val, h⟩ : Fin 8) (⟨w.toNat % 2 ^ (15 - j.val), _⟩ : Fin 128)) = _
      rw [hs]
      exact tab_at bits tables r j _ _ rfl
        (by show w.toNat % 2 ^ (15 - j.val) = _; rw [hw])
    · unfold kflipW
      rw [dif_neg h]
      have hb8 : (15 - j.val - 8) % 8 = 15 - j.val - 8 := Nat.mod_eq_of_lt (by omega)
      obtain ⟨h1, h2, e⟩ := Cert.LibBits.hiFlip_eq w hw31 (15 - j.val - 8) (by omega)
        (fun r l => hwt (ix3 (⟨(15 - j.val - 8) % 8, Nat.mod_lt _ (by norm_num)⟩ : Fin 8) r l))
        (fun r l => rs (ix3 (⟨(15 - j.val - 8) % 8, Nat.mod_lt _ (by norm_num)⟩ : Fin 8) r l))
      rw [e]
      show hwt (ix3 (⟨(15 - j.val - 8) % 8, Nat.mod_lt _ (by norm_num)⟩ : Fin 8)
            (⟨w.toNat / 128 % 2 ^ (15 - j.val - 8 + 1), h1⟩ : Fin 256) (⟨w.toNat % 128, h2⟩ : Fin 128))
          + rs (ix3 (⟨(15 - j.val - 8) % 8, Nat.mod_lt _ (by norm_num)⟩ : Fin 8)
            (⟨w.toNat / 128 % 2 ^ (15 - j.val - 8 + 1), h1⟩ : Fin 256) (⟨w.toNat % 128, h2⟩ : Fin 128)) = _
      rw [hr, add_zero]
      have hsplit := Cert.LibBits.addr_split w.toNat (15 - j.val - 8)
      have hexp : 15 - j.val - 8 + 8 = 15 - j.val := by omega
      rw [hexp] at hsplit
      have hbound : w.toNat / 128 % 2 ^ (15 - j.val - 8 + 1) * 128 + w.toNat % 128 < 32768 := by
        rw [hsplit]; exact hmodlt
      have hlow : w.toNat / 128 % 2 ^ (15 - j.val - 8 + 1) < 2 ^ ((15 - j.val - 8) % 8 + 1) := by
        rw [hb8]; exact Nat.mod_lt _ (by positivity)
      have hT := hh (⟨(15 - j.val - 8) % 8, Nat.mod_lt _ (by norm_num)⟩ : Fin 8)
        (⟨w.toNat / 128 % 2 ^ (15 - j.val - 8 + 1), h1⟩ : Fin 256) (⟨w.toNat % 128, h2⟩ : Fin 128)
        hlow hbound
      rw [hT]
      exact tab_at bits tables r j _ _
        (by show 8 + (15 - j.val - 8) % 8 = 15 - j.val; omega)
        (by show w.toNat / 128 % 2 ^ (15 - j.val - 8 + 1) * 128 + w.toNat % 128 = _
            rw [hsplit, hw])
  show Cert.Spec.flipBy (Cert.Spec.kbit w (15 - j.val)) (kflipW w small hwt rs (15 - j.val))
      = Cert.Spec.flipBy (Cert.Spec.wordVal (bits (ix2 r j))) (tables (Cert.Spec.tabIdx bits r j))
  rw [hA, hB]

end Cert.KernelIdeal.Join

end
-- ==== Proof.Join.lean ====
/-
  The function of the four staged arrays that the kernel leaves is the function G of the two arguments.

  Row by row and column by column: the row's packed word has the row's number as its value; the short
  rows are the table's first eight rows cut to 128 columns; the stacked tables hold, below each bit's real
  width, the table row of that bit laid out 128 to a line; and the residual is zero.
-/
import proofs.«417890_j27668179321269_3_alg».proof.Proof.KSpec
import proofs.«417890_j27668179321269_3_alg».proof.Proof.HostWord
import proofs.«417890_j27668179321269_3_alg».proof.Proof.HostTabs
import proofs.«417890_j27668179321269_3_alg».proof.Proof.JoinCol
import proofs.«417890_j27668179321269_3_alg».proof.Proof.SpecG

noncomputable section

namespace Cert.KernelIdeal.Join

open Idealize.ShloMosaic Idealize.ShloMosaic.TcCoe Idealize.ShloMosaic.ValueIdx
open Cert.KernelIdeal Cert.KernelIdeal.Gen Cert.KernelIdeal.Hand

variable (m : (ℓ : Loc nD τ sig) → Buf (Elt Ideal) ℓ) (c : Dev nD)

theorem karr_eq
    (hb : ∀ idx, (m ((c : Thread nD τ).loc main_arg0) : IVec S2097152x16 32) idx = 0#32
      ∨ (m ((c : Thread nD τ).loc main_arg0) : IVec S2097152x16 32) idx = 1#32)
    (hfin : ∀ idx, Cert.KernelIdeal.HostVal.tabs m c idx ≠ ⊤ ∧ Cert.KernelIdeal.HostVal.tabs m c idx ≠ ⊥) :
    Karr (V m c main_v9) (V m c main_v10) (V m c main_v51) (V m c main_v54)
      = Cert.Spec.G (m ((c : Thread nD τ).loc main_arg0)) (m ((c : Thread nD τ).loc main_arg1)) := by
  funext i
  obtain ⟨r, j, rfl⟩ : ∃ (r : Fin 2097152) (j : Fin 16), i = ix2 r j := ⟨i 0, i 1, eq_ix2 i⟩
  rw [Cert.Spec.G_apply]
  show kcolW ((V m c main_v9 : IVec S2097152x1 32) (ix2 r (0 : Fin 1))) (V m c main_v10) (V m c main_v51) (V m c main_v54) j = _
  refine kcolW_eq _ _ hb r _ (Cert.KernelIdeal.HostVal.word_toNat m c hb r) _ _ _
    (Cert.KernelIdeal.HostVal.small_apply m c) ?_ (Cert.KernelIdeal.HostVal.resid_apply m c hfin) j
  intro b h l hlt hbound
  rw [Cert.KernelIdeal.HostVal.hi_apply, Cert.KernelIdeal.HostVal.stack_apply, dif_pos hlt]

end Cert.KernelIdeal.Join

end
-- ==== Proof.PreDecode.lean ====
/-
  What the precondition says of the two argument arrays.

  The predicate is the conjunction of two universal statements, each computed as an "and" over a whole
  array: every table entry has absolute value below +∞, and every entry of the bit array equals the
  word 0 or equals the word 1. Where the predicate is 1, every entry of each compared array is 1; an
  absolute value below +∞ is neither infinity, and a comparison for equality that holds is an equality.
-/
import proofs.«417890_j27668179321269_3_alg».proof.Pre_finite_inputs
import Idealize.ShloMosaic.Lib.ReduceAll
import Idealize.ShloMosaic.Lib.ValueIdx
import Idealize.ShloMosaic.PureOps.Ideal

noncomputable section

namespace Cert.PreDecode

open Idealize.ShloMosaic Cert.Pre_finite_inputs

instance : Subsingleton S_.Idx := ⟨fun a b => funext fun d => d.elim0⟩

/-- An extended real whose absolute value, the larger of x and -x, is below +∞ is neither infinity. -/
theorem finite_of_abs_lt (x : EReal)
    (h : Ideal.cmp .olt (max x (-x)) (Ideal.ofBits .f32 0x7F800000#32) = 1#1) : x ≠ ⊤ ∧ x ≠ ⊥ := by
  have htop : Ideal.ofBits .f32 0x7F800000#32 = ⊤ := by simp [Ideal.ofBits, Ideal.ieee]
  rw [htop] at h
  unfold Ideal.cmp at h
  have hlt : max x (-x) < ⊤ := by
    by_contra hn
    simp [hn] at h
  rw [max_lt_iff] at hlt
  refine ⟨ne_of_lt hlt.1, ?_⟩
  rintro rfl
  simp at hlt

/-- Under the precondition every entry of the bit array is the word 0 or the word 1, and every table entry is finite. -/
theorem decode [Facts] (bits : IVec S2097152x16 32) (tables : FVec Ideal S16x32768 .f32)
    (h : fn (F := Ideal) bits tables = fun _ => 1#1) :
    (∀ idx, bits idx = 0#32 ∨ bits idx = 1#32) ∧ (∀ idx, tables idx ≠ ⊤ ∧ tables idx ≠ ⊥) := by
  have h0 := congrFun h ValueIdx.ix0
  dsimp only [fn] at h0
  obtain ⟨h1, h2⟩ := IntOp.andi_eq_one.1 h0
  refine ⟨fun idx => ?_, fun idx => ?_⟩
  · have e := Host.reduce_andi_all _ _ _ _ _ h2 idx
    rcases IntOp.ori_eq_one.1 e with e0 | e1
    · exact Or.inl (IntOp.cmpi_eq.1 e0)
    · exact Or.inr (IntOp.cmpi_eq.1 e1)
  · have e := Host.reduce_andi_all _ _ _ _ _ h1 idx
    exact finite_of_abs_lt (tables idx) e

end Cert.PreDecode

end
-- ==== Proof.KernelVal.lean ====
/-
  The idealized kernel's run, with its result named.

  Under the precondition every entry of the bit array is the word 0 or 1 and every table entry is finite.
  The frame run leaves the result array at the value the 512 write-backs compose to, which is the
  kernel's column formula at each row's packed word over the three staged table arrays; those arrays are
  the table's first 128 columns of its first eight rows, the eight zero-padded rearrangements of its last
  eight rows, and a residual that is zero for finite entries; and the packed word of a row of zeros and
  ones has the row's bits as its binary digits. So the result array is the function G of the two arguments.
-/
import proofs.«417890_j27668179321269_3_alg».proof.Proof.Blocks
import proofs.«417890_j27668179321269_3_alg».proof.Proof.BodyAt
import proofs.«417890_j27668179321269_3_alg».proof.Proof.Join
import proofs.«417890_j27668179321269_3_alg».proof.Proof.PreDecode
import proofs.«417890_j27668179321269_3_alg».proof.Defs

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (ρ : Dev nD → PrngReg)

/-- Every weakly fair execution of the idealized kernel program from a memory satisfying the precondition ends with
    the result array at `G` of the two argument arrays, and those unchanged. -/
theorem run_value [hP : Cert.Pre_finite_inputs.Facts] (hpre : Cert.Pre_KernelIdeal m) :
    θ_run defs (onTc (τ := τ) (main (F := Ideal))) ⟨m, fun _ => 0, ρ⟩ (fun r => ∀ c : Dev nD,
      r.2.mem ((c.tc : Thread nD τ).loc main_v55)
          = Cert.Spec.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (run_main m ρ)
  obtain ⟨hb, hfin⟩ := Cert.PreDecode.decode _ _ (hpre c)
  refine ⟨?_, ?_, ?_⟩
  · refine ((h c).1 4).trans ?_
    rw [final4 m Cert.KernelIdeal.BodyAt.bodyVal_apply' c]
    exact Cert.KernelIdeal.Join.karr_eq m c hb hfin
  · exact ((h c).2 main_arg0 (Pipeline.mem_restRefs_of main_arg0 (by decide) (by decide))).trans (V_main_arg0 m c)
  · exact ((h c).2 main_arg1 (Pipeline.mem_restRefs_of main_arg1 (by decide) (by decide))).trans (V_main_arg1 m c)

end Cert.KernelIdeal.Hand

end
-- ==== Proof.RefVal.lean ====
/-
  The reference's result, entry by entry, is the function G of the two argument arrays.

  Entry (r, j) of the result is entry (r, 15 - j) of the array before the last reverse, that is bit i = 15 - j.
  There the bit read as a number is bits[r, j]; the row's reduced word is, every entry being the word 0 or 1, a sum
  that does not wrap, with value the packed number n_r = Σ_k bits[r, k] · 2^(15-k) < 65536; the mask of bit i has value
  2^i - 1, so the address word has value n_r mod 2^i, which is below 32768 and not negative as a signed word: both
  wrap-around selects keep their unchanged operand, and both clamps of the gather are the identity. The gather
  therefore reads tables[i, n_r mod 2^i], and the pointwise tail is (b + f) - (2·b)·f.
-/
import proofs.«417890_j27668179321269_3_alg».proof.Proof.RefReadP
import proofs.«417890_j27668179321269_3_alg».proof.Proof.SpecG
import Idealize.ShloMosaic.Lib.ValueIdx
import Idealize.ShloMosaic.Lib.Pipeline.Value
import Idealize.ShloMosaic.Lib.StableHlo.Predicate

noncomputable section

namespace Cert.RefVal

open Idealize.ShloMosaic Idealize.ShloMosaic.ValueIdx Cert.ReferenceIdeal Cert.ReferenceIdeal.ReadP
open Idealize.ShloMosaic.StableHlo.Predicate
open scoped BigOperators

variable {F : FTy → Type} [FloatOps F]

/-- A reverse along axis 1 at (r, k) reads column 15 - k. -/
theorem reverse_apply {α : Type} (x : S2097152x16.Idx → α) (r : Fin 2097152) (k : Fin 16) :
    Host.reverse [1] x (ix2 r k) = x (ix2 r k.rev) := by
  unfold Host.reverse
  refine congrArg x ?_
  funext a
  match a with
  | ⟨0, _⟩ => rfl
  | ⟨1, _⟩ => rfl

/-- The reversed bit array at (r, k) is the bit array at (r, 15 - k). -/
theorem v0_apply (bits : IVec S2097152x16 32) (r : Fin 2097152) (k : Fin 16) :
    val_main_v0 (F := F) bits (ix2 r k) = bits (ix2 r k.rev) := by
  unfold val_main_v0
  exact reverse_apply bits r k

/-- The weight array at (r, k) is the word 1 shifted left by k. -/
theorem v5_apply (r : Fin 2097152) (k : Fin 16) :
    val_main_v5 (F := F) (ix2 r k) = IntOp.shli .host 1#32 (BitVec.ofNat 32 k.val) := by
  rw [val_main_v5_apply, val_main_v4_apply, val_main_v3_apply, val_main_v2_apply, val_main_c_apply, val_main_v1_apply]

theorem reduces : S2097152x16.Reduces [1] S2097152 := by decide

/-- Row r's index with coordinate k put back on the reduced axis is (r, k). -/
theorem lift_eq (r : Fin 2097152) (k : Fin 16) : reduces.lift (ix1 r) k = ix2 r k := by
  funext c
  match c with
  | ⟨0, _⟩ => rfl
  | ⟨1, _⟩ => rfl

/-- The word 1 shifted left by k < 16 is 2^k. -/
theorem shl_one_toNat : ∀ k : Fin 16, (IntOp.shli .host 1#32 (BitVec.ofNat 32 k.val)).toNat = 2 ^ k.val := by
  decide

/-- A summand of the packing: the reversed bit times its weight, as a number. -/
theorem v6_toNat (bits : IVec S2097152x16 32) (hb : ∀ idx, bits idx = 0#32 ∨ bits idx = 1#32)
    (r : Fin 2097152) (k : Fin 16) :
    (val_main_v6 (F := F) bits (ix2 r k)).toNat = (bits (ix2 r k.rev)).toNat * 2 ^ k.val := by
  rw [val_main_v6_apply, v0_apply, v5_apply]
  have hs := shl_one_toNat k
  have hlt : 2 ^ k.val < 2 ^ 32 := Nat.pow_lt_pow_right (by norm_num) (by have := k.isLt; omega)
  show (bits (ix2 r k.rev) * IntOp.shli .host 1#32 (BitVec.ofNat 32 k.val)).toNat = _
  rw [BitVec.toNat_mul, hs]
  have h0 : (0#32 : BitVec 32).toNat = 0 := rfl
  have h1 : (1#32 : BitVec 32).toNat = 1 := rfl
  rcases hb (ix2 r k.rev) with h | h
  · rw [h, h0, Nat.zero_mul]
  · rw [h, h1, Nat.one_mul]; exact Nat.mod_eq_of_lt hlt

theorem sum_pow_le (b : Fin 16 → ℕ) (hb : ∀ k, b k ≤ 1) : ∑ k : Fin 16, b k * 2 ^ k.val < 2 ^ 32 := by
  have h1 : ∑ k : Fin 16, b k * 2 ^ k.val ≤ ∑ k : Fin 16, 2 ^ k.val :=
    Finset.sum_le_sum fun k _ => by
      have := hb k
      calc b k * 2 ^ k.val ≤ 1 * 2 ^ k.val := Nat.mul_le_mul_right _ this
        _ = 2 ^ k.val := Nat.one_mul _
  have h2 : ∑ k : Fin 16, 2 ^ k.val = 65535 := by decide
  omega

/-- THE PACKED VALUE: row r's reduced word is, as a number, the row's packed number. -/
theorem v7_toNat (bits : IVec S2097152x16 32) (hb : ∀ idx, bits idx = 0#32 ∨ bits idx = 1#32)
    (r : Fin 2097152) :
    (val_main_v7 (F := F) bits (ix1 r)).toNat = Cert.Spec.packedNat bits r := by
  unfold val_main_v7
  rw [Host.reduce_eq_fold_single IntOp.addi _ _ _ reduces]
  have hle : ∀ k : Fin 16, (bits (ix2 r k.rev)).toNat ≤ 1 := fun k => by
    rcases hb (ix2 r k.rev) with h | h <;> rw [h] <;> decide
  have hterm : ∀ k : Fin 16, ((val_main_v6 (F := F) bits ∘ reduces.lift (ix1 r)) k).toNat
      = (bits (ix2 r k.rev)).toNat * 2 ^ k.val := fun k => by
    show (val_main_v6 (F := F) bits (reduces.lift (ix1 r) k)).toNat = _
    rw [lift_eq, v6_toNat bits hb]
  have hsum : ∑ k : Fin 16, ((val_main_v6 (F := F) bits ∘ reduces.lift (ix1 r)) k).toNat
      = ∑ k : Fin 16, (bits (ix2 r k.rev)).toNat * 2 ^ k.val := Finset.sum_congr rfl fun k _ => hterm k
  refine (toNat_fold_addi (Finset.univ : Finset (Fin (S2097152x16.size 1)))
    (val_main_v6 (F := F) bits ∘ reduces.lift (ix1 r)) ?_).trans ?_
  · show ∑ k : Fin 16, ((val_main_v6 (F := F) bits ∘ reduces.lift (ix1 r)) k).toNat < 2 ^ 32
    rw [hsum]; exact sum_pow_le _ hle
  · show ∑ k : Fin 16, ((val_main_v6 (F := F) bits ∘ reduces.lift (ix1 r)) k).toNat = _
    rw [hsum]
    unfold Cert.Spec.packedNat
    rw [← Equiv.sum_comp Fin.revPerm (fun k : Fin 16 => (bits (ix2 r k)).toNat * 2 ^ (15 - k.val))]
    refine Finset.sum_congr rfl fun k _ => ?_
    have hk := k.isLt
    show _ = (bits (ix2 r k.rev)).toNat * 2 ^ (15 - (k.rev).val)
    have e : 15 - (k.rev).val = k.val := by rw [Fin.val_rev]; omega
    rw [e]

/-- The mask of bit i, as a number: 2^i - 1. -/
theorem mask_toNat : ∀ i : Fin 16,
    (IntOp.subi (IntOp.shli .host 1#32 (BitVec.ofNat 32 i.val)) 1#32).toNat = 2 ^ i.val - 1 := by
  decide

theorem v12_apply (i : Fin 16) :
    val_main_v12 (F := F) (ix1 i) = IntOp.subi (IntOp.shli .host 1#32 (BitVec.ofNat 32 i.val)) 1#32 := by
  rw [val_main_v12_apply, val_main_v10_apply, val_main_v9_apply, val_main_c_1_apply, val_main_v8_apply,
    val_main_v11_apply, val_main_c_2_apply]

theorem idx13_15 (r : Fin 2097152) (i : Fin 16) : idx_main_v13 (idx_main_v15 (ix2 r i)) = ix1 r := by
  funext a; match a with | ⟨0, _⟩ => rfl

theorem idx14_16 (r : Fin 2097152) (i : Fin 16) : idx_main_v14 (idx_main_v16 (ix2 r i)) = ix1 i := by
  funext a; match a with | ⟨0, _⟩ => rfl

/-- The address word at (r, i): the packed word and the mask of bit i. -/
theorem v17_apply (bits : IVec S2097152x16 32) (r : Fin 2097152) (i : Fin 16) :
    val_main_v17 (F := F) bits (ix2 r i)
      = IntOp.andi (val_main_v7 (F := F) bits (ix1 r)) (val_main_v12 (F := F) (ix1 i)) := by
  rw [val_main_v17_apply, val_main_v15_apply, val_main_v13_apply, val_main_v16_apply, val_main_v14_apply,
    idx13_15, idx14_16]

/-- The address at (r, i), as a number: the packed number modulo 2^i. -/
theorem v17_toNat (bits : IVec S2097152x16 32) (hb : ∀ idx, bits idx = 0#32 ∨ bits idx = 1#32)
    (r : Fin 2097152) (i : Fin 16) :
    (val_main_v17 (F := F) bits (ix2 r i)).toNat = Cert.Spec.packedNat bits r % 2 ^ i.val := by
  rw [v17_apply, v12_apply]
  show (val_main_v7 (F := F) bits (ix1 r) &&& _).toNat = _
  rw [BitVec.toNat_and, v7_toNat bits hb, mask_toNat, Nat.and_two_pow_sub_one_eq_mod]

theorem v17_lt (bits : IVec S2097152x16 32) (hb : ∀ idx, bits idx = 0#32 ∨ bits idx = 1#32)
    (r : Fin 2097152) (i : Fin 16) :
    (val_main_v17 (F := F) bits (ix2 r i)).toNat < 32768 := by
  rw [v17_toNat bits hb]
  have hi := i.isLt
  calc Cert.Spec.packedNat bits r % 2 ^ i.val < 2 ^ i.val := Nat.mod_lt _ (Nat.pos_of_ne_zero (by positivity))
    _ ≤ 2 ^ 15 := Nat.pow_le_pow_right (by norm_num) (by omega)
    _ = 32768 := by norm_num

/-- The address is not negative, so the wrap-around select keeps it. -/
theorem v29_apply (bits : IVec S2097152x16 32) (hb : ∀ idx, bits idx = 0#32 ∨ bits idx = 1#32)
    (r : Fin 2097152) (i : Fin 16) :
    val_main_v29 (F := F) bits (ix2 r i) = val_main_v17 (F := F) bits (ix2 r i) := by
  rw [val_main_v29_apply, val_main_v26_apply, val_main_v25_apply, val_main_c_5_apply]
  have hA : (val_main_v17 (F := F) bits (ix2 r i)).toNat < 2 ^ 31 :=
    lt_trans (v17_lt bits hb r i) (by norm_num)
  have hc : IntOp.cmpi .slt (val_main_v17 (F := F) bits (ix2 r i)) 0#32 = 0#1 :=
    eq_zero_of_ne_one fun h => absurd ((slt_iff_toNat hA (by decide)).1 h) (Nat.not_lt_zero _)
  rw [hc, select_zero]

theorem slt_zero_small : ∀ i : Fin 16, IntOp.cmpi .slt (BitVec.ofNat 32 i.val) 0#32 = 0#1 := by decide

/-- The table-row word at (r, i): the word of i (it is not negative, so its select keeps it). -/
theorem v30_apply (r : Fin 2097152) (i : Fin 16) :
    val_main_v30 (F := F) (ix2 r i) = BitVec.ofNat 32 i.val := by
  rw [val_main_v30_apply, val_main_v24_apply, val_main_v21_apply, val_main_v19_apply, val_main_v18_apply,
    val_main_v20_apply, val_main_c_3_apply]
  show Scalar.select (IntOp.cmpi .slt (BitVec.ofNat 32 i.val) 0#32) _ (BitVec.ofNat 32 i.val) = _
  rw [slt_zero_small i, select_zero]

theorem idx31 (r : Fin 2097152) (i : Fin 16) : idx_main_v31 (ix3 r i (0 : Fin 1)) = ix2 r i := by
  funext a; match a with | ⟨0, _⟩ => rfl | ⟨1, _⟩ => rfl

theorem idx32 (r : Fin 2097152) (i : Fin 16) : idx_main_v32 (ix3 r i (0 : Fin 1)) = ix2 r i := by
  funext a; match a with | ⟨0, _⟩ => rfl | ⟨1, _⟩ => rfl

/-- Component 0 of the start index at (r, i): the word of i. -/
theorem v33_apply0 (bits : IVec S2097152x16 32) (r : Fin 2097152) (i : Fin 16) :
    val_main_v33 (F := F) bits (ix3 r i (0 : Fin 2)) = BitVec.ofNat 32 i.val := by
  unfold val_main_v33
  refine (concatenate_pair_apply_left (t := S2097152x16x2) (s₁ := S2097152x16x1) (s₂ := S2097152x16x1) (2 : Fin 3) _ _ _ (ix3 r i (0 : Fin 2)) rfl (ix3 r i (0 : Fin 1))
    (fun b => by match b with | ⟨0, _⟩ => rfl | ⟨1, _⟩ => rfl | ⟨2, _⟩ => rfl)).trans ?_
  rw [val_main_v31_apply, idx31, v30_apply]

/-- Component 1 of the start index at (r, i): the address word. -/
theorem v33_apply1 (bits : IVec S2097152x16 32) (hb : ∀ idx, bits idx = 0#32 ∨ bits idx = 1#32)
    (r : Fin 2097152) (i : Fin 16) :
    val_main_v33 (F := F) bits (ix3 r i (1 : Fin 2)) = val_main_v17 (F := F) bits (ix2 r i) := by
  unfold val_main_v33
  refine (concatenate_pair_apply_right (t := S2097152x16x2) (s₁ := S2097152x16x1) (s₂ := S2097152x16x1) (2 : Fin 3) _ _ _ (ix3 r i (1 : Fin 2)) rfl rfl (ix3 r i (0 : Fin 1))
    (fun b hb' => by
      match b with
      | ⟨0, _⟩ => rfl
      | ⟨1, _⟩ => rfl
      | ⟨2, _⟩ => exact absurd rfl hb') rfl).trans ?_
  rw [val_main_v32_apply, idx32, v29_apply bits hb]

/-- The gather's dimension numbers. -/
abbrev gd : GatherDims S16x32768 S2097152x16x2 S2097152x16 :=
  gather_S16x32768_S2097152x16x2_S2097152x16_n_01_n_n_01_2_11

/-- The table row the gather reads at (r, i): component 0 of the start index, read signed, clamped into 0 … 15. -/
theorem gather_coord0 (idx : IVec S2097152x16x2 32) (r : Fin 2097152) (i : Fin 16) :
    (gd.operandIdx (ix2 r i) idx (0 : Fin 2)).val = min (idx (ix3 r i (0 : Fin 2))).toInt.toNat 15 := by
  show gd.start (ix2 r i) idx 0 + gd.batchCoord (ix2 r i) 0 + gd.offCoord (ix2 r i) 0 = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (0 : Fin 2) ∈ gd.startIndexMap by decide)]
  have hsi : gd.siIdx (ix2 r i) ⟨List.idxOf (0 : Fin 2) gd.startIndexMap,
      List.idxOf_lt_length_iff.2 (by decide)⟩ = ix3 r i (0 : Fin 2) := by
    funext b; refine Fin.ext ?_
    match b with
    | ⟨0, _⟩ => rfl
    | ⟨1, _⟩ => rfl
    | ⟨2, _⟩ => rfl
  rw [hsi]
  rfl

/-- The table column the gather reads at (r, i): component 1 of the start index, read signed, clamped into 0 … 32767. -/
theorem gather_coord1 (idx : IVec S2097152x16x2 32) (r : Fin 2097152) (i : Fin 16) :
    (gd.operandIdx (ix2 r i) idx (1 : Fin 2)).val = min (idx (ix3 r i (1 : Fin 2))).toInt.toNat 32767 := by
  show gd.start (ix2 r i) idx 1 + gd.batchCoord (ix2 r i) 1 + gd.offCoord (ix2 r i) 1 = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (1 : Fin 2) ∈ gd.startIndexMap by decide)]
  have hsi : gd.siIdx (ix2 r i) ⟨List.idxOf (1 : Fin 2) gd.startIndexMap,
      List.idxOf_lt_length_iff.2 (by decide)⟩ = ix3 r i (1 : Fin 2) := by
    funext b; refine Fin.ext ?_
    match b with
    | ⟨0, _⟩ => rfl
    | ⟨1, _⟩ => rfl
    | ⟨2, _⟩ => rfl
  rw [hsi]
  rfl

theorem clamp_row : ∀ i : Fin 16, min (BitVec.ofNat 32 i.val).toInt.toNat 15 = i.val := by decide

/-- The gather at (r, i) over any start-index array whose component 0 there is the word of i and whose
    component 1 there is a word of value n < 32768: the table of bit i at n (both clamps are the identity). -/
theorem gather_at {α : Type} (tables : S16x32768.Idx → α) (idx : IVec S2097152x16x2 32) (r : Fin 2097152)
    (i : Fin 16) (n : ℕ) (hn : n < 32768) (h0 : idx (ix3 r i (0 : Fin 2)) = BitVec.ofNat 32 i.val)
    (h1 : (idx (ix3 r i (1 : Fin 2))).toNat = n) :
    Host.gather gd tables idx (ix2 r i) = tables (ix2 i (⟨n, hn⟩ : Fin 32768)) := by
  unfold Host.gather
  refine congrArg tables ?_
  funext a
  refine Fin.ext ?_
  match a with
  | ⟨0, _⟩ =>
    show (gd.operandIdx (ix2 r i) idx (0 : Fin 2)).val = i.val
    rw [gather_coord0, h0, clamp_row]
  | ⟨1, _⟩ =>
    show (gd.operandIdx (ix2 r i) idx (1 : Fin 2)).val = n
    rw [gather_coord1]
    have hI := toInt_eq_toNat_of_lt (a := idx (ix3 r i (1 : Fin 2))) (by omega)
    omega

/-- THE GATHER at (r, i): the table of bit i at the packed number modulo 2^i. -/
theorem v34_apply (bits : IVec S2097152x16 32) (tables : (⟨S16x32768, .f32⟩ : BufTy).Contents (Elt F))
    (hb : ∀ idx, bits idx = 0#32 ∨ bits idx = 1#32) (r : Fin 2097152) (i : Fin 16)
    (hlt : Cert.Spec.packedNat bits r % 2 ^ i.val < 32768) :
    val_main_v34 (F := F) bits tables (ix2 r i)
      = tables (ix2 i (⟨Cert.Spec.packedNat bits r % 2 ^ i.val, hlt⟩ : Fin 32768)) := by
  unfold val_main_v34
  exact gather_at tables (val_main_v33 (F := F) bits) r i _ hlt (v33_apply0 bits r i)
    ((congrArg BitVec.toNat (v33_apply1 bits hb r i)).trans (v17_toNat bits hb r i))

/-- Column 15 - j and the address modulo 2^(15-j), written through the reversed column. -/
theorem ix2_rev_eq (n : ℕ) (j : Fin 16) (hlt : n % 2 ^ (j.rev).val < 32768) (h1 : 15 - j.val < 16)
    (h2 : n % 2 ^ (15 - j.val) < 32768) :
    (ix2 j.rev (⟨n % 2 ^ (j.rev).val, hlt⟩ : Fin 32768) : (⟨2, ![16, 32768]⟩ : Shape).Idx)
      = ix2 (⟨15 - j.val, h1⟩ : Fin 16) (⟨n % 2 ^ (15 - j.val), h2⟩ : Fin 32768) := by
  have e : (j.rev).val = 15 - j.val := by rw [Fin.val_rev]; have := j.isLt; omega
  funext a
  match a with
  | ⟨0, _⟩ => exact Fin.ext e
  | ⟨1, _⟩ => exact Fin.ext (by show n % 2 ^ (j.rev).val = n % 2 ^ (15 - j.val); rw [e])

/-- The table position of output column j, written through the reversed column 15 - j. -/
theorem tabIdx_eq (bits : IVec S2097152x16 32) (r : Fin 2097152) (j : Fin 16)
    (hlt : Cert.Spec.packedNat bits r % 2 ^ (j.rev).val < 32768) :
    ix2 j.rev (⟨Cert.Spec.packedNat bits r % 2 ^ (j.rev).val, hlt⟩ : Fin 32768) = Cert.Spec.tabIdx bits r j :=
  ix2_rev_eq (Cert.Spec.packedNat bits r) j hlt (by omega) (Cert.Spec.addr_lt _ j)

/-- The result's reverse at (r, j) reads column 15 - j. -/
theorem v41_apply (bits : IVec S2097152x16 32) (tables : (⟨S16x32768, .f32⟩ : BufTy).Contents (Elt F))
    (r : Fin 2097152) (j : Fin 16) :
    val_main_v41 (F := F) bits tables (ix2 r j) = val_main_v40 (F := F) bits tables (ix2 r j.rev) := by
  unfold val_main_v41
  exact reverse_apply _ r j

/-- THE REFERENCE AT (r, j): entry (r, j) of the result is the specification's value there. -/
theorem ref_apply (bits : IVec Cert.ReferenceIdeal.S2097152x16 32)
    (tables : FVec Ideal Cert.ReferenceIdeal.S16x32768 .f32)
    (hb : ∀ idx, bits idx = 0#32 ∨ bits idx = 1#32) (r : Fin 2097152) (j : Fin 16) :
    Cert.ReferenceIdeal.ReadP.val_main_v41 (F := Ideal) bits tables (ix2 r j) = Cert.Spec.Gat bits tables r j := by
  have hlt : Cert.Spec.packedNat bits r % 2 ^ (j.rev).val < 32768 := by
    have hi := (j.rev).isLt
    calc Cert.Spec.packedNat bits r % 2 ^ (j.rev).val < 2 ^ (j.rev).val :=
          Nat.mod_lt _ (Nat.pos_of_ne_zero (by positivity))
      _ ≤ 2 ^ 15 := Nat.pow_le_pow_right (by norm_num) (by omega)
      _ = 32768 := by norm_num
  rw [v41_apply (F := Ideal), val_main_v40_apply, val_main_v36_apply, val_main_v39_apply, val_main_v38_apply,
    val_main_v37_apply, val_main_cst_apply, val_main_v35_apply, v0_apply (F := Ideal),
    v34_apply (F := Ideal) bits tables hb r j.rev hlt, Fin.rev_rev, tabIdx_eq bits r j hlt]
  rfl

end Cert.RefVal
end
-- ==== Proof.lean ====
/-
  The proof of `Cert.Claim`: the kernel and its idealization run to the end and leave their two arguments
  unchanged, the reference likewise, the idealization rewrote nothing, and at the ideal instance the
  kernel and the reference end with the same result array.

  Both programs compute, for row r and output column j (bit i = 15 - j), the value (b + f) - (2·b)·f with
  b the bit's value and f = tables[i, n_r mod 2^i], n_r the number the row's sixteen entries spell in
  binary. The reference takes b to be the entry itself and indexes the table; the kernel packs the row
  into a word on the host, takes b as bit i of that word, and looks f up by multiplying table rows with
  0/1 indicators and summing — which selects exactly one entry, whatever the other entries are —, for the
  upper eight bits through two matrix products against a table and its residual, the residual being zero
  for finite table entries. The precondition says every entry of the bit array is 0 or 1 (so bit i of the
  packed word IS the entry) and every table entry is finite.
-/
import proofs.«417890_j27668179321269_3_alg».proof.Defs
import proofs.«417890_j27668179321269_3_alg».proof.Proof.Gen.Kernel
import proofs.«417890_j27668179321269_3_alg».proof.Proof.Gen.KernelIdeal
import proofs.«417890_j27668179321269_3_alg».proof.Proof.Gen.ReferenceIdeal
import proofs.«417890_j27668179321269_3_alg».proof.Proof.Gen.Pre_finite_inputs
import proofs.«417890_j27668179321269_3_alg».proof.Proof.FrameK
import proofs.«417890_j27668179321269_3_alg».proof.Proof.KernelVal
import proofs.«417890_j27668179321269_3_alg».proof.Proof.RefVal

noncomputable section

namespace Cert.Proof

open Idealize.ShloMosaic Idealize.ShloMosaic.TcCoe Idealize.ShloMosaic.ValueIdx Idealize.SL.Sem

/-- The word-level kernel program runs to the end and leaves its arguments as launched. -/
theorem frame_k : Cert.frame_Kernel := fun m ρ _ => Cert.Kernel.Hand.frame m ρ

/-- So does the idealized kernel program. -/
theorem frame_ki : Cert.frame_KernelIdeal := fun m ρ _ => Cert.KernelIdeal.Hand.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both runs end with the result array at `G` of the two argument arrays. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run_value m ρ hpre, ?_⟩
  refine (θ_run Cert.ReferenceIdeal.defs _ _).mono (fun _ h c => ⟨(h c).1.trans ?_, (h c).2⟩)
    (Cert.ReferenceIdeal.ValueP.run (F := Ideal) m' ρ')
  obtain ⟨hb, -⟩ := Cert.PreDecode.decode _ _ (hpre c)
  rw [Cert.ReferenceIdeal.ReadP.val_main_v41_eq, (hagree c).1, (hagree c).2]
  funext i
  obtain ⟨r, j, rfl⟩ : ∃ (r : Fin 2097152) (j : Fin 16), i = ix2 r j := ⟨i 0, i 1, eq_ix2 i⟩
  exact (Cert.RefVal.ref_apply _ _ hb r j).trans (Cert.Spec.G_apply _ _ r j).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
